-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x256x256 : Shape := ⟨4, ![8, 128, 256, 256]⟩
abbrev S_ : Shape := ⟨0, ![]⟩
abbrev S8x256x256 : Shape := ⟨3, ![8, 256, 256]⟩

class Facts : Prop where
  bcast_S_S8x128x256x256 : S_.BroadcastsInDim S8x128x256x256 (![] : Fin 0 → Fin S8x128x256x256.rank)
  reducesTo_S8x128x256x256_S_d0_1_2_3 : S8x128x256x256.ReducesTo [0, 1, 2, 3] S_
  h_S_ : 0 < S_.numel
  reducesTo_S8x128x256x256_S8x256x256_d1 : S8x128x256x256.ReducesTo [1] S8x256x256
  bcast_S_S8x256x256 : S_.BroadcastsInDim S8x256x256 (![] : Fin 0 → Fin S8x256x256.rank)
  reducesTo_S8x256x256_S_d0_1_2 : S8x256x256.ReducesTo [0, 1, 2] S_

variable [Facts]

def fn {F : FTy → Type} [FloatOps F] (main_arg0 : FVec F S8x128x256x256 .f32) : IVec S_ 1 :=
  let main_v0 : FVec F S8x128x256x256 .f32 := Host.absf main_arg0
  let main_cst : FVec F S_ .f32 := constant S_ .f32 0x7F800000#32
  let main_v1 : FVec F S8x128x256x256 .f32 := broadcastInDim S8x128x256x256 ![] bcast_S_S8x128x256x256 main_cst
  let main_v2 : IVec S8x128x256x256 1 := cmpf .olt main_v0 main_v1
  let main_c : IVec S_ 1 := constantI S_ 1 1#1
  let main_v3 : IVec S_ 1 := (fun x v => Host.reduce IntOp.andi x v reducesTo_S8x128x256x256_S_d0_1_2_3 h_S_) main_v2 main_c
  let main_v4 : FVec F S8x128x256x256 .f32 := mulf main_arg0 main_arg0
  let main_cst_0 : FVec F S_ .f32 := constant S_ .f32 0x00000000#32
  let main_v5 : FVec F S8x256x256 .f32 := (fun x v => Host.reduceAdd x v reducesTo_S8x128x256x256_S8x256x256_d1 h_S_) main_v4 main_cst_0
  let main_cst_1 : FVec F S_ .f32 := constant S_ .f32 0x00000000#32
  let main_v6 : FVec F S8x256x256 .f32 := broadcastInDim S8x256x256 ![] bcast_S_S8x256x256 main_cst_1
  let main_v7 : IVec S8x256x256 1 := cmpf .ogt main_v5 main_v6
  let main_c_2 : IVec S_ 1 := constantI S_ 1 1#1
  let main_v8 : IVec S_ 1 := (fun x v => Host.reduce IntOp.andi x v reducesTo_S8x256x256_S_d0_1_2 h_S_) main_v7 main_c_2
  let main_v9 : IVec S_ 1 := andi main_v3 main_v8
  main_v9
-- ==== Kernel.lean ====
abbrev S8x128x256x256 : Shape := ⟨4, ![8, 128, 256, 256]⟩
abbrev S8x8x256x256 : Shape := ⟨4, ![8, 8, 256, 256]⟩
abbrev S1x32x256x256 : Shape := ⟨4, ![1, 32, 256, 256]⟩
abbrev S1x8x256x256 : Shape := ⟨4, ![1, 8, 256, 256]⟩
abbrev S256x256 : Shape := ⟨2, ![256, 256]⟩
abbrev S8x256x256 : Shape := ⟨3, ![8, 256, 256]⟩
abbrev S32x256x256 : Shape := ⟨3, ![32, 256, 256]⟩
abbrev S32x1x256 : Shape := ⟨3, ![32, 1, 256]⟩
abbrev S32x258x256 : Shape := ⟨3, ![32, 258, 256]⟩
abbrev S32x258x1 : Shape := ⟨3, ![32, 258, 1]⟩
abbrev S32x258x258 : Shape := ⟨3, ![32, 258, 258]⟩
abbrev S1x256x256 : Shape := ⟨3, ![1, 256, 256]⟩
abbrev S1x256 : Shape := ⟨2, ![1, 256]⟩
abbrev S258x256 : Shape := ⟨2, ![258, 256]⟩
abbrev S258x1 : Shape := ⟨2, ![258, 1]⟩
abbrev S258x258 : Shape := ⟨2, ![258, 258]⟩
abbrev S1x1x256x256 : Shape := ⟨4, ![1, 1, 256, 256]⟩

abbrev nBuf : Space → Nat
  | .hbm => 2
  | .vmem => 6
  | .smem => 0
  | _ => 0

abbrev bufTy : (tb : Table) → Fin (tcTables nBuf tb) → BufTy
  | .hbm, ⟨0, _⟩ => ⟨S8x128x256x256, .f32⟩
  | .hbm, ⟨1, _⟩ => ⟨S8x8x256x256, .f32⟩
  | .local _ .vmem, ⟨0, _⟩ => ⟨S1x32x256x256, .f32⟩
  | .local _ .vmem, ⟨1, _⟩ => ⟨S1x32x256x256, .f32⟩
  | .local _ .vmem, ⟨2, _⟩ => ⟨S1x8x256x256, .f32⟩
  | .local _ .vmem, ⟨3, _⟩ => ⟨S1x8x256x256, .f32⟩
  | .local _ .vmem, ⟨4, _⟩ => ⟨S256x256, .f32⟩
  | .local _ .vmem, ⟨5, _⟩ => ⟨S8x256x256, .f32⟩
  | _, _ => ⟨S8x128x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v90 : BitVec 1 := Scalar.cmpi .eq arg1 c3_i32
  let v91 : BitVec 32 := Scalar.extui v90
  let c0_i32_57 : BitVec 32 := 0#32
  let v92 : BitVec 1 := Scalar.cmpi .ne v91 c0_i32_57
  v92

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S8x256x256_S8x256x256_0_0_0 : ∀ a, (![0, 0, 0] : Fin 3 → Nat) a + S8x256x256.size a ≤ S8x256x256.size a
  h_S8x256x256 : 0 < S8x256x256.numel
  shapeCasts_S8x256x256_S8x256x256 : S8x256x256.ShapeCasts S8x256x256
  inb_S1x32x256x256_S1x32x256x256_0_0_0_0 : ∀ a, (![0, 0, 0, 0] : Fin 4 → Nat) a + S1x32x256x256.size a ≤ S1x32x256x256.size a
  h_S1x32x256x256 : 0 < S1x32x256x256.numel
  shapeCasts_S1x32x256x256_S32x256x256 : S1x32x256x256.ShapeCasts S32x256x256
  reduces_S32x256x256_S256x256 : S32x256x256.Reduces [0] S256x256
  slices_S32x256x256_o0_1_0_S32x1x256 : S32x256x256.Slices ![0, 1, 0] S32x1x256
  slices_S32x256x256_o0_254_0_S32x1x256 : S32x256x256.Slices ![0, 254, 0] S32x1x256
  concatenates_S32x1x256_S32x256x256_S32x1x256_S32x258x256_d1 : Shape.Concatenates [S32x1x256, S32x256x256, S32x1x256] S32x258x256 1
  slices_S32x258x256_o0_0_1_S32x258x1 : S32x258x256.Slices ![0, 0, 1] S32x258x1
  slices_S32x258x256_o0_0_254_S32x258x1 : S32x258x256.Slices ![0, 0, 254] S32x258x1
  concatenates_S32x258x1_S32x258x256_S32x258x1_S32x258x258_d2 : Shape.Concatenates [S32x258x1, S32x258x256, S32x258x1] S32x258x258 2
  slices_S32x258x258_o0_0_1_S32x256x256 : S32x258x258.Slices ![0, 0, 1] S32x256x256
  inb_S8x256x256_S1x256x256_0_0_0 : ∀ a, (![0, 0, 0] : Fin 3 → Nat) a + S1x256x256.size a ≤ S8x256x256.size a
  h_S1x256x256 : 0 < S1x256x256.numel
  shapeCasts_S1x256x256_S256x256 : S1x256x256.ShapeCasts S256x256
  shapeCasts_S256x256_S1x256x256 : S256x256.ShapeCasts S1x256x256
  slices_S32x258x258_o0_0_0_S32x256x256 : S32x258x258.Slices ![0, 0, 0] S32x256x256
  inb_S8x256x256_S1x256x256_1_0_0 : ∀ a, (![1, 0, 0] : Fin 3 → Nat) a + S1x256x256.size a ≤ S8x256x256.size a
  slices_S32x258x258_o0_1_0_S32x256x256 : S32x258x258.Slices ![0, 1, 0] S32x256x256
  inb_S8x256x256_S1x256x256_2_0_0 : ∀ a, (![2, 0, 0] : Fin 3 → Nat) a + S1x256x256.size a ≤ S8x256x256.size a
  slices_S32x258x258_o0_2_0_S32x256x256 : S32x258x258.Slices ![0, 2, 0] S32x256x256
  inb_S8x256x256_S1x256x256_3_0_0 : ∀ a, (![3, 0, 0] : Fin 3 → Nat) a + S1x256x256.size a ≤ S8x256x256.size a
  slices_S32x258x258_o0_2_1_S32x256x256 : S32x258x258.Slices ![0, 2, 1] S32x256x256
  inb_S8x256x256_S1x256x256_4_0_0 : ∀ a, (![4, 0, 0] : Fin 3 → Nat) a + S1x256x256.size a ≤ S8x256x256.size a
  slices_S32x258x258_o0_2_2_S32x256x256 : S32x258x258.Slices ![0, 2, 2] S32x256x256
  inb_S8x256x256_S1x256x256_5_0_0 : ∀ a, (![5, 0, 0] : Fin 3 → Nat) a + S1x256x256.size a ≤ S8x256x256.size a
  slices_S32x258x258_o0_1_2_S32x256x256 : S32x258x258.Slices ![0, 1, 2] S32x256x256
  inb_S8x256x256_S1x256x256_6_0_0 : ∀ a, (![6, 0, 0] : Fin 3 → Nat) a + S1x256x256.size a ≤ S8x256x256.size a
  slices_S32x258x258_o0_0_2_S32x256x256 : S32x258x258.Slices ![0, 0, 2] S32x256x256
  inb_S8x256x256_S1x256x256_7_0_0 : ∀ a, (![7, 0, 0] : Fin 3 → Nat) a + S1x256x256.size a ≤ S8x256x256.size a
  slices_S256x256_o1_0_S1x256 : S256x256.Slices ![1, 0] S1x256
  slices_S256x256_o254_0_S1x256 : S256x256.Slices ![254, 0] S1x256
  concatenates_S1x256_S256x256_S1x256_S258x256_d0 : Shape.Concatenates [S1x256, S256x256, S1x256] S258x256 0
  slices_S258x256_o0_1_S258x1 : S258x256.Slices ![0, 1] S258x1
  slices_S258x256_o0_254_S258x1 : S258x256.Slices ![0, 254] S258x1
  concatenates_S258x1_S258x256_S258x1_S258x258_d1 : Shape.Concatenates [S258x1, S258x256, S258x1] S258x258 1
  slices_S258x258_o0_1_S256x256 : S258x258.Slices ![0, 1] S256x256
  inb_S1x8x256x256_S1x1x256x256_0_0_0_0 : ∀ a, (![0, 0, 0, 0] : Fin 4 → Nat) a + S1x1x256x256.size a ≤ S1x8x256x256.size a
  h_S1x1x256x256 : 0 < S1x1x256x256.numel
  shapeCasts_S1x1x256x256_S256x256 : S1x1x256x256.ShapeCasts S256x256
  shapeCasts_S256x256_S1x1x256x256 : S256x256.ShapeCasts S1x1x256x256
  slices_S258x258_o0_0_S256x256 : S258x258.Slices ![0, 0] S256x256
  inb_S1x8x256x256_S1x1x256x256_0_1_0_0 : ∀ a, (![0, 1, 0, 0] : Fin 4 → Nat) a + S1x1x256x256.size a ≤ S1x8x256x256.size a
  slices_S258x258_o1_0_S256x256 : S258x258.Slices ![1, 0] S256x256
  inb_S1x8x256x256_S1x1x256x256_0_2_0_0 : ∀ a, (![0, 2, 0, 0] : Fin 4 → Nat) a + S1x1x256x256.size a ≤ S1x8x256x256.size a
  slices_S258x258_o2_0_S256x256 : S258x258.Slices ![2, 0] S256x256
  inb_S1x8x256x256_S1x1x256x256_0_3_0_0 : ∀ a, (![0, 3, 0, 0] : Fin 4 → Nat) a + S1x1x256x256.size a ≤ S1x8x256x256.size a
  slices_S258x258_o2_1_S256x256 : S258x258.Slices ![2, 1] S256x256
  inb_S1x8x256x256_S1x1x256x256_0_4_0_0 : ∀ a, (![0, 4, 0, 0] : Fin 4 → Nat) a + S1x1x256x256.size a ≤ S1x8x256x256.size a
  slices_S258x258_o2_2_S256x256 : S258x258.Slices ![2, 2] S256x256
  inb_S1x8x256x256_S1x1x256x256_0_5_0_0 : ∀ a, (![0, 5, 0, 0] : Fin 4 → Nat) a + S1x1x256x256.size a ≤ S1x8x256x256.size a
  slices_S258x258_o1_2_S256x256 : S258x258.Slices ![1, 2] S256x256
  inb_S1x8x256x256_S1x1x256x256_0_6_0_0 : ∀ a, (![0, 6, 0, 0] : Fin 4 → Nat) a + S1x1x256x256.size a ≤ S1x8x256x256.size a
  slices_S258x258_o0_2_S256x256 : S258x258.Slices ![0, 2] S256x256
  inb_S1x8x256x256_S1x1x256x256_0_7_0_0 : ∀ a, (![0, 7, 0, 0] : Fin 4 → Nat) a + S1x1x256x256.size a ≤ S1x8x256x256.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x256x256.size a ≤ S8x128x256x256.size a
  hwx0_0 : ∀ i : grid0.Coords, EltTy.bits .f32 = 32 ∨ (Rect.block (s := S8x128x256x256) S1x32x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x256x256.size a ≤ S8x8x256x256.size a
  hwx0_1 : ∀ i : grid0.Coords, EltTy.bits .f32 = 32 ∨ (Rect.block (s := S8x8x256x256) S1x8x256x256.size (cc0_transform_1 i) (hinb0_1 i)).WholeWords (EltTy.packing .f32)

variable [Facts₀]

abbrev win0_0 : Pipeline.Window sig grid0 :=
  Pipeline.Window.ofSpec (Memref.whole main_arg0) S1x32x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S8x128x256x256 : Shape := ⟨4, ![8, 128, 256, 256]⟩
abbrev S_ : Shape := ⟨0, ![]⟩
abbrev S8x256x256 : Shape := ⟨3, ![8, 256, 256]⟩
abbrev S8x1x256x256 : Shape := ⟨4, ![8, 1, 256, 256]⟩
abbrev S8x128x1x256 : Shape := ⟨4, ![8, 128, 1, 256]⟩
abbrev S8x128x257x256 : Shape := ⟨4, ![8, 128, 257, 256]⟩
abbrev S8x128x258x256 : Shape := ⟨4, ![8, 128, 258, 256]⟩
abbrev S8x128x258x1 : Shape := ⟨4, ![8, 128, 258, 1]⟩
abbrev S8x128x258x257 : Shape := ⟨4, ![8, 128, 258, 257]⟩
abbrev S8x128x258x258 : Shape := ⟨4, ![8, 128, 258, 258]⟩
abbrev S8x8x256x256 : Shape := ⟨4, ![8, 8, 256, 256]⟩

abbrev nBuf : Space → Nat
  | .hbm => 66
  | .vmem => 0
  | .smem => 0
  | _ => 0

abbrev bufTy : (tb : Table) → Fin (tcTables nBuf tb) → BufTy
  | .hbm, ⟨0, _⟩ => ⟨S8x128x256x256, .f32⟩
  | .hbm, ⟨1, _⟩ => ⟨S8x128x256x256, .f32⟩
  | .hbm, ⟨2, _⟩ => ⟨S_, .f32⟩
  | .hbm, ⟨3, _⟩ => ⟨S8x256x256, .f32⟩
  | .hbm, ⟨4, _⟩ => ⟨S8x1x256x256, .f32⟩
  | .hbm, ⟨5, _⟩ => ⟨S8x1x256x256, .f32⟩
  | .hbm, ⟨6, _⟩ => ⟨S8x128x256x256, .f32⟩
  | .hbm, ⟨7, _⟩ => ⟨S8x128x256x256, .f32⟩
  | .hbm, ⟨8, _⟩ => ⟨S_, .i32⟩
  | .hbm, ⟨9, _⟩ => ⟨S8x128x1x256, .f32⟩
  | .hbm, ⟨10, _⟩ => ⟨S8x128x1x256, .f32⟩
  | .hbm, ⟨11, _⟩ => ⟨S8x128x1x256, .f32⟩
  | .hbm, ⟨12, _⟩ => ⟨S8x128x257x256, .f32⟩
  | .hbm, ⟨13, _⟩ => ⟨S8x128x1x256, .f32⟩
  | .hbm, ⟨14, _⟩ => ⟨S8x128x1x256, .f32⟩
  | .hbm, ⟨15, _⟩ => ⟨S8x128x1x256, .f32⟩
  | .hbm, ⟨16, _⟩ => ⟨S8x128x258x256, .f32⟩
  | .hbm, ⟨17, _⟩ => ⟨S8x128x258x1, .f32⟩
  | .hbm, ⟨18, _⟩ => ⟨S8x128x258x1, .f32⟩
  | .hbm, ⟨19, _⟩ => ⟨S8x128x258x1, .f32⟩
  | .hbm, ⟨20, _⟩ => ⟨S8x128x258x257, .f32⟩
  | .hbm, ⟨21, _⟩ => ⟨S8x128x258x1, .f32⟩
  | .hbm, ⟨22, _⟩ => ⟨S8x128x258x1, .f32⟩
  | .hbm, ⟨23, _⟩ => ⟨S8x128x258x1, .f32⟩
  | .hbm, ⟨24, _⟩ => ⟨S8x128x258x258, .f32⟩
  | .hbm, ⟨25, _⟩ => ⟨S8x128x256x256, .f32⟩
  | .hbm, ⟨26, _⟩ => ⟨S8x128x256x256, .f32⟩
  | .hbm, ⟨27, _⟩ => ⟨S_, .f32⟩
  | .hbm, ⟨28, _⟩ => ⟨S8x256x256, .f32⟩
  | .hbm, ⟨29, _⟩ => ⟨S8x1x256x256, .f32⟩
  | .hbm, ⟨30, _⟩ => ⟨S8x128x256x256, .f32⟩
  | .hbm, ⟨31, _⟩ => ⟨S8x128x256x256, .f32⟩
  | .hbm, ⟨32, _⟩ => ⟨S_, .f32⟩
  | .hbm, ⟨33, _⟩ => ⟨S8x256x256, .f32⟩
  | .hbm, ⟨34, _⟩ => ⟨S8x1x256x256, .f32⟩
  | .hbm, ⟨35, _⟩ => ⟨S8x128x256x256, .f32⟩
  | .hbm, ⟨36, _⟩ => ⟨S8x128x256x256, .f32⟩
  | .hbm, ⟨37, _⟩ => ⟨S_, .f32⟩
  | .hbm, ⟨38, _⟩ => ⟨S8x256x256, .f32⟩
  | .hbm, ⟨39, _⟩ => ⟨S8x1x256x256, .f32⟩
  | .hbm, ⟨40, _⟩ => ⟨S8x128x256x256, .f32⟩
  | .hbm, ⟨41, _⟩ => ⟨S8x128x256x256, .f32⟩
  | .hbm, ⟨42, _⟩ => ⟨S_, .f32⟩
  | .hbm, ⟨43, _⟩ => ⟨S8x256x256, .f32⟩
  | .hbm, ⟨44, _⟩ => ⟨S8x1x256x256, .f32⟩
  | .hbm, ⟨45, _⟩ => ⟨S8x128x256x256, .f32⟩
  | .hbm, ⟨46, _⟩ => ⟨S8x128x256x256, .f32⟩
  | .hbm, ⟨47, _⟩ => ⟨S_, .f32⟩
  | .hbm, ⟨48, _⟩ => ⟨S8x256x256, .f32⟩
  | .hbm, ⟨49, _⟩ => ⟨S8x1x256x256, .f32⟩
  | .hbm, ⟨50, _⟩ => ⟨S8x128x256x256, .f32⟩
  | .hbm, ⟨51, _⟩ => ⟨S8x128x256x256, .f32⟩
  | .hbm, ⟨52, _⟩ => ⟨S_, .f32⟩
  | .hbm, ⟨53, _⟩ => ⟨S8x256x256, .f32⟩
  | .hbm, ⟨54, _⟩ => ⟨S8x1x256x256, .f32⟩
  | .hbm, ⟨55, _⟩ => ⟨S8x128x256x256, .f32⟩
  | .hbm, ⟨56, _⟩ => ⟨S8x128x256x256, .f32⟩
  | .hbm, ⟨57, _⟩ => ⟨S_, .f32⟩
  | .hbm, ⟨58, _⟩ => ⟨S8x256x256, .f32⟩
  | .hbm, ⟨59, _⟩ => ⟨S8x1x256x256, .f32⟩
  | .hbm, ⟨60, _⟩ => ⟨S8x128x256x256, .f32⟩
  | .hbm, ⟨61, _⟩ => ⟨S8x128x256x256, .f32⟩
  | .hbm, ⟨62, _⟩ => ⟨S_, .f32⟩
  | .hbm, ⟨63, _⟩ => ⟨S8x256x256, .f32⟩
  | .hbm, ⟨64, _⟩ => ⟨S8x1x256x256, .f32⟩
  | .hbm, ⟨65, _⟩ => ⟨S8x8x256x256, .f32⟩
  | _, _ => ⟨S8x128x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_v6 : Ref sig .tc := ⟨.hbm, 15, rfl⟩
abbrev main_call1_v7 : Ref sig .tc := ⟨.hbm, 16, rfl⟩
abbrev main_call1_v8 : Ref sig .tc := ⟨.hbm, 17, rfl⟩
abbrev main_call1_v9 : Ref sig .tc := ⟨.hbm, 18, rfl⟩
abbrev main_call1_v10 : Ref sig .tc := ⟨.hbm, 19, rfl⟩
abbrev main_call1_v11 : Ref sig .tc := ⟨.hbm, 20, rfl⟩
abbrev main_call1_v12 : Ref sig .tc := ⟨.hbm, 21, rfl⟩
abbrev main_call1_v13 : Ref sig .tc := ⟨.hbm, 22, rfl⟩
abbrev main_call1_v14 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_1 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_2 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_3 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_4 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_5 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_6 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩

abbrev nD : Nat := 1
abbrev τ : Topo := Topo.v7x

variable {F : FTy → Type} [FloatOps F]

class Facts₀ : Prop where
  reducesTo_S8x128x256x256_S8x256x256_d1 : S8x128x256x256.ReducesTo [1] S8x256x256
  h_S_ : 0 < S_.numel
  bcast_S8x256x256_S8x1x256x256_0_2_3 : S8x256x256.BroadcastsInDim S8x1x256x256 (![0, 2, 3] : Fin 3 → Fin S8x1x256x256.rank)
  bcast_S8x1x256x256_S8x128x256x256_0_1_2_3 : S8x1x256x256.BroadcastsInDim S8x128x256x256 (![0, 1, 2, 3] : Fin 4 → Fin S8x128x256x256.rank)
  slices_S8x128x256x256_S8x128x1x256_0_0_0_0 : S8x128x256x256.Slices ![0, 0, 0, 0] S8x128x1x256
  slices_S8x128x256x256_S8x128x1x256_0_0_1_0 : S8x128x256x256.Slices ![0, 0, 1, 0] S8x128x1x256
  concatenates_S8x128x1x256_S8x128x256x256_S8x128x257x256_d2 : Shape.Concatenates [S8x128x1x256, S8x128x256x256] S8x128x257x256 2
  slices_S8x128x257x256_S8x128x1x256_0_0_256_0 : S8x128x257x256.Slices ![0, 0, 256, 0] S8x128x1x256
  slices_S8x128x257x256_S8x128x1x256_0_0_255_0 : S8x128x257x256.Slices ![0, 0, 255, 0] S8x128x1x256
  concatenates_S8x128x257x256_S8x128x1x256_S8x128x258x256_d2 : Shape.Concatenates [S8x128x257x256, S8x128x1x256] S8x128x258x256 2
  slices_S8x128x258x256_S8x128x258x1_0_0_0_0 : S8x128x258x256.Slices ![0, 0, 0, 0] S8x128x258x1
  slices_S8x128x258x256_S8x128x258x1_0_0_0_1 : S8x128x258x256.Slices ![0, 0, 0, 1] S8x128x258x1
  concatenates_S8x128x258x1_S8x128x258x256_S8x128x258x257_d3 : Shape.Concatenates [S8x128x258x1, S8x128x258x256] S8x128x258x257 3
  slices_S8x128x258x257_S8x128x258x1_0_0_0_256 : S8x128x258x257.Slices ![0, 0, 0, 256] S8x128x258x1
  slices_S8x128x258x257_S8x128x258x1_0_0_0_255 : S8x128x258x257.Slices ![0, 0, 0, 255] S8x128x258x1
  concatenates_S8x128x258x257_S8x128x258x1_S8x128x258x258_d3 : Shape.Concatenates [S8x128x258x257, S8x128x258x1] S8x128x258x258 3
  slices_S8x128x258x258_S8x128x256x256_0_0_0_1 : S8x128x258x258.Slices ![0, 0, 0, 1] S8x128x256x256
  slices_S8x128x258x258_S8x128x256x256_0_0_0_0 : S8x128x258x258.Slices ![0, 0, 0, 0] S8x128x256x256
  slices_S8x128x258x258_S8x128x256x256_0_0_1_0 : S8x128x258x258.Slices ![0, 0, 1, 0] S8x128x256x256
  slices_S8x128x258x258_S8x128x256x256_0_0_2_0 : S8x128x258x258.Slices ![0, 0, 2, 0] S8x128x256x256
  slices_S8x128x258x258_S8x128x256x256_0_0_2_1 : S8x128x258x258.Slices ![0, 0, 2, 1] S8x128x256x256
  slices_S8x128x258x258_S8x128x256x256_0_0_2_2 : S8x128x258x258.Slices ![0, 0, 2, 2] S8x128x256x256
  slices_S8x128x258x258_S8x128x256x256_0_0_1_2 : S8x128x258x258.Slices ![0, 0, 1, 2] S8x128x256x256
  slices_S8x128x258x258_S8x128x256x256_0_0_0_2 : S8x128x258x258.Slices ![0, 0, 0, 2] S8x128x256x256
  concatenates_S8x1x256x256_S8x1x256x256_S8x1x256x256_S8x1x256x256_S8x1x256x256_S8x1x256x256_S8x1x256x256_S8x1x256x256_S8x8x256x256_d1 : Shape.Concatenates [S8x1x256x256, S8x1x256x256, S8x1x256x256, S8x1x256x256, S8x1x256x256, S8x1x256x256, S8x1x256x256, S8x1x256x256] S8x8x256x256 1

variable [Facts₀]

class Facts : Prop extends Facts₀ where

variable [Facts]
-- ==== Proof.Spec.lean ====
/-
  The mathematics of the neighbour-correlation certificate, free of any program.

  Input: an array x over [8, 128, 256, 256] (batch, channel, row, column). For a pixel p = (b, h, w) let
  n(p) = sqrt (sum over the 128 channels c of x(b,c,h,w)^2), the channel-wise L2 norm. Each of the eight
  neighbours i of p is the pixel q_i(p) = (b, refl (offH i + h), refl (offW i + w)): the slice of the width-one
  REFLECT-padded image that starts at (offH i, offW i), where padded position k in [0, 258) reads original
  position refl k (1 at k = 0, k - 1 inside, 254 at k = 257).

  Two ways to the correlation of p with its neighbour q:
    one side normalises first:     R = sum_c (x_c(p) / n(p)) * (x_c(q) / n(q))
    the other divides at the end:  K = (sum_c x_c(p) * x_c(q)) / (n(p) * n(q))
  On finite inputs whose norms are nonzero both are the same real number: every term is real, n(p) n(q) > 0,
  and division distributes over the finite sum. (Where a norm is 0 the quotient 0 / 0 is the junk value of the
  extended reals and the two sides part; that is why the statement carries the positivity hypothesis.)

  The second side is also accumulated over four chunks of 32 channels starting from 0 (`chan`).
-/
import Idealize.ShloMosaic.PureOps.Ideal
import Idealize.ShloMosaic.Lib.ValueIdx

noncomputable section

namespace NbrCorr

open Idealize.ShloMosaic Idealize.ShloMosaic.ValueIdx

/-- The input's shape [batch, channel, row, column] and the result's [batch, neighbour, row, column]. -/
abbrev SX : Shape := ⟨4, ![8, 128, 256, 256]⟩
abbrev SO : Shape := ⟨4, ![8, 8, 256, 256]⟩

/-- Width-one reflect padding of an axis of extent 256: padded position `k` reads this original position. -/
def refl (k : ℕ) : ℕ := if k = 0 then 1 else if k = 257 then 254 else k - 1

theorem refl_lt {k : ℕ} (h : k < 258) : refl k < 256 := by
  unfold refl; split_ifs <;> omega

/-- Where neighbour `i`'s slice of the padded image starts: rows, columns. -/
def offH : Fin 8 → ℕ := ![0, 0, 1, 2, 2, 2, 1, 0]
def offW : Fin 8 → ℕ := ![1, 0, 0, 0, 1, 2, 2, 2]

theorem offH_le (i : Fin 8) : offH i ≤ 2 := by fin_cases i <;> simp [offH]
theorem offW_le (i : Fin 8) : offW i ≤ 2 := by fin_cases i <;> simp [offW]

/-- Neighbour `i`'s row and column of a pixel's row and column. -/
def nbH (i : Fin 8) (h : Fin 256) : Fin 256 := ⟨refl (offH i + h.val), refl_lt (by have := offH_le i; omega)⟩
def nbW (i : Fin 8) (w : Fin 256) : Fin 256 := ⟨refl (offW i + w.val), refl_lt (by have := offW_le i; omega)⟩

/-- Channel `c` of chunk `k` (four chunks of 32). -/
def chan (k : Fin 4) (c : Fin 32) : Fin 128 := ⟨k.val * 32 + c.val, by omega⟩

variable (x : SX.Idx → EReal)

/-- The channel sum of squares at a pixel, its square root the norm, and the raw dot product with neighbour `i`. -/
def sumsq (b : Fin 8) (h w : Fin 256) : EReal := ∑ c : Fin 128, x (ix4 b c h w) * x (ix4 b c h w)
def nrm (b : Fin 8) (h w : Fin 256) : EReal := Ideal.sqrt (sumsq x b h w)
def rawdot (b : Fin 8) (i : Fin 8) (h w : Fin 256) : EReal :=
  ∑ c : Fin 128, x (ix4 b c h w) * x (ix4 b c (nbH i h) (nbW i w))

/-- Divide at the end. -/
def Kat (b : Fin 8) (i : Fin 8) (h w : Fin 256) : EReal :=
  Ideal.div (rawdot x b i h w) (nrm x b h w * nrm x b (nbH i h) (nbW i w))

/-- Normalise first. -/
def Rat (b : Fin 8) (i : Fin 8) (h w : Fin 256) : EReal :=
  ∑ c : Fin 128, Ideal.div (x (ix4 b c h w)) (nrm x b h w)
    * Ideal.div (x (ix4 b c (nbH i h) (nbW i w))) (nrm x b (nbH i h) (nbW i w))

/-- The two sides as whole arrays. -/
def K : SO.Idx → EReal := fun j => Kat x (j 0) (j 1) (j 2) (j 3)
def R : SO.Idx → EReal := fun j => Rat x (j 0) (j 1) (j 2) (j 3)

theorem K_ix (b i : Fin 8) (h w : Fin 256) : K x (ix4 b i h w) = Kat x b i h w := rfl
theorem R_ix (b i : Fin 8) (h w : Fin 256) : R x (ix4 b i h w) = Rat x b i h w := rfl

end NbrCorr

end
-- ==== Proof.KernelTerm.lean ====
/-
  The kernel's arithmetic, chunk by chunk, as plain functions of what it reads.

  One grid point (b, k) sees the block blkX x b k of 32 channels of batch b and two running arrays: the sum of
  squares a0 over [256, 256] and the eight raw dot products a1 over [8, 256, 256]. It adds the chunk's
  contribution to each (updSq, updDot). The last chunk then divides each raw dot product by the product of the
  two pixels' norms, the norm the square root of the finished sum of squares (fin). sq0 … sq3 and dot0 … dot3
  are the running arrays after chunks 0 … 3 of batch b, started from zero.
-/
import proofs.«139142_j85993835201175_1_alg».proof.KernelIdeal
import proofs.«139142_j85993835201175_1_alg».proof.Proof.Spec

noncomputable section

namespace NbrCorr

open Idealize.ShloMosaic Idealize.ShloMosaic.ValueIdx Cert.KernelIdeal

/-- The running sum of squares after one more chunk, at a pixel. -/
def updSqAt (x0 : Vec Ideal S1x32x256x256 .f32) (a0 : Vec Ideal S256x256 .f32) (h w : Fin 256) : EReal :=
  a0 (ix2 h w) + ∑ c : Fin 32, x0 (ix4 (0 : Fin 1) c h w) * x0 (ix4 (0 : Fin 1) c h w)
def updSq (x0 : Vec Ideal S1x32x256x256 .f32) (a0 : Vec Ideal S256x256 .f32) : Vec Ideal S256x256 .f32 :=
  fun y => updSqAt x0 a0 (y 0) (y 1)
theorem updSq_ix (x0 : Vec Ideal S1x32x256x256 .f32) (a0 : Vec Ideal S256x256 .f32) (h w : Fin 256) :
    updSq x0 a0 (ix2 h w) = updSqAt x0 a0 h w := rfl

/-- The running raw dot product with neighbour `i` after one more chunk, at a pixel. -/
def updDotAt (x0 : Vec Ideal S1x32x256x256 .f32) (a1 : Vec Ideal S8x256x256 .f32) (i : Fin 8) (h w : Fin 256) : EReal :=
  a1 (ix3 i h w) + ∑ c : Fin 32, x0 (ix4 (0 : Fin 1) c h w) * x0 (ix4 (0 : Fin 1) c (nbH i h) (nbW i w))
def updDot (x0 : Vec Ideal S1x32x256x256 .f32) (a1 : Vec Ideal S8x256x256 .f32) : Vec Ideal S8x256x256 .f32 :=
  fun y => updDotAt x0 a1 (y 0) (y 1) (y 2)
theorem updDot_ix (x0 : Vec Ideal S1x32x256x256 .f32) (a1 : Vec Ideal S8x256x256 .f32) (i : Fin 8) (h w : Fin 256) :
    updDot x0 a1 (ix3 i h w) = updDotAt x0 a1 i h w := rfl

/-- The finished correlation: the raw dot product over the product of the two pixels' norms. -/
def finAt (a0 : Vec Ideal S256x256 .f32) (a1 : Vec Ideal S8x256x256 .f32) (i : Fin 8) (h w : Fin 256) : EReal :=
  Ideal.div (a1 (ix3 i h w)) (Ideal.sqrt (a0 (ix2 h w)) * Ideal.sqrt (a0 (ix2 (nbH i h) (nbW i w))))
def fin (a0 : Vec Ideal S256x256 .f32) (a1 : Vec Ideal S8x256x256 .f32) : Vec Ideal S1x8x256x256 .f32 :=
  fun y => finAt a0 a1 (y 1) (y 2) (y 3)
theorem fin_ix (a0 : Vec Ideal S256x256 .f32) (a1 : Vec Ideal S8x256x256 .f32) (i : Fin 8) (h w : Fin 256) :
    fin a0 a1 (ix4 (0 : Fin 1) i h w) = finAt a0 a1 i h w := rfl

def zero2 : Vec Ideal S256x256 .f32 := fun _ => 0
def zero3 : Vec Ideal S8x256x256 .f32 := fun _ => 0

/-- Chunk `k` of batch `b` of the input: what grid point (b, k) stages. -/
def blkX (x : Vec Ideal S8x128x256x256 .f32) (b : Fin 8) (k : Fin 4) : Vec Ideal S1x32x256x256 .f32 :=
  fun y => x (ix4 b (chan k (y 1)) (y 2) (y 3))
theorem blkX_ix (x : Vec Ideal S8x128x256x256 .f32) (b : Fin 8) (k : Fin 4) (c : Fin 32) (h w : Fin 256) :
    blkX x b k (ix4 (0 : Fin 1) c h w) = x (ix4 b (chan k c) h w) := rfl

variable (x : Vec Ideal S8x128x256x256 .f32) (b : Fin 8)

/-- The two running arrays after chunks 0, 1, 2, 3 of batch `b`. -/
def sq0 : Vec Ideal S256x256 .f32 := updSq (blkX x b 0) zero2
def sq1 : Vec Ideal S256x256 .f32 := updSq (blkX x b 1) (sq0 x b)
def sq2 : Vec Ideal S256x256 .f32 := updSq (blkX x b 2) (sq1 x b)
def sq3 : Vec Ideal S256x256 .f32 := updSq (blkX x b 3) (sq2 x b)
def dot0 : Vec Ideal S8x256x256 .f32 := updDot (blkX x b 0) zero3
def dot1 : Vec Ideal S8x256x256 .f32 := updDot (blkX x b 1) (dot0 x b)
def dot2 : Vec Ideal S8x256x256 .f32 := updDot (blkX x b 2) (dot1 x b)
def dot3 : Vec Ideal S8x256x256 .f32 := updDot (blkX x b 3) (dot2 x b)

end NbrCorr

end
-- ==== Proof.PayPad.lean ====
import proofs.«139142_j85993835201175_1_alg».proof.Proof.Gen.KernelIdeal.Skeleton
import proofs.«139142_j85993835201175_1_alg».proof.Proof.KernelTerm
import Idealize.ShloMosaic.Lib.Pipeline.Value
import Idealize.ShloMosaic.Lib.ValueLayout

noncomputable section

namespace NbrCorr

open Idealize.ShloMosaic Idealize.ShloMosaic.ValueIdx Idealize.ShloMosaic.TcCoe Idealize.SL.Sem Cert.KernelIdeal Cert.KernelIdeal.Gen

variable (v3 : Vec Ideal S1x32x256x256 .f32)

/-- The staged block with its unit batch axis dropped. -/
theorem pay18_apply (c : Fin 32) (h w : Fin 256) : k0_pay18 (F := Ideal) v3 (ix3 c h w) = v3 (ix4 (0 : Fin 1) c h w) := by
  unfold k0_pay18
  refine (shapeCast_dropUnit_apply ![32, 256, 256] v3 _ (ix3 c h w)).trans ?_
  congr 1
  funext a
  match a with
  | ⟨0, _⟩ => rfl
  | ⟨1, _⟩ => rfl
  | ⟨2, _⟩ => rfl
  | ⟨3, _⟩ => rfl

/-- The block padded on its rows only: one copy of row 1 above, one copy of row 254 below. -/
def padRows : FVec Ideal S32x258x256 .f32 :=
  concatenate S32x258x256 1
    [⟨S32x1x256, extractStridedSlice S32x1x256 ![0, 1, 0] (k0_pay18 (F := Ideal) v3) Facts₀.slices_S32x256x256_o0_1_0_S32x1x256⟩,
     ⟨S32x256x256, k0_pay18 (F := Ideal) v3⟩,
     ⟨S32x1x256, extractStridedSlice S32x1x256 ![0, 254, 0] (k0_pay18 (F := Ideal) v3) Facts₀.slices_S32x256x256_o0_254_0_S32x1x256⟩]
    Facts₀.concatenates_S32x1x256_S32x256x256_S32x1x256_S32x258x256_d1

/-- The padded block is the row-padded one padded on its columns: a copy of column 1 left, of column 254 right. -/
theorem pay20_eq : k0_pay20 (F := Ideal) v3 =
    concatenate S32x258x258 2
      [⟨S32x258x1, extractStridedSlice S32x258x1 ![0, 0, 1] (padRows v3) Facts₀.slices_S32x258x256_o0_0_1_S32x258x1⟩,
       ⟨S32x258x256, padRows v3⟩,
       ⟨S32x258x1, extractStridedSlice S32x258x1 ![0, 0, 254] (padRows v3) Facts₀.slices_S32x258x256_o0_0_254_S32x258x1⟩]
      Facts₀.concatenates_S32x258x1_S32x258x256_S32x258x1_S32x258x258_d2 := rfl

/-- Rows: padded row `h` of the row-padded block is row `refl h` of the block. -/
theorem padRows_apply (c : Fin 32) (h : Fin 258) (w r : Fin 256) (hr : r.val = refl h.val) :
    padRows v3 (ix3 c h w) = v3 (ix4 (0 : Fin 1) c r w) := by
  unfold padRows
  unfold refl at hr
  split_ifs at hr with h0 h1
  · -- padded row 0: the first piece, the one-row slice at row 1
    refine (concatenate_apply_piece _ _ _ (ix3 c h w) 0 (by simp) S32x1x256 _ (by rfl) (by rfl) 0 (by rfl)
      (ix3 c (0 : Fin 1) w) ?_ ?_).trans ?_
    · intro b hb
      match b with
      | ⟨0, _⟩ => rfl
      | ⟨1, _⟩ => exact absurd rfl hb
      | ⟨2, _⟩ => rfl
    · show 0 + 0 = h.val
      omega
    · refine (extractStridedSlice_apply _ _ _ _ (ix3 c r w) ?_).trans (pay18_apply v3 c r w)
      intro a
      match a with
      | ⟨0, _⟩ => show c.val = 0 + c.val; omega
      | ⟨1, _⟩ => show r.val = 1 + 0; omega
      | ⟨2, _⟩ => show w.val = 0 + w.val; omega
  · -- padded row 257: the third piece, the one-row slice at row 254; one row and 256 rows come before it
    refine (concatenate_apply_piece _ _ _ (ix3 c h w) 2 (by simp) S32x1x256 _ (by rfl) (by rfl) 257 (by rfl)
      (ix3 c (0 : Fin 1) w) ?_ ?_).trans ?_
    · intro b hb
      match b with
      | ⟨0, _⟩ => rfl
      | ⟨1, _⟩ => exact absurd rfl hb
      | ⟨2, _⟩ => rfl
    · show 257 + 0 = h.val
      omega
    · refine (extractStridedSlice_apply _ _ _ _ (ix3 c r w) ?_).trans (pay18_apply v3 c r w)
      intro a
      match a with
      | ⟨0, _⟩ => show c.val = 0 + c.val; omega
      | ⟨1, _⟩ => show r.val = 254 + 0; omega
      | ⟨2, _⟩ => show w.val = 0 + w.val; omega
  · -- padded row h with 1 ≤ h ≤ 256: the middle piece, the block itself, at row h - 1
    have hlt := h.isLt
    refine (concatenate_apply_piece _ _ _ (ix3 c h w) 1 (by simp) S32x256x256 _ (by rfl) (by rfl) 1 (by rfl)
      (ix3 c r w) ?_ ?_).trans (pay18_apply v3 c r w)
    · intro b hb
      match b with
      | ⟨0, _⟩ => rfl
      | ⟨1, _⟩ => exact absurd rfl hb
      | ⟨2, _⟩ => rfl
    · show 1 + r.val = h.val
      omega

/-- Columns: padded column `w` of the padded block is column `refl w` of the row-padded block. -/
theorem padCols_apply (c : Fin 32) (h w : Fin 258) (q : Fin 256) (hq : q.val = refl w.val) :
    k0_pay20 (F := Ideal) v3 (ix3 c h w) = padRows v3 (ix3 c h q) := by
  rw [pay20_eq]
  unfold refl at hq
  split_ifs at hq with h0 h1
  · -- padded column 0: the first piece, the one-column slice at column 1
    refine (concatenate_apply_piece _ _ _ (ix3 c h w) 0 (by simp) S32x258x1 _ (by rfl) (by rfl) 0 (by rfl)
      (ix3 c h (0 : Fin 1)) ?_ ?_).trans ?_
    · intro b hb
      match b with
      | ⟨0, _⟩ => rfl
      | ⟨1, _⟩ => rfl
      | ⟨2, _⟩ => exact absurd rfl hb
    · show 0 + 0 = w.val
      omega
    · refine extractStridedSlice_apply _ _ _ _ (ix3 c h q) ?_
      intro a
      match a with
      | ⟨0, _⟩ => show c.val = 0 + c.val; omega
      | ⟨1, _⟩ => show h.val = 0 + h.val; omega
      | ⟨2, _⟩ => show q.val = 1 + 0; omega
  · -- padded column 257: the third piece, the one-column slice at column 254; one column and 256 columns come before it
    refine (concatenate_apply_piece _ _ _ (ix3 c h w) 2 (by simp) S32x258x1 _ (by rfl) (by rfl) 257 (by rfl)
      (ix3 c h (0 : Fin 1)) ?_ ?_).trans ?_
    · intro b hb
      match b with
      | ⟨0, _⟩ => rfl
      | ⟨1, _⟩ => rfl
      | ⟨2, _⟩ => exact absurd rfl hb
    · show 257 + 0 = w.val
      omega
    · refine extractStridedSlice_apply _ _ _ _ (ix3 c h q) ?_
      intro a
      match a with
      | ⟨0, _⟩ => show c.val = 0 + c.val; omega
      | ⟨1, _⟩ => show h.val = 0 + h.val; omega
      | ⟨2, _⟩ => show q.val = 254 + 0; omega
  · -- padded column w with 1 ≤ w ≤ 256: the middle piece, the row-padded block itself, at column w - 1
    have hlt := w.isLt
    refine concatenate_apply_piece _ _ _ (ix3 c h w) 1 (by simp) S32x258x256 _ (by rfl) (by rfl) 1 (by rfl)
      (ix3 c h q) ?_ ?_
    · intro b hb
      match b with
      | ⟨0, _⟩ => rfl
      | ⟨1, _⟩ => rfl
      | ⟨2, _⟩ => exact absurd rfl hb
    · show 1 + q.val = w.val
      omega

/-- The block reflect-padded by one on its last two axes: padded position (h, w) reads (refl h, refl w). -/
theorem pay20_apply (c : Fin 32) (h w : Fin 258) :
    k0_pay20 (F := Ideal) v3 (ix3 c h w) = v3 (ix4 (0 : Fin 1) c ⟨refl h.val, refl_lt h.isLt⟩ ⟨refl w.val, refl_lt w.isLt⟩) :=
  (padCols_apply v3 c h w ⟨refl w.val, refl_lt w.isLt⟩ rfl).trans
    (padRows_apply v3 c h ⟨refl w.val, refl_lt w.isLt⟩ ⟨refl h.val, refl_lt h.isLt⟩ rfl)

end NbrCorr

end
-- ==== Proof.PayAcc.lean ====
import proofs.«139142_j85993835201175_1_alg».proof.Proof.Gen.KernelIdeal.Skeleton
import proofs.«139142_j85993835201175_1_alg».proof.Proof.KernelTerm
import proofs.«139142_j85993835201175_1_alg».proof.Proof.PayPad
import Idealize.ShloMosaic.Lib.Pipeline.Value
import Idealize.ShloMosaic.Lib.ValueLayout
import Idealize.ShloMosaic.PureOps.Ideal.Laws

noncomputable section

namespace NbrCorr

open Idealize.ShloMosaic Idealize.ShloMosaic.ValueIdx Idealize.ShloMosaic.TcCoe Idealize.SL.Sem Cert.KernelIdeal Cert.KernelIdeal.Gen

/-! ## The sum over a chunk's 32 channels at a pixel -/

/-- Channel `c` put back on the summed (first) axis of the pixel (h, w) is the index (c, h, w). -/
private theorem lift_chan (H : S32x256x256.Reduces [0] S256x256) (h w : Fin 256) (c : Fin 32) :
    H.lift (ix2 h w) c = ix3 c h w := by
  funext a
  match a with
  | ⟨0, _⟩ => exact Fin.ext rfl
  | ⟨1, _⟩ => exact Fin.ext rfl
  | ⟨2, _⟩ => exact Fin.ext rfl

/-- The reduction over the channel axis, started from zero, read at the pixel (h, w): the sum over the 32 channels. -/
private theorem laneSum_apply (src : FVec Ideal S32x256x256 .f32) (H : S32x256x256.Reduces [0] S256x256)
    (hφ : FKind.Formats .f32) (hacc : (0x00000000#32 : BitVec 32) = 0x00000000#32) (h w : Fin 256) :
    multiReduction (F := Ideal) .add [0] S256x256 src 0x00000000#32 H hφ hacc (ix2 h w)
      = ∑ c : Fin 32, src (ix3 c h w) := by
  refine (Ideal.multiReduction_add_single src 0x00000000#32 H hφ hacc (ix2 h w)).trans ?_
  exact Finset.sum_congr rfl (fun c _ => congrArg src (lift_chan H h w c))

/-- One slab's update in its generic form: the slab `v` over [1,256,256] read as [256,256], plus the channel sum of
    the pointwise product of two [32,256,256] arrays, stored back as [1,256,256]. -/
private theorem slab_upd (p q : FVec Ideal S32x256x256 .f32) (v : Vec Ideal S1x256x256 .f32)
    (hc1 : S1x256x256.ShapeCasts S256x256) (hc2 : S256x256.ShapeCasts S1x256x256)
    (H : S32x256x256.Reduces [0] S256x256) (hφ : FKind.Formats .f32)
    (hacc : (0x00000000#32 : BitVec 32) = 0x00000000#32) (h w : Fin 256) :
    shapeCast S1x256x256
        (addf (shapeCast S256x256 v hc1) (multiReduction (F := Ideal) .add [0] S256x256 (mulf p q) 0x00000000#32 H hφ hacc))
        hc2 (ix3 (0 : Fin 1) h w)
      = v (ix3 (0 : Fin 1) h w) + ∑ c : Fin 32, p (ix3 c h w) * q (ix3 c h w) := by
  refine (shapeCast_ab_1ab_apply _ hc2 (0 : Fin 1) h w).trans ?_
  rw [addf_apply, shapeCast_1ab_ab_apply v hc1 h w, laneSum_apply (mulf p q) H hφ hacc h w]
  rfl

/-! ## A neighbour's slice of the padded block -/

variable (v3 : Vec Ideal S1x32x256x256 .f32)

/-- The [32,256,256] slice of a [32,258,258] array that starts at row `a`, column `b`, read at (c, h, w): the array
    at (c, a + h, b + w). -/
private theorem slice_rc_apply (a b : ℕ) (X : FVec Ideal S32x258x258 .f32) (hs : S32x258x258.Slices ![0, a, b] S32x256x256)
    (c : Fin 32) (h w : Fin 256) (h' w' : Fin 258) (hh : h'.val = a + h.val) (hw : w'.val = b + w.val) :
    extractStridedSlice S32x256x256 ![0, a, b] X hs (ix3 c h w) = X (ix3 c h' w') :=
  extractStridedSlice_apply _ _ _ _ _ (fun ax => by
    match ax with
    | ⟨0, _⟩ => exact (Nat.zero_add _).symm
    | ⟨1, _⟩ => exact hh
    | ⟨2, _⟩ => exact hw)

/-- Neighbour `i`'s slice of the reflect-padded block, the one that starts at (offH i, offW i), read at (c, h, w): the
    block at channel c of the neighbour's pixel (nbH i h, nbW i w), since padded position k reads position refl k. -/
private theorem nb_slice_apply (i : Fin 8) (a b : ℕ) (ha : offH i = a) (hb : offW i = b)
    (hs : S32x258x258.Slices ![0, a, b] S32x256x256) (c : Fin 32) (h w : Fin 256) :
    extractStridedSlice S32x256x256 ![0, a, b] (k0_pay20 (F := Ideal) v3) hs (ix3 c h w)
      = v3 (ix4 (0 : Fin 1) c (nbH i h) (nbW i w)) := by
  subst ha hb
  have hH : offH i + h.val < 258 := by have := offH_le i; omega
  have hW : offW i + w.val < 258 := by have := offW_le i; omega
  refine (slice_rc_apply (offH i) (offW i) (k0_pay20 (F := Ideal) v3) hs c h w ⟨offH i + h.val, hH⟩ ⟨offW i + w.val, hW⟩
    rfl rfl).trans ?_
  refine (pay20_apply v3 c ⟨offH i + h.val, hH⟩ ⟨offW i + w.val, hW⟩).trans ?_
  rfl

/-- Slab `i`'s update: the slab read before it plus the chunk's sum of products with neighbour `i`. -/
private theorem slab_nb (i : Fin 8) (a b : ℕ) (ha : offH i = a) (hb : offW i = b)
    (hs : S32x258x258.Slices ![0, a, b] S32x256x256) (v : Vec Ideal S1x256x256 .f32)
    (hc1 : S1x256x256.ShapeCasts S256x256) (hc2 : S256x256.ShapeCasts S1x256x256)
    (H : S32x256x256.Reduces [0] S256x256) (hφ : FKind.Formats .f32)
    (hacc : (0x00000000#32 : BitVec 32) = 0x00000000#32) (h w : Fin 256) :
    shapeCast S1x256x256
        (addf (shapeCast S256x256 v hc1)
          (multiReduction (F := Ideal) .add [0] S256x256
            (mulf (k0_pay18 (F := Ideal) v3) (extractStridedSlice S32x256x256 ![0, a, b] (k0_pay20 (F := Ideal) v3) hs))
            0x00000000#32 H hφ hacc))
        hc2 (ix3 (0 : Fin 1) h w)
      = v (ix3 (0 : Fin 1) h w)
          + ∑ c : Fin 32, v3 (ix4 (0 : Fin 1) c h w) * v3 (ix4 (0 : Fin 1) c (nbH i h) (nbW i w)) := by
  refine (slab_upd _ _ v hc1 hc2 H hφ hacc h w).trans ?_
  refine congrArg (fun s => v (ix3 (0 : Fin 1) h w) + s) (Finset.sum_congr rfl (fun c _ => ?_))
  rw [pay18_apply v3 c h w, nb_slice_apply v3 i a b ha hb hs c h w]

/-! ## The payloads -/

/-- The sum of squares' update. -/
theorem pay19_eq (v5 : Vec Ideal S256x256 .f32) : k0_pay19 (F := Ideal) v3 v5 = updSq v3 v5 := by
  funext j
  obtain ⟨h, w, rfl⟩ : ∃ (h w : Fin 256), j = ix2 h w := ⟨j 0, j 1, eq_ix2 j⟩
  rw [updSq_ix]
  unfold k0_pay19 updSqAt
  rw [shapeCast_self, addf_apply, laneSum_apply _ _ _ _ h w]
  refine congrArg (fun s => v5 (ix2 h w) + s) (Finset.sum_congr rfl (fun c _ => ?_))
  rw [mulf_apply, pay18_apply v3 c h w]

/-- The eight raw dot products' updates, slab by slab: each is the slab read before it plus the chunk's sum of
    products with that neighbour. (Slabs 0 and 1 read the padded block inside the payload; slab 1's sum is
    computed before it is cast to a slab; slabs 2 … 7 take the block and its padding as operands, slab 5 its
    slice of the padding.) -/
theorem pay21_apply (v : Vec Ideal S1x256x256 .f32) (h w : Fin 256) :
    k0_pay21 (F := Ideal) v3 v (ix3 (0 : Fin 1) h w)
      = v (ix3 (0 : Fin 1) h w) + ∑ c : Fin 32, v3 (ix4 (0 : Fin 1) c h w) * v3 (ix4 (0 : Fin 1) c (nbH 0 h) (nbW 0 w)) :=
  slab_nb v3 0 0 1 rfl rfl _ v _ _ _ _ _ h w
theorem pay23_apply (v : Vec Ideal S1x256x256 .f32) (h w : Fin 256) :
    k0_pay23 (F := Ideal) (k0_pay22 v3 v) (ix3 (0 : Fin 1) h w)
      = v (ix3 (0 : Fin 1) h w) + ∑ c : Fin 32, v3 (ix4 (0 : Fin 1) c h w) * v3 (ix4 (0 : Fin 1) c (nbH 1 h) (nbW 1 w)) :=
  slab_nb v3 1 0 0 rfl rfl _ v _ _ _ _ _ h w
theorem pay24_apply (v : Vec Ideal S1x256x256 .f32) (h w : Fin 256) :
    k0_pay24 (F := Ideal) (k0_pay18 v3) (k0_pay20 v3) v (ix3 (0 : Fin 1) h w)
      = v (ix3 (0 : Fin 1) h w) + ∑ c : Fin 32, v3 (ix4 (0 : Fin 1) c h w) * v3 (ix4 (0 : Fin 1) c (nbH 2 h) (nbW 2 w)) :=
  slab_nb v3 2 1 0 rfl rfl _ v _ _ _ _ _ h w
theorem pay25_apply (v : Vec Ideal S1x256x256 .f32) (h w : Fin 256) :
    k0_pay25 (F := Ideal) (k0_pay18 v3) (k0_pay20 v3) v (ix3 (0 : Fin 1) h w)
      = v (ix3 (0 : Fin 1) h w) + ∑ c : Fin 32, v3 (ix4 (0 : Fin 1) c h w) * v3 (ix4 (0 : Fin 1) c (nbH 3 h) (nbW 3 w)) :=
  slab_nb v3 3 2 0 rfl rfl _ v _ _ _ _ _ h w
theorem pay26_apply (v : Vec Ideal S1x256x256 .f32) (h w : Fin 256) :
    k0_pay26 (F := Ideal) (k0_pay18 v3) (k0_pay20 v3) v (ix3 (0 : Fin 1) h w)
      = v (ix3 (0 : Fin 1) h w) + ∑ c : Fin 32, v3 (ix4 (0 : Fin 1) c h w) * v3 (ix4 (0 : Fin 1) c (nbH 4 h) (nbW 4 w)) :=
  slab_nb v3 4 2 1 rfl rfl _ v _ _ _ _ _ h w
theorem pay1_apply (v : Vec Ideal S1x256x256 .f32) (h w : Fin 256) :
    k0_pay1 (F := Ideal) (k0_pay18 v3) (k0_pay27 (k0_pay20 v3)) v (ix3 (0 : Fin 1) h w)
      = v (ix3 (0 : Fin 1) h w) + ∑ c : Fin 32, v3 (ix4 (0 : Fin 1) c h w) * v3 (ix4 (0 : Fin 1) c (nbH 5 h) (nbW 5 w)) :=
  slab_nb v3 5 2 2 rfl rfl slices_S32x258x258_o0_2_2_S32x256x256 v _ _ _ _ _ h w
theorem pay2_apply (v : Vec Ideal S1x256x256 .f32) (h w : Fin 256) :
    k0_pay2 (F := Ideal) (k0_pay18 v3) (k0_pay20 v3) v (ix3 (0 : Fin 1) h w)
      = v (ix3 (0 : Fin 1) h w) + ∑ c : Fin 32, v3 (ix4 (0 : Fin 1) c h w) * v3 (ix4 (0 : Fin 1) c (nbH 6 h) (nbW 6 w)) :=
  slab_nb v3 6 1 2 rfl rfl _ v _ _ _ _ _ h w
theorem pay3_apply (v : Vec Ideal S1x256x256 .f32) (h w : Fin 256) :
    k0_pay3 (F := Ideal) (k0_pay18 v3) (k0_pay20 v3) v (ix3 (0 : Fin 1) h w)
      = v (ix3 (0 : Fin 1) h w) + ∑ c : Fin 32, v3 (ix4 (0 : Fin 1) c h w) * v3 (ix4 (0 : Fin 1) c (nbH 7 h) (nbW 7 w)) :=
  slab_nb v3 7 0 2 rfl rfl _ v _ _ _ _ _ h w

/-- The two resets are the zero arrays: a broadcast of the scalar whose bits are all zero, which is the number 0. -/
theorem pay16_eq : k0_pay16 (F := Ideal) = zero2 := by
  funext j
  unfold k0_pay16 zero2
  rw [shapeCast_self]
  exact Ideal.ofBits_zero_f32
theorem pay17_eq : k0_pay17 (F := Ideal) = zero3 := by
  funext j
  unfold k0_pay17 zero3
  rw [shapeCast_self]
  exact Ideal.ofBits_zero_f32

end NbrCorr

end
-- ==== Proof.PiecesA.lean ====
import proofs.«139142_j85993835201175_1_alg».proof.Proof.Gen.KernelIdeal.Frame
import proofs.«139142_j85993835201175_1_alg».proof.Proof.PayAcc
import Idealize.ShloMosaic.Lib.Pipeline.Value
import Idealize.ShloMosaic.Lib.Pipeline.CanonAppend

-- whether an index of an extent-256 axis lies in a rectangle is decided coordinate by coordinate, one step each
set_option maxRecDepth 16384

noncomputable section

namespace NbrCorr

open Idealize.ShloMosaic Idealize.ShloMosaic.ValueIdx Idealize.ShloMosaic.TcCoe Idealize.SL.Sem Cert.KernelIdeal Cert.KernelIdeal.Gen

/-! ## Zero offsets, and where a row-block's own index sits in the three-axis array -/

private theorem zeros2 : (![0, 0] : Fin 2 → ℕ) = fun _ => 0 := by funext a; fin_cases a <;> rfl
private theorem zeros4 : (![0, 0, 0, 0] : Fin 4 → ℕ) = fun _ => 0 := by funext a; fin_cases a <;> rfl

/-- Row-block `i` of the [8, 256, 256] array is the [1, 256, 256] rectangle at offset (i, 0, 0): its own index
    (0, h, w) is the array's index (i, h, w). -/
private theorem rowBlock_emb (i : Fin 8) (o : ℕ) (hi : i.val = o)
    (inb : ∀ a, (![o, 0, 0] : Fin 3 → ℕ) a + S1x256x256.size a ≤ S8x256x256.size a) (h w : Fin 256) :
    (Rect.unit (s := S8x256x256) ![o, 0, 0] S1x256x256.size inb).emb (ix3 (0 : Fin 1) h w) = ix3 i h w := by
  funext a
  apply Fin.ext
  rw [Rect.emb_apply]
  match a with
  | ⟨0, _⟩ => show o + 1 * 0 = i.val; omega
  | ⟨1, _⟩ => show 0 + 1 * h.val = h.val; omega
  | ⟨2, _⟩ => show 0 + 1 * w.val = w.val; omega

/-! ## Reading back what a list of stores left (the list is written last store first) -/

/-- Where every store that reaches an index wrote the same value there, and some store reaches it, the array holds
    that value there: whichever store was the last to reach the index, it wrote that value. -/
private theorem canon_const_of_forall {S : Shape} {e : EltTy} (L : List (View.Piece (Elt Ideal) S e)) (y : S.Idx)
    (c : Elt Ideal e) (h : ∀ p ∈ L, ∀ x : p.1.shape.Idx, p.1.emb x = y → p.2 x = c)
    (hy : ∃ p ∈ L, y ∈ p.1.set) : View.canon L y = c := by
  induction L with
  | nil => obtain ⟨p, hp, _⟩ := hy; cases hp
  | cons p L ih =>
    obtain ⟨r, w⟩ := p
    by_cases hm : y ∈ r.set
    · obtain ⟨x, rfl⟩ := r.exists_idx_of_mem hm
      rw [show r.idx x = r.emb x from rfl, View.canon_cons_emb]
      exact h ⟨r, w⟩ List.mem_cons_self x rfl
    · rw [View.canon_cons_of_not_mem _ _ hm]
      refine ih (fun q hq => h q (List.mem_cons_of_mem _ hq)) ?_
      obtain ⟨q, hq, hyq⟩ := hy
      rcases List.mem_cons.mp hq with rfl | hq'
      · exact absurd hyq hm
      · exact ⟨q, hq', hyq⟩

/-- Row-block `i` read when every earlier store either lies in row-blocks below `i` or wrote zeros (the reset of the
    whole array), and the stores cover the array: it reads zero. -/
private theorem readCov_zero_apply {sg : RefSig} {κ : Kind} {sp : Space} (v : View sg κ sp S8x256x256 .f32)
    (L : List (View.Piece (Elt Ideal) S8x256x256 .f32)) (i : Fin 8) (o : ℕ) (hi : i.val = o)
    (hL : ∀ p ∈ L, (∀ y ∈ p.1.set, (y 0).val < o) ∨ p.2 = fun _ => (0 : EReal))
    (hc : ∀ y : S8x256x256.Idx, ∃ p ∈ L, y ∈ p.1.set)
    (inb : ∀ a, (![o, 0, 0] : Fin 3 → ℕ) a + S1x256x256.size a ≤ S8x256x256.size a) (h w : Fin 256) :
    v.readCov L (Rect.unit (s := S8x256x256) ![o, 0, 0] S1x256x256.size inb).toLoadRect (ix3 (0 : Fin 1) h w)
      = (0 : EReal) := by
  rw [View.readCov_eq_canon']
  show View.canon L ((Rect.unit (s := S8x256x256) ![o, 0, 0] S1x256x256.size inb).emb (ix3 (0 : Fin 1) h w)) = 0
  rw [rowBlock_emb i o hi inb h w]
  refine canon_const_of_forall L _ 0 (fun p hp x hx => ?_) (hc _)
  rcases hL p hp with hb | hz
  · have h1 : ((p.1.emb x) 0).val < o := hb _ (p.1.toLoadRect.idx_mem x)
    rw [hx] at h1
    exact absurd h1 (by show ¬ (i.val < o); omega)
  · exact congrFun hz x

/-- A row-block whose new contents are, pixel by pixel, the chunk's sum of products with neighbour `i` (what it
    held before being zero) is the block of `updDot x0 zero3` that the row-block names. -/
private theorem rowBlock_first (i : Fin 8) (o : ℕ) (hi : i.val = o)
    (inb : ∀ a, (![o, 0, 0] : Fin 3 → ℕ) a + S1x256x256.size a ≤ S8x256x256.size a)
    (x0 : Vec Ideal S1x32x256x256 .f32) (pay : Vec Ideal S1x256x256 .f32)
    (hpay : ∀ h w : Fin 256, pay (ix3 (0 : Fin 1) h w)
      = ∑ c : Fin 32, x0 (ix4 (0 : Fin 1) c h w) * x0 (ix4 (0 : Fin 1) c (nbH i h) (nbW i w))) :
    ∀ x : (⟨Rect.unit (s := S8x256x256) ![o, 0, 0] S1x256x256.size inb, pay⟩ : View.Piece (Elt Ideal) S8x256x256 .f32).1.shape.Idx,
      (⟨Rect.unit (s := S8x256x256) ![o, 0, 0] S1x256x256.size inb, pay⟩ : View.Piece (Elt Ideal) S8x256x256 .f32).2 x
        = updDot x0 zero3
            ((⟨Rect.unit (s := S8x256x256) ![o, 0, 0] S1x256x256.size inb, pay⟩ : View.Piece (Elt Ideal) S8x256x256 .f32).1.emb x) := by
  intro x
  show pay x = updDot x0 zero3 ((Rect.unit (s := S8x256x256) ![o, 0, 0] S1x256x256.size inb).emb x)
  obtain ⟨a, h, w, rfl⟩ : ∃ (a : Fin 1) (h w : Fin 256), x = ix3 a h w := ⟨x 0, x 1, x 2, eq_ix3 x⟩
  obtain rfl : a = 0 := Subsingleton.elim _ _
  rw [rowBlock_emb i o hi inb h w, updDot_ix, hpay h w]
  exact (zero_add _).symm

/-- Eight stores that are blocks of ONE function `G` of the array's index, made after any earlier stores: where one of
    the eight covers, the array holds `G`. -/
private theorem canon_eight_over {S : Shape} {e : EltTy} (G : S.Idx → Elt Ideal e)
    (a1 a2 a3 a4 a5 a6 a7 a8 : View.Piece (Elt Ideal) S e) (L' : List (View.Piece (Elt Ideal) S e))
    (h : ∀ p ∈ [a1, a2, a3, a4, a5, a6, a7, a8], ∀ x : p.1.shape.Idx, p.2 x = G (p.1.emb x)) (y : S.Idx)
    (hy : ∃ p ∈ [a1, a2, a3, a4, a5, a6, a7, a8], y ∈ p.1.set) :
    View.canon (a1 :: a2 :: a3 :: a4 :: a5 :: a6 :: a7 :: a8 :: L') y = G y :=
  View.canon_append_of_pieces G L' [a1, a2, a3, a4, a5, a6, a7, a8] h y hy

/-- A [1, 256, 256] rectangle at first offset `k` lies in row-blocks below `o` when `k < o`. -/
private theorem rowBlock_below (k o : ℕ) (hko : k < o)
    (inb : ∀ a, (![k, 0, 0] : Fin 3 → ℕ) a + S1x256x256.size a ≤ S8x256x256.size a) (pay : Vec Ideal S1x256x256 .f32) :
    ∀ y ∈ (⟨Rect.unit (s := S8x256x256) ![k, 0, 0] S1x256x256.size inb, pay⟩ : View.Piece (Elt Ideal) S8x256x256 .f32).1.set,
      (y 0).val < o := by
  intro y hy
  have hy' : y ∈ (Rect.unit (s := S8x256x256) ![k, 0, 0] S1x256x256.size inb).set := hy
  have h0 := (Rect.mem_set_unit.mp hy' 0).2
  exact lt_of_lt_of_le h0 (by show k + 1 ≤ o; omega)

/-- The reset of the whole array writes zeros. -/
private theorem reset_zero (z : Fin 3 → ℕ) (inbW : ∀ a, z a + S8x256x256.size a ≤ S8x256x256.size a) :
    (⟨Rect.unit (s := S8x256x256) z S8x256x256.size inbW, k0_pay17 (F := Ideal)⟩ : View.Piece (Elt Ideal) S8x256x256 .f32).2
      = fun _ => (0 : EReal) := pay17_eq

/-- Of the stores made before a row-block is loaded, the earliest (the last of the list) is the reset, whose payload
    is the zero array, and each of the others is a [1, 256, 256] rectangle whose first offset is smaller than the
    row-block's. -/
local macro "below_or_reset" : tactic => `(tactic| (
  intro p hp
  simp only [List.mem_cons, List.not_mem_nil, or_false] at hp
  repeat' (rcases hp with h | hp)
  all_goals try subst h
  on_goal -1 => exact Or.inr (reset_zero _ _)
  all_goals exact Or.inl (rowBlock_below _ _ (by decide) _ _)))

/-- At a batch's first chunk both running arrays are reset and then updated: the chunk's contribution over zero. -/
theorem sout0_A_0_eq (c : Dev nD) (i : grid0.Coords) (arg2 : Memref sig .tc .vmem S1x32x256x256 .f32) (harg2 : arg2.IsWhole) (arg3 : Memref sig .tc .vmem S1x8x256x256 .f32) (harg3 : arg3.IsWhole) (arg4 : Memref sig .tc .vmem S256x256 .f32) (harg4 : arg4.IsWhole) (arg5 : Memref sig .tc .vmem S8x256x256 .f32) (harg5 : arg5.IsWhole) (hc0 : cond0_0 i) (hc1 : ¬cond0_1 i) (x0 : Vec Ideal S1x32x256x256 .f32) :
    sout0_A_0 (F := Ideal) c i arg2 harg2 arg3 harg3 arg4 harg4 arg5 harg5 hc0 hc1 x0 = updSq x0 zero2 := by
  unfold sout0_A_0
  rw [View.read_writes_eq_canon _ _ _ (scover0_A_0 c i arg2 harg2 arg3 harg3 arg4 harg4 arg5 harg5 hc0 hc1 x0)]
  unfold kernelRun0_A
  dsimp only
  sl_unfold_words
  -- the update is the last store and covers the array; it was computed from the reset read back
  rw [View.canon_cons_unit_zero (S := S256x256) zeros2]
  simp only [View.readAt_eq_ld, harg2.read_unread, View.ld_unit_zero (S := S1x32x256x256) zeros4,
    View.readCov_unit_zero (S := S256x256) _ zeros2]
  rw [pay19_eq, pay16_eq]

theorem sout0_A_1_eq (c : Dev nD) (i : grid0.Coords) (arg2 : Memref sig .tc .vmem S1x32x256x256 .f32) (harg2 : arg2.IsWhole) (arg3 : Memref sig .tc .vmem S1x8x256x256 .f32) (harg3 : arg3.IsWhole) (arg4 : Memref sig .tc .vmem S256x256 .f32) (harg4 : arg4.IsWhole) (arg5 : Memref sig .tc .vmem S8x256x256 .f32) (harg5 : arg5.IsWhole) (hc0 : cond0_0 i) (hc1 : ¬cond0_1 i) (x0 : Vec Ideal S1x32x256x256 .f32) :
    sout0_A_1 (F := Ideal) c i arg2 harg2 arg3 harg3 arg4 harg4 arg5 harg5 hc0 hc1 x0 = updDot x0 zero3 := by
  unfold sout0_A_1
  rw [View.read_writes_eq_canon _ _ _ (scover0_A_1 c i arg2 harg2 arg3 harg3 arg4 harg4 arg5 harg5 hc0 hc1 x0)]
  unfold kernelRun0_A
  dsimp only
  sl_unfold_words
  simp only [View.readAt_eq_ld, harg2.read_unread, View.ld_unit_zero (S := S1x32x256x256) zeros4]
  -- eight row-block stores, each a block of the ONE function updDot x0 zero3, over the reset of the whole array
  funext y
  refine canon_eight_over (updDot x0 zero3) _ _ _ _ _ _ _ _ _ ?_ y
    (View.cover_of_tiledL (s := S8x256x256) _ S1x256x256.size (by sl_kernel_rfl) y)
  intro p hp
  simp only [List.mem_cons, List.not_mem_nil, or_false] at hp
  rcases hp with rfl | rfl | rfl | rfl | rfl | rfl | rfl | rfl
  -- each row-block's update was computed from a load of that row-block, which only the reset had reached: the
  -- chunk's sum of products with that neighbour, over zero
  · refine rowBlock_first 7 7 rfl _ x0 _ fun h w => (pay3_apply x0 _ h w).trans ?_
    refine (congrArg (fun t => t + _) (readCov_zero_apply _ _ 7 7 rfl ?hL ?hc _ h w)).trans (zero_add _)
    case hc => exact View.cover_of_wholeMem _ (by sl_whole_mem)
    case hL => below_or_reset
  · refine rowBlock_first 6 6 rfl _ x0 _ fun h w => (pay2_apply x0 _ h w).trans ?_
    refine (congrArg (fun t => t + _) (readCov_zero_apply _ _ 6 6 rfl ?hL ?hc _ h w)).trans (zero_add _)
    case hc => exact View.cover_of_wholeMem _ (by sl_whole_mem)
    case hL => below_or_reset
  · refine rowBlock_first 5 5 rfl _ x0 _ fun h w => (pay1_apply x0 _ h w).trans ?_
    refine (congrArg (fun t => t + _) (readCov_zero_apply _ _ 5 5 rfl ?hL ?hc _ h w)).trans (zero_add _)
    case hc => exact View.cover_of_wholeMem _ (by sl_whole_mem)
    case hL => below_or_reset
  · refine rowBlock_first 4 4 rfl _ x0 _ fun h w => (pay26_apply x0 _ h w).trans ?_
    refine (congrArg (fun t => t + _) (readCov_zero_apply _ _ 4 4 rfl ?hL ?hc _ h w)).trans (zero_add _)
    case hc => exact View.cover_of_wholeMem _ (by sl_whole_mem)
    case hL => below_or_reset
  · refine rowBlock_first 3 3 rfl _ x0 _ fun h w => (pay25_apply x0 _ h w).trans ?_
    refine (congrArg (fun t => t + _) (readCov_zero_apply _ _ 3 3 rfl ?hL ?hc _ h w)).trans (zero_add _)
    case hc => exact View.cover_of_wholeMem _ (by sl_whole_mem)
    case hL => below_or_reset
  · refine rowBlock_first 2 2 rfl _ x0 _ fun h w => (pay24_apply x0 _ h w).trans ?_
    refine (congrArg (fun t => t + _) (readCov_zero_apply _ _ 2 2 rfl ?hL ?hc _ h w)).trans (zero_add _)
    case hc => exact View.cover_of_wholeMem _ (by sl_whole_mem)
    case hL => below_or_reset
  · refine rowBlock_first 1 1 rfl _ x0 _ fun h w => (pay23_apply x0 _ h w).trans ?_
    refine (congrArg (fun t => t + _) (readCov_zero_apply _ _ 1 1 rfl ?hL ?hc _ h w)).trans (zero_add _)
    case hc => exact View.cover_of_wholeMem _ (by sl_whole_mem)
    case hL => below_or_reset
  · refine rowBlock_first 0 0 rfl _ x0 _ fun h w => (pay21_apply x0 _ h w).trans ?_
    refine (congrArg (fun t => t + _) (readCov_zero_apply _ _ 0 0 rfl ?hL ?hc _ h w)).trans (zero_add _)
    case hc => exact View.cover_of_wholeMem _ (by sl_whole_mem)
    case hL => below_or_reset

end NbrCorr

end
-- ==== Proof.PiecesB.lean ====
import proofs.«139142_j85993835201175_1_alg».proof.Proof.Gen.KernelIdeal.Frame
import proofs.«139142_j85993835201175_1_alg».proof.Proof.PayAcc
import Idealize.ShloMosaic.Lib.Pipeline.Value

-- membership of an index in a rectangle of extent 256 is looked at once per coordinate
set_option maxRecDepth 16384

noncomputable section

namespace NbrCorr

open Idealize.ShloMosaic Idealize.ShloMosaic.ValueIdx Idealize.ShloMosaic.TcCoe Idealize.SL.Sem Cert.KernelIdeal Cert.KernelIdeal.Gen

/-- The all-zero offsets of a rank-2 and of a rank-4 whole-buffer access. -/
private theorem zeroOff2 : (![0, 0] : Fin 2 → Nat) = fun _ => 0 := funext fun a => by fin_cases a <;> rfl
private theorem zeroOff4 : (![0, 0, 0, 0] : Fin 4 → Nat) = fun _ => 0 := funext fun a => by fin_cases a <;> rfl

/-- Slab `o` of the [8, 256, 256] array is its rows [o, o + 1) along axis 0: local position (0, h, w) of the
    slab sits at position (o, h, w) of the array. -/
private theorem slab_emb (k : Fin 8) (o : Nat) (hk : k.val = o)
    (inb : ∀ a, (![o, 0, 0] : Fin 3 → Nat) a + S1x256x256.size a ≤ S8x256x256.size a) (a : Fin 1) (h w : Fin 256) :
    (Rect.unit (s := S8x256x256) ![o, 0, 0] S1x256x256.size inb).emb (ix3 a h w) = ix3 k h w := by
  funext d
  apply Fin.ext
  match d with
  | ⟨0, _⟩ => show o + 1 * a.val = k.val; have := a.isLt; omega
  | ⟨1, _⟩ => show 0 + 1 * h.val = h.val; omega
  | ⟨2, _⟩ => show 0 + 1 * w.val = w.val; omega

/-- A slab whose new contents are, pixel by pixel, what the slab held before plus the chunk's sum of products with
    neighbour `k` is the block of the updated array `updDot x0 xs1` that the slab names: row `k` of its axis 0. -/
private theorem slab_upd (k : Fin 8) (o : Nat) (hk : k.val = o)
    (inb : ∀ a, (![o, 0, 0] : Fin 3 → Nat) a + S1x256x256.size a ≤ S8x256x256.size a)
    (x0 : Vec Ideal S1x32x256x256 .f32) (xs1 : Vec Ideal S8x256x256 .f32) (pay : Vec Ideal S1x256x256 .f32)
    (hpay : ∀ h w : Fin 256, pay (ix3 (0 : Fin 1) h w)
      = View.ld xs1 (Rect.unit (s := S8x256x256) ![o, 0, 0] S1x256x256.size inb) (ix3 (0 : Fin 1) h w)
        + ∑ c : Fin 32, x0 (ix4 (0 : Fin 1) c h w) * x0 (ix4 (0 : Fin 1) c (nbH k h) (nbW k w))) :
    ∀ x : (Rect.unit (s := S8x256x256) ![o, 0, 0] S1x256x256.size inb).shape.Idx,
      pay x = updDot x0 xs1 ((Rect.unit (s := S8x256x256) ![o, 0, 0] S1x256x256.size inb).emb x) := by
  intro x
  obtain ⟨a, h, w, rfl⟩ : ∃ (a : Fin 1) (h w : Fin 256), x = ix3 a h w := ⟨x 0, x 1, x 2, eq_ix3 x⟩
  obtain rfl : a = 0 := Subsingleton.elim _ _
  rw [slab_emb k o hk inb 0 h w, updDot_ix]
  refine (hpay h w).trans ?_
  -- the slab read at (0, h, w) is the array read at (k, h, w)
  exact congrArg (fun t => t + ∑ c : Fin 32, x0 (ix4 (0 : Fin 1) c h w) * x0 (ix4 (0 : Fin 1) c (nbH k h) (nbW k w)))
    (congrArg xs1 (slab_emb k o hk inb 0 h w))

/-- At a middle chunk both running arrays are updated over what the chunk before left. -/
theorem sout0_B_0_eq (c : Dev nD) (i : grid0.Coords) (arg2 : Memref sig .tc .vmem S1x32x256x256 .f32) (harg2 : arg2.IsWhole) (arg3 : Memref sig .tc .vmem S1x8x256x256 .f32) (harg3 : arg3.IsWhole) (arg4 : Memref sig .tc .vmem S256x256 .f32) (harg4 : arg4.IsWhole) (arg5 : Memref sig .tc .vmem S8x256x256 .f32) (harg5 : arg5.IsWhole) (hc0 : ¬cond0_0 i) (hc1 : ¬cond0_1 i) (x0 : Vec Ideal S1x32x256x256 .f32) (xs0 : Vec Ideal S256x256 .f32) (xs1 : Vec Ideal S8x256x256 .f32) :
    sout0_B_0 (F := Ideal) c i arg2 harg2 arg3 harg3 arg4 harg4 arg5 harg5 hc0 hc1 x0 xs0 xs1 = updSq x0 xs0 := by
  unfold sout0_B_0
  rw [View.read_writes_eq_canon _ _ _ (scover0_B_0 c i arg2 harg2 arg3 harg3 arg4 harg4 arg5 harg5 hc0 hc1 x0 xs0 xs1)]
  unfold kernelRun0_B
  dsimp only
  sl_unfold_words
  -- one store of the whole [256, 256] array: what it leaves is its payload, over the block and the array as read
  rw [View.canon_unit_zero zeroOff2]
  simp only [View.readAt_eq_ld, harg2.read_unread, harg4.read_unread,
    View.ld_unit_zero (S := S1x32x256x256) zeroOff4, View.ld_unit_zero (S := S256x256) zeroOff2]
  exact pay19_eq x0 xs0

theorem sout0_B_1_eq (c : Dev nD) (i : grid0.Coords) (arg2 : Memref sig .tc .vmem S1x32x256x256 .f32) (harg2 : arg2.IsWhole) (arg3 : Memref sig .tc .vmem S1x8x256x256 .f32) (harg3 : arg3.IsWhole) (arg4 : Memref sig .tc .vmem S256x256 .f32) (harg4 : arg4.IsWhole) (arg5 : Memref sig .tc .vmem S8x256x256 .f32) (harg5 : arg5.IsWhole) (hc0 : ¬cond0_0 i) (hc1 : ¬cond0_1 i) (x0 : Vec Ideal S1x32x256x256 .f32) (xs0 : Vec Ideal S256x256 .f32) (xs1 : Vec Ideal S8x256x256 .f32) :
    sout0_B_1 (F := Ideal) c i arg2 harg2 arg3 harg3 arg4 harg4 arg5 harg5 hc0 hc1 x0 xs0 xs1 = updDot x0 xs1 := by
  unfold sout0_B_1
  rw [View.read_writes_eq_canon _ _ _ (scover0_B_1 c i arg2 harg2 arg3 harg3 arg4 harg4 arg5 harg5 hc0 hc1 x0 xs0 xs1)]
  funext y
  -- eight slab stores, each a block of the ONE function updDot x0 xs1 of the array's index
  refine View.canon_apply_of_pieces (updDot x0 xs1) _ ?_ y (scover0_B_1 c i arg2 harg2 arg3 harg3 arg4 harg4 arg5 harg5 hc0 hc1 x0 xs0 xs1 y)
  unfold kernelRun0_B
  dsimp only
  sl_unfold_words
  simp only [View.readAt_eq_ld, harg2.read_unread, harg5.read_unread,
    View.ld_unit_zero (S := S1x32x256x256) zeroOff4]
  intro p hp
  simp only [List.mem_cons, List.not_mem_nil, or_false] at hp
  rcases hp with rfl | rfl | rfl | rfl | rfl | rfl | rfl | rfl
  · exact slab_upd 7 7 rfl _ x0 xs1 _ (fun h w => pay3_apply x0 _ h w)
  · exact slab_upd 6 6 rfl _ x0 xs1 _ (fun h w => pay2_apply x0 _ h w)
  · exact slab_upd 5 5 rfl _ x0 xs1 _ (fun h w => pay1_apply x0 _ h w)
  · exact slab_upd 4 4 rfl _ x0 xs1 _ (fun h w => pay26_apply x0 _ h w)
  · exact slab_upd 3 3 rfl _ x0 xs1 _ (fun h w => pay25_apply x0 _ h w)
  · exact slab_upd 2 2 rfl _ x0 xs1 _ (fun h w => pay24_apply x0 _ h w)
  · exact slab_upd 1 1 rfl _ x0 xs1 _ (fun h w => pay23_apply x0 _ h w)
  · exact slab_upd 0 0 rfl _ x0 xs1 _ (fun h w => pay21_apply x0 _ h w)

end NbrCorr

end
-- ==== Proof.PayFin.lean ====
import proofs.«139142_j85993835201175_1_alg».proof.Proof.Gen.KernelIdeal.Skeleton
import proofs.«139142_j85993835201175_1_alg».proof.Proof.KernelTerm
import Idealize.ShloMosaic.Lib.Pipeline.Value
import Idealize.ShloMosaic.Lib.ValueLayout

noncomputable section

namespace NbrCorr

open Idealize.ShloMosaic Idealize.ShloMosaic.ValueIdx Idealize.ShloMosaic.TcCoe Idealize.SL.Sem Cert.KernelIdeal Cert.KernelIdeal.Gen

/-! ## Reflect padding by one, an axis at a time

A map over [256, 256] is padded to [258, 256] by putting its row 1 above it and its row 254 below it, and that
to [258, 258] by putting column 1 to the left and column 254 to the right. Along the padded axis position k falls
in the first piece when k = 0 (reads 1), in the last when k = 257 (reads 254) and in the middle piece otherwise
(reads k - 1): that is `refl k`. The other coordinate is untouched. -/

section Pad
variable {α : Type}

/-- Two rank-2 indices with equal coordinates (as naturals) are equal. -/
theorem ix2_congr {n0 n1 : Nat} {a a' : Fin n0} {b b' : Fin n1} (ha : a.val = a'.val) (hb : b.val = b'.val) :
    ix2 a b = ix2 a' b' := by
  obtain rfl := Fin.ext ha
  obtain rfl := Fin.ext hb
  rfl

/-- Rows: [row 1; the map; row 254] read at (h, w) is the map at (refl h, w). -/
theorem rowPad_apply (n : S256x256.Idx → α) (h : Fin 258) (w : Fin 256) :
    concatenate S258x256 0
      [⟨S1x256, extractStridedSlice S1x256 ![1, 0] n slices_S256x256_o1_0_S1x256⟩, ⟨S256x256, n⟩,
       ⟨S1x256, extractStridedSlice S1x256 ![254, 0] n slices_S256x256_o254_0_S1x256⟩]
      concatenates_S1x256_S256x256_S1x256_S258x256_d0 (ix2 h w)
      = n (ix2 ⟨refl h.val, refl_lt h.isLt⟩ w) := by
  have hh := h.isLt
  by_cases h0 : h.val = 0
  · -- h = 0: the first piece (extents before it: 0), its only row, which is row 1 of the map
    refine (concatenate_apply_piece (0 : Fin 2) _ _ (ix2 h w) 0 (by show (0 : Nat) < 3; omega) S1x256 _ rfl rfl 0 rfl
      (ix2 (0 : Fin 1) w) (fun b hb => match b with | ⟨0, _⟩ => absurd rfl hb | ⟨1, _⟩ => rfl) ?_).trans ?_
    · show 0 + 0 = h.val
      omega
    · refine (extractStridedSlice_apply _ n _ _ (ix2 (⟨1, by omega⟩ : Fin 256) w)
        (fun a => match a with | ⟨0, _⟩ => rfl | ⟨1, _⟩ => by show w.val = 0 + w.val; omega)).trans ?_
      refine congrArg n (ix2_congr ?_ rfl)
      show 1 = refl h.val
      unfold refl; rw [if_pos h0]
  · by_cases h1 : h.val = 257
    · -- h = 257: the last piece (extents before it: 1 + 256), its only row, which is row 254 of the map
      refine (concatenate_apply_piece (0 : Fin 2) _ _ (ix2 h w) 2 (by show (2 : Nat) < 3; omega) S1x256 _ rfl rfl 257 rfl
        (ix2 (0 : Fin 1) w) (fun b hb => match b with | ⟨0, _⟩ => absurd rfl hb | ⟨1, _⟩ => rfl) ?_).trans ?_
      · show 257 + 0 = h.val
        omega
      · refine (extractStridedSlice_apply _ n _ _ (ix2 (⟨254, by omega⟩ : Fin 256) w)
          (fun a => match a with | ⟨0, _⟩ => rfl | ⟨1, _⟩ => by show w.val = 0 + w.val; omega)).trans ?_
        refine congrArg n (ix2_congr ?_ rfl)
        show 254 = refl h.val
        unfold refl; rw [if_neg h0, if_pos h1]
    · -- 1 ≤ h ≤ 256: the middle piece (extent before it: 1), the map itself at row h - 1
      refine (concatenate_apply_piece (0 : Fin 2) _ _ (ix2 h w) 1 (by show (1 : Nat) < 3; omega) S256x256 _ rfl rfl 1 rfl
        (ix2 (⟨h.val - 1, by omega⟩ : Fin 256) w) (fun b hb => match b with | ⟨0, _⟩ => absurd rfl hb | ⟨1, _⟩ => rfl) ?_).trans ?_
      · show 1 + (h.val - 1) = h.val
        omega
      · refine congrArg n (ix2_congr ?_ rfl)
        show h.val - 1 = refl h.val
        unfold refl; rw [if_neg h0, if_neg h1]

/-- Columns: [column 1 | the map | column 254] read at (h, w) is the map at (h, refl w). -/
theorem colPad_apply (m : S258x256.Idx → α) (h w : Fin 258) :
    concatenate S258x258 1
      [⟨S258x1, extractStridedSlice S258x1 ![0, 1] m slices_S258x256_o0_1_S258x1⟩, ⟨S258x256, m⟩,
       ⟨S258x1, extractStridedSlice S258x1 ![0, 254] m slices_S258x256_o0_254_S258x1⟩]
      concatenates_S258x1_S258x256_S258x1_S258x258_d1 (ix2 h w)
      = m (ix2 h ⟨refl w.val, refl_lt w.isLt⟩) := by
  have hw := w.isLt
  by_cases h0 : w.val = 0
  · -- w = 0: the first piece, its only column, which is column 1 of the map
    refine (concatenate_apply_piece (1 : Fin 2) _ _ (ix2 h w) 0 (by show (0 : Nat) < 3; omega) S258x1 _ rfl rfl 0 rfl
      (ix2 h (0 : Fin 1)) (fun b hb => match b with | ⟨0, _⟩ => rfl | ⟨1, _⟩ => absurd rfl hb) ?_).trans ?_
    · show 0 + 0 = w.val
      omega
    · refine (extractStridedSlice_apply _ m _ _ (ix2 h (⟨1, by omega⟩ : Fin 256))
        (fun a => match a with | ⟨0, _⟩ => by show h.val = 0 + h.val; omega | ⟨1, _⟩ => rfl)).trans ?_
      refine congrArg m (ix2_congr rfl ?_)
      show 1 = refl w.val
      unfold refl; rw [if_pos h0]
  · by_cases h1 : w.val = 257
    · -- w = 257: the last piece (extents before it: 1 + 256), its only column, which is column 254 of the map
      refine (concatenate_apply_piece (1 : Fin 2) _ _ (ix2 h w) 2 (by show (2 : Nat) < 3; omega) S258x1 _ rfl rfl 257 rfl
        (ix2 h (0 : Fin 1)) (fun b hb => match b with | ⟨0, _⟩ => rfl | ⟨1, _⟩ => absurd rfl hb) ?_).trans ?_
      · show 257 + 0 = w.val
        omega
      · refine (extractStridedSlice_apply _ m _ _ (ix2 h (⟨254, by omega⟩ : Fin 256))
          (fun a => match a with | ⟨0, _⟩ => by show h.val = 0 + h.val; omega | ⟨1, _⟩ => rfl)).trans ?_
        refine congrArg m (ix2_congr rfl ?_)
        show 254 = refl w.val
        unfold refl; rw [if_neg h0, if_pos h1]
    · -- 1 ≤ w ≤ 256: the middle piece (extent before it: 1), the map itself at column w - 1
      refine (concatenate_apply_piece (1 : Fin 2) _ _ (ix2 h w) 1 (by show (1 : Nat) < 3; omega) S258x256 _ rfl rfl 1 rfl
        (ix2 h (⟨w.val - 1, by omega⟩ : Fin 256)) (fun b hb => match b with | ⟨0, _⟩ => rfl | ⟨1, _⟩ => absurd rfl hb) ?_).trans ?_
      · show 1 + (w.val - 1) = w.val
        omega
      · refine congrArg m (ix2_congr rfl ?_)
        show w.val - 1 = refl w.val
        unfold refl; rw [if_neg h0, if_neg h1]

end Pad

/-! ## One output slab

The [1, 256, 256] slab and the [1, 1, 256, 256] block have the same row-major positions as the [256, 256] map
between them (the leading axes have extent 1), so both casts keep (h, w); the quotient and the product are
taken entry by entry, and the slice that starts at (a, b) reads the padded map at (a + h, b + w). -/

/-- One output slab: the slab read as [256, 256], over the norm map times the slice of the padded norm map that
    starts at (a, b), stored as a [1, 1, 256, 256] block. At (0, 0, h, w) it is the slab's entry (0, h, w) over the
    norm at (h, w) times the padded norm at (a + h, b + w) (`k` is that padded position). -/
theorem slab_apply (n : FVec Ideal S256x256 .f32) (p : FVec Ideal S258x258 .f32) (a b : Nat)
    (hs : S258x258.Slices ![a, b] S256x256) (v : Vec Ideal S1x256x256 .f32) (h w : Fin 256)
    (k : S258x258.Idx) (hk0 : (k 0).val = a + h.val) (hk1 : (k 1).val = b + w.val) :
    shapeCast S1x1x256x256
        (divf (shapeCast S256x256 v shapeCasts_S1x256x256_S256x256) (mulf n (extractStridedSlice S256x256 ![a, b] p hs)))
        shapeCasts_S256x256_S1x1x256x256 (ix4 (0 : Fin 1) (0 : Fin 1) h w)
      = Ideal.div (v (ix3 (0 : Fin 1) h w)) (n (ix2 h w) * p k) := by
  -- the outer cast: position ((0 · 1 + 0) · 256 + h) · 256 + w of the block is position h · 256 + w of the map
  refine (shapeCast_apply _ _ _ (ix2 h w) ?_).trans ?_
  · rw [Shape.rowMajor_val_two, Shape.rowMajor_val_four]
    show h.val * 256 + w.val = (((0 : Nat) * 1 + 0) * 256 + h.val) * 256 + w.val
    omega
  · rw [divf_apply, mulf_apply]
    -- the inner cast: position h · 256 + w of the map is position (0 · 256 + h) · 256 + w of the slab
    have e1 : shapeCast S256x256 v shapeCasts_S1x256x256_S256x256 (ix2 h w) = v (ix3 (0 : Fin 1) h w) := by
      refine shapeCast_apply _ _ _ (ix3 (0 : Fin 1) h w) ?_
      rw [Shape.rowMajor_val_three, Shape.rowMajor_val_two]
      show ((0 : Nat) * 256 + h.val) * 256 + w.val = h.val * 256 + w.val
      omega
    have e2 : extractStridedSlice S256x256 ![a, b] p hs (ix2 h w) = p k :=
      extractStridedSlice_apply _ p hs _ k (fun c => match c with | ⟨0, _⟩ => hk0 | ⟨1, _⟩ => hk1)
    rw [e1, e2]

variable (v93 : Vec Ideal S256x256 .f32)

/-- The norm map: the square root of the finished sum of squares. -/
theorem pay6_apply (h w : Fin 256) : k0_pay6 (F := Ideal) v93 (ix2 h w) = Ideal.sqrt (v93 (ix2 h w)) :=
  rfl  -- the square root of a map is taken entry by entry

/-- The norm map reflect-padded by one: padded position (h, w) reads (refl h, refl w). -/
theorem pay7_apply (h w : Fin 258) :
    k0_pay7 (F := Ideal) v93 (ix2 h w) = Ideal.sqrt (v93 (ix2 ⟨refl h.val, refl_lt h.isLt⟩ ⟨refl w.val, refl_lt w.isLt⟩)) := by
  -- columns last, rows first: (h, w) reads the row-padded map at (h, refl w), which reads the norm map at (refl h, refl w)
  refine (colPad_apply _ h w).trans ?_
  refine (rowPad_apply _ h _).trans ?_
  exact pay6_apply v93 _ _

/-- A slab over the norm map and its padding, for the neighbour whose slice of the padded map starts at (a, b),
    a, b ≤ 2: the neighbour's norm is the norm at (refl (a + h), refl (b + w)). -/
theorem slab_nrm (a b : Nat) (ha : a ≤ 2) (hb : b ≤ 2) (hs : S258x258.Slices ![a, b] S256x256)
    (v : Vec Ideal S1x256x256 .f32) (h w : Fin 256) :
    shapeCast S1x1x256x256
        (divf (shapeCast S256x256 v shapeCasts_S1x256x256_S256x256)
          (mulf (k0_pay6 (F := Ideal) v93) (extractStridedSlice S256x256 ![a, b] (k0_pay7 (F := Ideal) v93) hs)))
        shapeCasts_S256x256_S1x1x256x256 (ix4 (0 : Fin 1) (0 : Fin 1) h w)
      = Ideal.div (v (ix3 (0 : Fin 1) h w))
          (Ideal.sqrt (v93 (ix2 h w)) * Ideal.sqrt (v93 (ix2
            ⟨refl (a + h.val), refl_lt (by have := h.isLt; omega)⟩ ⟨refl (b + w.val), refl_lt (by have := w.isLt; omega)⟩))) := by
  have hh := h.isLt
  have hw := w.isLt
  refine (slab_apply _ _ a b hs v h w (ix2 (⟨a + h.val, by omega⟩ : Fin 258) (⟨b + w.val, by omega⟩ : Fin 258)) rfl rfl).trans ?_
  rw [pay6_apply, pay7_apply]

/-- The eight output slabs: the raw dot product read from the scratch slab over the product of the two norms.
    (Slabs 0 … 2 build the norm map inside the payload; slab 3's denominator is computed before the payload;
    slabs 4, 5, 7 take the norm map and its padding as operands; slab 6's quotient is computed before it is cast.)
    Neighbour i's slice starts at (offH i, offW i), and refl (offH i + h) is nbH i h, refl (offW i + w) is nbW i w,
    by definition. -/
theorem pay8_apply (v : Vec Ideal S1x256x256 .f32) (h w : Fin 256) :
    k0_pay8 (F := Ideal) v93 v (ix4 (0 : Fin 1) (0 : Fin 1) h w)
      = Ideal.div (v (ix3 (0 : Fin 1) h w)) (Ideal.sqrt (v93 (ix2 h w)) * Ideal.sqrt (v93 (ix2 (nbH 0 h) (nbW 0 w)))) :=
  slab_nrm v93 0 1 (by omega) (by omega) _ v h w
theorem pay9_apply (v : Vec Ideal S1x256x256 .f32) (h w : Fin 256) :
    k0_pay9 (F := Ideal) v93 v (ix4 (0 : Fin 1) (0 : Fin 1) h w)
      = Ideal.div (v (ix3 (0 : Fin 1) h w)) (Ideal.sqrt (v93 (ix2 h w)) * Ideal.sqrt (v93 (ix2 (nbH 1 h) (nbW 1 w)))) :=
  slab_nrm v93 0 0 (by omega) (by omega) _ v h w
theorem pay10_apply (v : Vec Ideal S1x256x256 .f32) (h w : Fin 256) :
    k0_pay10 (F := Ideal) v93 v (ix4 (0 : Fin 1) (0 : Fin 1) h w)
      = Ideal.div (v (ix3 (0 : Fin 1) h w)) (Ideal.sqrt (v93 (ix2 h w)) * Ideal.sqrt (v93 (ix2 (nbH 2 h) (nbW 2 w)))) :=
  slab_nrm v93 1 0 (by omega) (by omega) _ v h w
theorem pay12_apply (v : Vec Ideal S1x256x256 .f32) (h w : Fin 256) :
    k0_pay12 (F := Ideal) (k0_pay11 v93) v (ix4 (0 : Fin 1) (0 : Fin 1) h w)
      = Ideal.div (v (ix3 (0 : Fin 1) h w)) (Ideal.sqrt (v93 (ix2 h w)) * Ideal.sqrt (v93 (ix2 (nbH 3 h) (nbW 3 w)))) :=
  slab_nrm v93 2 0 (by omega) (by omega) _ v h w
theorem pay13_apply (v : Vec Ideal S1x256x256 .f32) (h w : Fin 256) :
    k0_pay13 (F := Ideal) (k0_pay6 v93) (k0_pay7 v93) v (ix4 (0 : Fin 1) (0 : Fin 1) h w)
      = Ideal.div (v (ix3 (0 : Fin 1) h w)) (Ideal.sqrt (v93 (ix2 h w)) * Ideal.sqrt (v93 (ix2 (nbH 4 h) (nbW 4 w)))) :=
  slab_nrm v93 2 1 (by omega) (by omega) _ v h w
theorem pay14_apply (v : Vec Ideal S1x256x256 .f32) (h w : Fin 256) :
    k0_pay14 (F := Ideal) (k0_pay6 v93) (k0_pay7 v93) v (ix4 (0 : Fin 1) (0 : Fin 1) h w)
      = Ideal.div (v (ix3 (0 : Fin 1) h w)) (Ideal.sqrt (v93 (ix2 h w)) * Ideal.sqrt (v93 (ix2 (nbH 5 h) (nbW 5 w)))) :=
  slab_nrm v93 2 2 (by omega) (by omega) _ v h w
theorem pay4_apply (v : Vec Ideal S1x256x256 .f32) (h w : Fin 256) :
    k0_pay4 (F := Ideal) (k0_pay15 (k0_pay6 v93) (k0_pay7 v93) v) (ix4 (0 : Fin 1) (0 : Fin 1) h w)
      = Ideal.div (v (ix3 (0 : Fin 1) h w)) (Ideal.sqrt (v93 (ix2 h w)) * Ideal.sqrt (v93 (ix2 (nbH 6 h) (nbW 6 w)))) :=
  slab_nrm v93 1 2 (by omega) (by omega) _ v h w
theorem pay5_apply (v : Vec Ideal S1x256x256 .f32) (h w : Fin 256) :
    k0_pay5 (F := Ideal) (k0_pay6 v93) (k0_pay7 v93) v (ix4 (0 : Fin 1) (0 : Fin 1) h w)
      = Ideal.div (v (ix3 (0 : Fin 1) h w)) (Ideal.sqrt (v93 (ix2 h w)) * Ideal.sqrt (v93 (ix2 (nbH 7 h) (nbW 7 w)))) :=
  slab_nrm v93 0 2 (by omega) (by omega) _ v h w

end NbrCorr

end
-- ==== Proof.PiecesC.lean ====
import proofs.«139142_j85993835201175_1_alg».proof.Proof.Gen.KernelIdeal.Frame
import proofs.«139142_j85993835201175_1_alg».proof.Proof.PayAcc
import proofs.«139142_j85993835201175_1_alg».proof.Proof.PayFin
import Idealize.ShloMosaic.Lib.Pipeline.Value

noncomputable section

namespace NbrCorr

open Idealize.ShloMosaic Idealize.ShloMosaic.ValueIdx Idealize.ShloMosaic.TcCoe Idealize.SL.Sem Cert.KernelIdeal Cert.KernelIdeal.Gen

/-
  Case C of the kernel's body, a batch's last chunk: the sum of squares [256, 256] and the eight raw dot products
  [8, 256, 256] are updated as at a middle chunk; then both are read back and the output block [1, 8, 256, 256] is
  written slab by slab, slab k the raw dot product with neighbour k over the product of the two pixels' norms.
  The dot products are stored by eight slab stores and the output by eight more: each list of stores is read back
  as ONE function of the array's index, every store a slab of that function.
-/

/-- The zero offsets of a whole-buffer access, however many axes. -/
private theorem zoff2 : (![0, 0] : Fin 2 → ℕ) = fun _ => 0 := by funext a; fin_cases a <;> rfl
private theorem zoff4 : (![0, 0, 0, 0] : Fin 4 → ℕ) = fun _ => 0 := by funext a; fin_cases a <;> rfl

section
variable (arg2 : Memref sig .tc .vmem S1x32x256x256 .f32) (harg2 : arg2.IsWhole)
  (arg4 : Memref sig .tc .vmem S256x256 .f32) (harg4 : arg4.IsWhole)
  (arg5 : Memref sig .tc .vmem S8x256x256 .f32) (harg5 : arg5.IsWhole)
  (x0 : Vec Ideal S1x32x256x256 .f32) (xs0 : Vec Ideal S256x256 .f32) (xs1 : Vec Ideal S8x256x256 .f32)

/-- A whole-buffer load of the staged chunk reads the chunk. -/
private theorem read_chunk (inb : ∀ a, (![0, 0, 0, 0] : Fin 4 → ℕ) a + S1x32x256x256.size a ≤ S1x32x256x256.size a) :
    View.readAt (Elt Ideal) arg2.view (Rect.unit ![0, 0, 0, 0] S1x32x256x256.size inb).toLoadRect (harg2.unread x0) = x0 := by
  rw [View.readAt_eq_ld, harg2.read_unread, View.ld_unit_zero (S := S1x32x256x256) zoff4]

/-- A whole-buffer load of the running sum of squares reads it. -/
private theorem read_sq (inb : ∀ a, (![0, 0] : Fin 2 → ℕ) a + S256x256.size a ≤ S256x256.size a) :
    View.readAt (Elt Ideal) arg4.view (Rect.unit ![0, 0] S256x256.size inb).toLoadRect (harg4.unread xs0) = xs0 := by
  rw [View.readAt_eq_ld, harg4.read_unread, View.ld_unit_zero (S := S256x256) zoff2]

/-- A load of slab `k` of the running dot products reads, at (0, h, w), entry (k, h, w). -/
private theorem read_slab (k : ℕ) (i : Fin 8) (hk : i.val = k)
    (inb : ∀ a, (![k, 0, 0] : Fin 3 → ℕ) a + S1x256x256.size a ≤ S8x256x256.size a) (h w : Fin 256) :
    View.readAt (Elt Ideal) arg5.view (Rect.unit (s := S8x256x256) ![k, 0, 0] S1x256x256.size inb).toLoadRect (harg5.unread xs1)
      (ix3 (0 : Fin 1) h w) = xs1 (ix3 i h w) := by
  rw [View.readAt_eq_ld, harg5.read_unread]
  show xs1 _ = xs1 _
  congr 1
  funext a
  apply Fin.ext
  subst hk
  match a with
  | ⟨0, _⟩ => simp [LoadRect.idx]
  | ⟨1, _⟩ => simp [LoadRect.idx]
  | ⟨2, _⟩ => simp [LoadRect.idx]
end

/-- Slab `k` of an [8, 256, 256] array, entered at (0, h, w), is entry (k, h, w) of the array. -/
private theorem slab_idx (k : ℕ) (i : Fin 8) (hk : i.val = k)
    (inb : ∀ a, (![k, 0, 0] : Fin 3 → ℕ) a + S1x256x256.size a ≤ S8x256x256.size a) (h w : Fin 256) :
    (Rect.unit (s := S8x256x256) ![k, 0, 0] S1x256x256.size inb).toLoadRect.idx (ix3 (0 : Fin 1) h w) = ix3 i h w := by
  funext a
  apply Fin.ext
  subst hk
  match a with
  | ⟨0, _⟩ => simp [LoadRect.idx]
  | ⟨1, _⟩ => simp [LoadRect.idx]
  | ⟨2, _⟩ => simp [LoadRect.idx]

/-- Slab `k` of a [1, 8, 256, 256] block, entered at (0, 0, h, w), is entry (0, k, h, w) of the block. -/
private theorem oslab_idx (k : ℕ) (i : Fin 8) (hk : i.val = k)
    (inb : ∀ a, (![0, k, 0, 0] : Fin 4 → ℕ) a + S1x1x256x256.size a ≤ S1x8x256x256.size a) (h w : Fin 256) :
    (Rect.unit (s := S1x8x256x256) ![0, k, 0, 0] S1x1x256x256.size inb).toLoadRect.idx (ix4 (0 : Fin 1) (0 : Fin 1) h w)
      = ix4 (0 : Fin 1) i h w := by
  funext a
  apply Fin.ext
  subst hk
  match a with
  | ⟨0, _⟩ => simp [LoadRect.idx]
  | ⟨1, _⟩ => simp [LoadRect.idx]
  | ⟨2, _⟩ => simp [LoadRect.idx]
  | ⟨3, _⟩ => simp [LoadRect.idx]

/-- A slab store whose payload is, pixel by pixel, what slab `k` held plus the chunk's sum of products with neighbour
    `k`, is slab `k` of the updated dot products. -/
private theorem slab_piece (x0 : Vec Ideal S1x32x256x256 .f32) (xs1 : Vec Ideal S8x256x256 .f32) (k : ℕ) (i : Fin 8) (hk : i.val = k)
    (inb : ∀ a, (![k, 0, 0] : Fin 3 → ℕ) a + S1x256x256.size a ≤ S8x256x256.size a)
    (P v : Vec Ideal S1x256x256 .f32) (hv : ∀ h w : Fin 256, v (ix3 (0 : Fin 1) h w) = xs1 (ix3 i h w))
    (hP : ∀ h w : Fin 256, P (ix3 (0 : Fin 1) h w)
      = v (ix3 (0 : Fin 1) h w) + ∑ c : Fin 32, x0 (ix4 (0 : Fin 1) c h w) * x0 (ix4 (0 : Fin 1) c (nbH i h) (nbW i w))) :
    ∀ x : S1x256x256.Idx,
      P x = updDot x0 xs1 ((Rect.unit (s := S8x256x256) ![k, 0, 0] S1x256x256.size inb).emb x) := by
  intro x
  obtain ⟨a, h, w, rfl⟩ : ∃ (a : Fin 1) (h w : Fin 256), x = ix3 a h w := ⟨x 0, x 1, x 2, eq_ix3 x⟩
  obtain rfl : a = 0 := Subsingleton.elim _ _
  rw [hP, hv]
  exact (updDot_ix x0 xs1 i h w).symm.trans (congrArg (updDot x0 xs1) (slab_idx k i hk inb h w).symm)

/-- A slab store into the output block whose payload is, pixel by pixel, slab `k`'s raw dot product over the product
    of the two pixels' norms is slab `k` of the finished correlation. -/
private theorem oslab_piece (a0 : Vec Ideal S256x256 .f32) (a1 : Vec Ideal S8x256x256 .f32) (k : ℕ) (i : Fin 8) (hk : i.val = k)
    (inb : ∀ a, (![0, k, 0, 0] : Fin 4 → ℕ) a + S1x1x256x256.size a ≤ S1x8x256x256.size a)
    (P : Vec Ideal S1x1x256x256 .f32) (v : Vec Ideal S1x256x256 .f32)
    (hv : ∀ h w : Fin 256, v (ix3 (0 : Fin 1) h w) = a1 (ix3 i h w))
    (hP : ∀ h w : Fin 256, P (ix4 (0 : Fin 1) (0 : Fin 1) h w)
      = Ideal.div (v (ix3 (0 : Fin 1) h w)) (Ideal.sqrt (a0 (ix2 h w)) * Ideal.sqrt (a0 (ix2 (nbH i h) (nbW i w))))) :
    ∀ x : S1x1x256x256.Idx,
      P x = fin a0 a1 ((Rect.unit (s := S1x8x256x256) ![0, k, 0, 0] S1x1x256x256.size inb).emb x) := by
  intro x
  obtain ⟨a, b, h, w, rfl⟩ : ∃ (a b : Fin 1) (h w : Fin 256), x = ix4 a b h w := ⟨x 0, x 1, x 2, x 3, eq_ix4 x⟩
  obtain rfl : a = 0 := Subsingleton.elim _ _
  obtain rfl : b = 0 := Subsingleton.elim _ _
  rw [hP, hv]
  exact (fin_ix a0 a1 i h w).symm.trans (congrArg (fin a0 a1) (oslab_idx k i hk inb h w).symm)

/-- The one store into the sum-of-squares array leaves the updated sum of squares. -/
private theorem canon_sq (c : Dev nD) (arg2 : Memref sig .tc .vmem S1x32x256x256 .f32) (harg2 : arg2.IsWhole)
    (arg4 : Memref sig .tc .vmem S256x256 .f32) (harg4 : arg4.IsWhole)
    (x0 : Vec Ideal S1x32x256x256 .f32) (xs0 : Vec Ideal S256x256 .f32) :
    View.canon (kernelRun0_C.sl.HS0_1 (F := Ideal) c arg2 harg2 arg4 harg4 x0 xs0) = updSq x0 xs0 := by
  sl_unfold_words
  rw [View.canon_unit_zero zoff2, read_chunk, read_sq]
  exact pay19_eq x0 xs0

/-- The eight slab stores into the dot-product array leave, together, the updated dot products: slab `k`'s payload
    is what the slab held plus the chunk's sum of products with neighbour `k`. -/
private theorem canon_dots (c : Dev nD) (i : grid0.Coords) (arg2 : Memref sig .tc .vmem S1x32x256x256 .f32) (harg2 : arg2.IsWhole) (arg3 : Memref sig .tc .vmem S1x8x256x256 .f32) (harg3 : arg3.IsWhole) (arg4 : Memref sig .tc .vmem S256x256 .f32) (harg4 : arg4.IsWhole) (arg5 : Memref sig .tc .vmem S8x256x256 .f32) (harg5 : arg5.IsWhole) (hc0 : ¬cond0_0 i) (hc1 : cond0_1 i) (x0 : Vec Ideal S1x32x256x256 .f32) (xs0 : Vec Ideal S256x256 .f32) (xs1 : Vec Ideal S8x256x256 .f32) :
    View.canon (kernelRun0_C.sl.HS1_8 (F := Ideal) c arg2 harg2 arg5 harg5 x0 xs1) = updDot x0 xs1 := by
  funext y
  have hcov := scover0_C_1 (F := Ideal) c i arg2 harg2 arg3 harg3 arg4 harg4 arg5 harg5 hc0 hc1 x0 xs0 xs1 y
  unfold kernelRun0_C at hcov
  dsimp only at hcov
  refine View.canon_apply_of_pieces (updDot x0 xs1) _ ?_ y hcov
  sl_unfold_words
  rw [read_chunk arg2 harg2 x0]
  intro p hp
  simp only [List.mem_cons, List.not_mem_nil, or_false] at hp
  rcases hp with rfl | rfl | rfl | rfl | rfl | rfl | rfl | rfl
  · exact slab_piece x0 xs1 7 7 rfl Facts₀.inb_S8x256x256_S1x256x256_7_0_0 _ _
      (read_slab arg5 harg5 xs1 7 7 rfl Facts₀.inb_S8x256x256_S1x256x256_7_0_0) (pay3_apply x0 _)
  · exact slab_piece x0 xs1 6 6 rfl Facts₀.inb_S8x256x256_S1x256x256_6_0_0 _ _
      (read_slab arg5 harg5 xs1 6 6 rfl Facts₀.inb_S8x256x256_S1x256x256_6_0_0) (pay2_apply x0 _)
  · exact slab_piece x0 xs1 5 5 rfl Facts₀.inb_S8x256x256_S1x256x256_5_0_0 _ _
      (read_slab arg5 harg5 xs1 5 5 rfl Facts₀.inb_S8x256x256_S1x256x256_5_0_0) (pay1_apply x0 _)
  · exact slab_piece x0 xs1 4 4 rfl Facts₀.inb_S8x256x256_S1x256x256_4_0_0 _ _
      (read_slab arg5 harg5 xs1 4 4 rfl Facts₀.inb_S8x256x256_S1x256x256_4_0_0) (pay26_apply x0 _)
  · exact slab_piece x0 xs1 3 3 rfl Facts₀.inb_S8x256x256_S1x256x256_3_0_0 _ _
      (read_slab arg5 harg5 xs1 3 3 rfl Facts₀.inb_S8x256x256_S1x256x256_3_0_0) (pay25_apply x0 _)
  · exact slab_piece x0 xs1 2 2 rfl Facts₀.inb_S8x256x256_S1x256x256_2_0_0 _ _
      (read_slab arg5 harg5 xs1 2 2 rfl Facts₀.inb_S8x256x256_S1x256x256_2_0_0) (pay24_apply x0 _)
  · exact slab_piece x0 xs1 1 1 rfl Facts₀.inb_S8x256x256_S1x256x256_1_0_0 _ _
      (read_slab arg5 harg5 xs1 1 1 rfl Facts₀.inb_S8x256x256_S1x256x256_1_0_0) (pay23_apply x0 _)
  · exact slab_piece x0 xs1 0 0 rfl Facts₀.inb_S8x256x256_S1x256x256_0_0_0 _ _
      (read_slab arg5 harg5 xs1 0 0 rfl Facts₀.inb_S8x256x256_S1x256x256_0_0_0) (pay21_apply x0 _)

/-- Loaded back after its store, the sum-of-squares array is the updated sum of squares. -/
private theorem load_sq (c : Dev nD) (arg2 : Memref sig .tc .vmem S1x32x256x256 .f32) (harg2 : arg2.IsWhole)
    (arg4 : Memref sig .tc .vmem S256x256 .f32) (harg4 : arg4.IsWhole)
    (x0 : Vec Ideal S1x32x256x256 .f32) (xs0 : Vec Ideal S256x256 .f32) :
    kernelRun0_C.sl.v93 (F := Ideal) c arg2 harg2 arg4 harg4 x0 xs0 = updSq x0 xs0 := by
  unfold kernelRun0_C.sl.v93
  rw [View.readCov_eq_canon', canon_sq]
  exact View.ld_unit_zero (S := S256x256) zoff2 _ (updSq x0 xs0)

/-- Loaded back after stores that left the updated dot products, slab `k` reads, at (0, h, w), their entry (k, h, w). -/
private theorem load_slab (arg5 : Memref sig .tc .vmem S8x256x256 .f32)
    (x0 : Vec Ideal S1x32x256x256 .f32) (xs1 : Vec Ideal S8x256x256 .f32)
    (L : List (View.Piece (Elt Ideal) S8x256x256 .f32)) (hL : View.canon L = updDot x0 xs1)
    (k : ℕ) (i : Fin 8) (hk : i.val = k)
    (inb : ∀ a, (![k, 0, 0] : Fin 3 → ℕ) a + S1x256x256.size a ≤ S8x256x256.size a) (h w : Fin 256) :
    arg5.view.readCov L (Rect.unit (s := S8x256x256) ![k, 0, 0] S1x256x256.size inb).toLoadRect (ix3 (0 : Fin 1) h w)
      = updDot x0 xs1 (ix3 i h w) := by
  rw [View.readCov_eq_canon', hL]
  exact congrArg (updDot x0 xs1) (slab_idx k i hk inb h w)

/-- At a batch's last chunk both running arrays are updated over what the chunk before left, and the output block is
    the quotient of the finished arrays. -/
theorem sout0_C_0_eq (c : Dev nD) (i : grid0.Coords) (arg2 : Memref sig .tc .vmem S1x32x256x256 .f32) (harg2 : arg2.IsWhole) (arg3 : Memref sig .tc .vmem S1x8x256x256 .f32) (harg3 : arg3.IsWhole) (arg4 : Memref sig .tc .vmem S256x256 .f32) (harg4 : arg4.IsWhole) (arg5 : Memref sig .tc .vmem S8x256x256 .f32) (harg5 : arg5.IsWhole) (hc0 : ¬cond0_0 i) (hc1 : cond0_1 i) (x0 : Vec Ideal S1x32x256x256 .f32) (xs0 : Vec Ideal S256x256 .f32) (xs1 : Vec Ideal S8x256x256 .f32) :
    sout0_C_0 (F := Ideal) c i arg2 harg2 arg3 harg3 arg4 harg4 arg5 harg5 hc0 hc1 x0 xs0 xs1 = updSq x0 xs0 := by
  unfold sout0_C_0
  rw [View.read_writes_eq_canon _ _ _ (scover0_C_0 c i arg2 harg2 arg3 harg3 arg4 harg4 arg5 harg5 hc0 hc1 x0 xs0 xs1)]
  unfold kernelRun0_C
  dsimp only
  exact canon_sq c arg2 harg2 arg4 harg4 x0 xs0

theorem sout0_C_1_eq (c : Dev nD) (i : grid0.Coords) (arg2 : Memref sig .tc .vmem S1x32x256x256 .f32) (harg2 : arg2.IsWhole) (arg3 : Memref sig .tc .vmem S1x8x256x256 .f32) (harg3 : arg3.IsWhole) (arg4 : Memref sig .tc .vmem S256x256 .f32) (harg4 : arg4.IsWhole) (arg5 : Memref sig .tc .vmem S8x256x256 .f32) (harg5 : arg5.IsWhole) (hc0 : ¬cond0_0 i) (hc1 : cond0_1 i) (x0 : Vec Ideal S1x32x256x256 .f32) (xs0 : Vec Ideal S256x256 .f32) (xs1 : Vec Ideal S8x256x256 .f32) :
    sout0_C_1 (F := Ideal) c i arg2 harg2 arg3 harg3 arg4 harg4 arg5 harg5 hc0 hc1 x0 xs0 xs1 = updDot x0 xs1 := by
  unfold sout0_C_1
  rw [View.read_writes_eq_canon _ _ _ (scover0_C_1 c i arg2 harg2 arg3 harg3 arg4 harg4 arg5 harg5 hc0 hc1 x0 xs0 xs1)]
  unfold kernelRun0_C
  dsimp only
  exact canon_dots c i arg2 harg2 arg3 harg3 arg4 harg4 arg5 harg5 hc0 hc1 x0 xs0 xs1

theorem out0_C_1_eq (c : Dev nD) (i : grid0.Coords) (arg2 : Memref sig .tc .vmem S1x32x256x256 .f32) (harg2 : arg2.IsWhole) (arg3 : Memref sig .tc .vmem S1x8x256x256 .f32) (harg3 : arg3.IsWhole) (arg4 : Memref sig .tc .vmem S256x256 .f32) (harg4 : arg4.IsWhole) (arg5 : Memref sig .tc .vmem S8x256x256 .f32) (harg5 : arg5.IsWhole) (hc0 : ¬cond0_0 i) (hc1 : cond0_1 i) (x0 : Vec Ideal S1x32x256x256 .f32) (xs0 : Vec Ideal S256x256 .f32) (xs1 : Vec Ideal S8x256x256 .f32) :
    out0_C_1 (F := Ideal) c i arg2 harg2 arg3 harg3 arg4 harg4 arg5 harg5 hc0 hc1 x0 xs0 xs1 = fin (updSq x0 xs0) (updDot x0 xs1) := by
  unfold out0_C_1
  rw [View.read_writes_eq_canon _ _ _ (cover0_C_1 c i arg2 harg2 arg3 harg3 arg4 harg4 arg5 harg5 hc0 hc1 x0 xs0 xs1)]
  funext y
  -- eight slab stores, each a slab of the ONE function fin (updSq x0 xs0) (updDot x0 xs1) of the block's index
  refine View.canon_apply_of_pieces (fin (updSq x0 xs0) (updDot x0 xs1)) _ ?_ y (cover0_C_1 c i arg2 harg2 arg3 harg3 arg4 harg4 arg5 harg5 hc0 hc1 x0 xs0 xs1 y)
  unfold kernelRun0_C
  dsimp only
  -- the norm map, its padding and slab 3's denominator are computed from the sum of squares loaded back
  unfold kernelRun0_C.sl.r_7 kernelRun0_C.sl.r_6 kernelRun0_C.sl.r_5 kernelRun0_C.sl.r_4
  rw [load_sq c arg2 harg2 arg4 harg4 x0 xs0]
  have hd := canon_dots c i arg2 harg2 arg3 harg3 arg4 harg4 arg5 harg5 hc0 hc1 x0 xs0 xs1
  intro p hp
  simp only [List.mem_cons, List.not_mem_nil, or_false] at hp
  rcases hp with rfl | rfl | rfl | rfl | rfl | rfl | rfl | rfl
  · exact oslab_piece (updSq x0 xs0) (updDot x0 xs1) 7 7 rfl Facts₀.inb_S1x8x256x256_S1x1x256x256_0_7_0_0 _
      (kernelRun0_C.sl.v159 c arg2 harg2 arg5 harg5 x0 xs1)
      (load_slab arg5 x0 xs1 _ hd 7 7 rfl Facts₀.inb_S8x256x256_S1x256x256_7_0_0) (pay5_apply (updSq x0 xs0) _)
  · exact oslab_piece (updSq x0 xs0) (updDot x0 xs1) 6 6 rfl Facts₀.inb_S1x8x256x256_S1x1x256x256_0_6_0_0 _
      (kernelRun0_C.sl.v151 c arg2 harg2 arg5 harg5 x0 xs1)
      (load_slab arg5 x0 xs1 _ hd 6 6 rfl Facts₀.inb_S8x256x256_S1x256x256_6_0_0) (pay4_apply (updSq x0 xs0) _)
  · exact oslab_piece (updSq x0 xs0) (updDot x0 xs1) 5 5 rfl Facts₀.inb_S1x8x256x256_S1x1x256x256_0_5_0_0 _
      (kernelRun0_C.sl.v143 c arg2 harg2 arg5 harg5 x0 xs1)
      (load_slab arg5 x0 xs1 _ hd 5 5 rfl Facts₀.inb_S8x256x256_S1x256x256_5_0_0) (pay14_apply (updSq x0 xs0) _)
  · exact oslab_piece (updSq x0 xs0) (updDot x0 xs1) 4 4 rfl Facts₀.inb_S1x8x256x256_S1x1x256x256_0_4_0_0 _
      (kernelRun0_C.sl.v135 c arg2 harg2 arg5 harg5 x0 xs1)
      (load_slab arg5 x0 xs1 _ hd 4 4 rfl Facts₀.inb_S8x256x256_S1x256x256_4_0_0) (pay13_apply (updSq x0 xs0) _)
  · exact oslab_piece (updSq x0 xs0) (updDot x0 xs1) 3 3 rfl Facts₀.inb_S1x8x256x256_S1x1x256x256_0_3_0_0 _
      (kernelRun0_C.sl.v127 c arg2 harg2 arg5 harg5 x0 xs1)
      (load_slab arg5 x0 xs1 _ hd 3 3 rfl Facts₀.inb_S8x256x256_S1x256x256_3_0_0) (pay12_apply (updSq x0 xs0) _)
  · exact oslab_piece (updSq x0 xs0) (updDot x0 xs1) 2 2 rfl Facts₀.inb_S1x8x256x256_S1x1x256x256_0_2_0_0 _
      (kernelRun0_C.sl.v119 c arg2 harg2 arg5 harg5 x0 xs1)
      (load_slab arg5 x0 xs1 _ hd 2 2 rfl Facts₀.inb_S8x256x256_S1x256x256_2_0_0) (pay10_apply (updSq x0 xs0) _)
  · exact oslab_piece (updSq x0 xs0) (updDot x0 xs1) 1 1 rfl Facts₀.inb_S1x8x256x256_S1x1x256x256_0_1_0_0 _
      (kernelRun0_C.sl.v111 c arg2 harg2 arg5 harg5 x0 xs1)
      (load_slab arg5 x0 xs1 _ hd 1 1 rfl Facts₀.inb_S8x256x256_S1x256x256_1_0_0) (pay9_apply (updSq x0 xs0) _)
  · exact oslab_piece (updSq x0 xs0) (updDot x0 xs1) 0 0 rfl Facts₀.inb_S1x8x256x256_S1x1x256x256_0_0_0_0 _
      (kernelRun0_C.sl.v103 c arg2 harg2 arg5 harg5 x0 xs1)
      (load_slab arg5 x0 xs1 _ hd 0 0 rfl Facts₀.inb_S8x256x256_S1x256x256_0_0_0) (pay8_apply (updSq x0 xs0) _)

end NbrCorr

end
-- ==== Proof.SpecLaws.lean ====
import proofs.«139142_j85993835201175_1_alg».proof.Proof.Spec
import Mathlib.Algebra.BigOperators.Fin
import Mathlib.Algebra.BigOperators.Ring.Finset
import Mathlib.Logic.Equiv.Fin.Basic
import Mathlib.Data.EReal.Inv
import Mathlib.Analysis.Real.Sqrt
import Mathlib.Tactic.FieldSimp

noncomputable section

namespace NbrCorr

open Idealize.ShloMosaic Idealize.ShloMosaic.ValueIdx

/-- A sum over the 128 channels, accumulated chunk by chunk from 0, is the whole sum. -/
theorem sum_chan {M : Type*} [AddCommMonoid M] (f : Fin 128 → M) :
    ((((0 + ∑ c : Fin 32, f (chan 0 c)) + ∑ c : Fin 32, f (chan 1 c)) + ∑ c : Fin 32, f (chan 2 c))
      + ∑ c : Fin 32, f (chan 3 c)) = ∑ c : Fin 128, f c := by
  -- channel k * 32 + c is the image of the pair (k, c) under the bijection Fin 4 × Fin 32 ≃ Fin 128
  have e : ∑ p : Fin 4 × Fin 32, f (chan p.1 p.2) = ∑ c : Fin 128, f c := by
    refine Fintype.sum_equiv (finProdFinEquiv : Fin 4 × Fin 32 ≃ Fin (4 * 32)) _ _ ?_
    rintro ⟨k, c⟩
    refine congrArg f (Fin.ext ?_)
    simp only [chan, finProdFinEquiv_apply_val]
    omega
  rw [← e, Fintype.sum_prod_type, Fin.sum_univ_four, zero_add]

/-- The coercion of the reals into the extended reals commutes with finite sums. -/
theorem coe_sum_real {ι : Type*} (s : Finset ι) (g : ι → ℝ) :
    ((∑ i ∈ s, g i : ℝ) : EReal) = ∑ i ∈ s, (g i : EReal) := by
  classical
  refine Finset.induction_on s (by simp) ?_
  intro a t ha ih
  rw [Finset.sum_insert ha, Finset.sum_insert ha, EReal.coe_add, ih]

variable (x : SX.Idx → EReal)

/-- On finite inputs with nonzero norms, normalising first and dividing at the end agree. -/
theorem Rat_eq_Kat (hfin : ∀ i, ∃ r : ℝ, x i = (r : EReal)) (hpos : ∀ b h w, 0 < sumsq x b h w)
    (b i : Fin 8) (h w : Fin 256) : Rat x b i h w = Kat x b i h w := by
  -- every entry is a real number r j
  choose r hr using hfin
  -- the channel sum of squares is the real number S b h w = Σ_c r_c², and it is positive
  set S : Fin 8 → Fin 256 → Fin 256 → ℝ :=
    fun b h w => ∑ c : Fin 128, r (ix4 b c h w) * r (ix4 b c h w) with hS
  have hss : ∀ b h w, sumsq x b h w = ((S b h w : ℝ) : EReal) := by
    intro b h w
    rw [hS, sumsq, coe_sum_real]
    refine Finset.sum_congr rfl fun c _ => ?_
    rw [hr, EReal.coe_mul]
  have hSpos : ∀ b h w, 0 < S b h w := by
    intro b h w
    have := hpos b h w
    rw [hss] at this
    exact EReal.coe_pos.mp this
  -- so the norm is the positive real number sqrt S
  have hn : ∀ b h w, nrm x b h w = ((Real.sqrt (S b h w) : ℝ) : EReal) := by
    intro b h w
    rw [nrm, hss, Ideal.sqrt_coe, if_neg (not_lt.mpr (hSpos b h w).le)]
  have hnpos : ∀ b h w, 0 < Real.sqrt (S b h w) := fun b h w => Real.sqrt_pos.mpr (hSpos b h w)
  set np : ℝ := Real.sqrt (S b h w) with hnp
  set nq : ℝ := Real.sqrt (S b (nbH i h) (nbW i w)) with hnq
  have hnp0 : np ≠ 0 := (hnpos b h w).ne'
  have hnq0 : nq ≠ 0 := (hnpos b (nbH i h) (nbW i w)).ne'
  -- both sides are coercions of real numbers
  have hR : Rat x b i h w
      = ((∑ c : Fin 128, (r (ix4 b c h w) * (1 / np))
          * (r (ix4 b c (nbH i h) (nbW i w)) * (1 / nq)) : ℝ) : EReal) := by
    rw [Rat, coe_sum_real]
    refine Finset.sum_congr rfl fun c _ => ?_
    rw [hn, hn, ← hnp, ← hnq, Ideal.div_coe hnp0, Ideal.div_coe hnq0, hr, hr,
      EReal.coe_mul, EReal.coe_mul, EReal.coe_mul]
  have hK : Kat x b i h w
      = (((∑ c : Fin 128, r (ix4 b c h w) * r (ix4 b c (nbH i h) (nbW i w))) * (1 / (np * nq)) : ℝ) : EReal) := by
    have hd : rawdot x b i h w
        = ((∑ c : Fin 128, r (ix4 b c h w) * r (ix4 b c (nbH i h) (nbW i w)) : ℝ) : EReal) := by
      rw [rawdot, coe_sum_real]
      refine Finset.sum_congr rfl fun c _ => ?_
      rw [hr, hr, EReal.coe_mul]
    rw [Kat, hd, hn, hn, ← hnp, ← hnq, ← EReal.coe_mul, Ideal.div_coe (mul_ne_zero hnp0 hnq0), ← EReal.coe_mul]
  -- and in the reals division distributes over the finite sum
  rw [hR, hK, Finset.sum_mul]
  refine congrArg _ (Finset.sum_congr rfl fun c _ => ?_)
  field_simp

theorem R_eq_K (hfin : ∀ i, ∃ r : ℝ, x i = (r : EReal)) (hpos : ∀ b h w, 0 < sumsq x b h w) : R x = K x :=
  funext fun j => Rat_eq_Kat x hfin hpos (j 0) (j 1) (j 2) (j 3)

end NbrCorr

end
-- ==== Proof.KernelTermLaws.lean ====
import proofs.«139142_j85993835201175_1_alg».proof.Proof.KernelTerm
import proofs.«139142_j85993835201175_1_alg».proof.Proof.SpecLaws

noncomputable section

namespace NbrCorr

open Idealize.ShloMosaic Idealize.ShloMosaic.ValueIdx Cert.KernelIdeal

variable (x : Vec Ideal S8x128x256x256 .f32) (b : Fin 8)

/-- After the four chunks the running sum of squares is the whole channel sum of squares. -/
theorem sq3_ix (h w : Fin 256) : sq3 x b (ix2 h w) = sumsq x b h w := by
  -- Each chunk adds its 32 channels' squares to the running value, which starts at 0; chunk k's channel c
  -- is channel chan k c of the input, so the four partial sums are the whole sum over the 128 channels.
  unfold sq3 sq2 sq1 sq0
  simp only [updSq_ix, updSqAt, blkX_ix, zero2]
  exact sum_chan (fun c => x (ix4 b c h w) * x (ix4 b c h w))

/-- After the four chunks the running raw dot product is the whole one. -/
theorem dot3_ix (i : Fin 8) (h w : Fin 256) : dot3 x b (ix3 i h w) = rawdot x b i h w := by
  -- The same accumulation, with the product of the pixel's value and its neighbour's in each channel.
  unfold dot3 dot2 dot1 dot0
  simp only [updDot_ix, updDotAt, blkX_ix, zero3]
  exact sum_chan (fun c => x (ix4 b c h w) * x (ix4 b c (nbH i h) (nbW i w)))

/-- The last chunk's quotient is the specification's. -/
theorem fin_sq3_dot3 (i : Fin 8) (h w : Fin 256) : finAt (sq3 x b) (dot3 x b) i h w = Kat x b i h w := by
  -- Numerator: the finished raw dot product. Denominator: the two pixels' norms, each the square root of the
  -- finished sum of squares at that pixel.
  unfold finAt Kat nrm
  rw [dot3_ix, sq3_ix, sq3_ix]

end NbrCorr

end
-- ==== Proof.KernelRun.lean ====
import proofs.«139142_j85993835201175_1_alg».proof.Proof.Gen.KernelIdeal.Value
import proofs.«139142_j85993835201175_1_alg».proof.Proof.PiecesA
import proofs.«139142_j85993835201175_1_alg».proof.Proof.PiecesB
import proofs.«139142_j85993835201175_1_alg».proof.Proof.PiecesC
import proofs.«139142_j85993835201175_1_alg».proof.Proof.KernelTermLaws
import Idealize.ShloMosaic.Lib.Pipeline.Value

noncomputable section

namespace NbrCorr

open Idealize.ShloMosaic Idealize.ShloMosaic.ValueIdx Idealize.ShloMosaic.TcCoe Idealize.SL.Sem Cert.KernelIdeal Cert.KernelIdeal.Gen Cert.KernelIdeal.Value
open Idealize.ShloMosaic.Pipeline (Dat)

/-! # The kernel's run, read as the specification's K

The grid has 32 points; point `t` works on batch `t / 4` and on chunk `t % 4` of its 128 channels. Over the four
chunks of a batch the kernel carries the running sum of squares and the eight running raw dot products, and at the
batch's last chunk it writes the quotient into the batch's block of the result. Here: the staged input block is the
chunk of the argument (`xblk_eq`); the carried arrays after each of the four chunks are `sq0 … sq3`, `dot0 … dot3`
(`scr0 … scr3`, each step over the one before); what the last chunk writes back is its block of K (`flushed_eq`); the
eight written blocks cover the result (`cover`), so the result array ends at K of the argument (`final`, `kernel_run`). -/

variable (m : (ℓ : Loc nD τ sig) → Buf (Elt Ideal) ℓ)

/-- The argument array as the region finds it, and the block of it that grid point `t` stages. -/
abbrev xarr (c : Dev nD) : Vec Ideal S8x128x256x256 .f32 := V m c main_arg0
abbrev xblk (c : Dev nD) (t : Fin cfg0.N) : Vec Ideal S1x32x256x256 .f32 := iblk m c 0 t

/-- The block indices over the grid: point `t` is batch `t / 4`, chunk `t % 4`; the input block is chunk `t % 4` of
    batch `t / 4`, the output block the whole of batch `t / 4`. -/
theorem idx_facts : ∀ t : Fin cfg0.N,
    win0_0.index t (0 : Fin 4) = t.val / 4 ∧ win0_0.index t (1 : Fin 4) = t.val % 4
    ∧ win0_0.index t (2 : Fin 4) = 0 ∧ win0_0.index t (3 : Fin 4) = 0
    ∧ win0_1.index t (0 : Fin 4) = t.val / 4 ∧ win0_1.index t (1 : Fin 4) = 0
    ∧ win0_1.index t (2 : Fin 4) = 0 ∧ win0_1.index t (3 : Fin 4) = 0 :=
  (by decide +kernel : ∀ t : Fin grid0.N, _)

/-- The input block at point `t` is chunk `t % 4` of batch `t / 4` of the argument: entry (0, c, h, w) of the block sits
    at (t / 4, (t % 4) * 32 + c, h, w) of the array. -/
theorem xblk_eq (c : Dev nD) (t : Fin cfg0.N) (b : Fin 8) (k : Fin 4) (hb : b.val = t.val / 4) (hk : k.val = t.val % 4) :
    xblk m c t = blkX (xarr m c) b k := by
  obtain ⟨e0, e1, e2, e3, -⟩ := idx_facts t
  funext y
  unfold xblk iblk
  rw [View.read_apply]
  show V m c main_arg0 _ = V m c main_arg0 (ix4 b (chan k (y 1)) (y 2) (y 3))
  congr 1
  funext a
  apply Fin.ext
  have h0 : (y 0).val < 1 := (y 0).isLt
  match a with
  | ⟨0, _⟩ => show win0_0.index t (0 : Fin 4) * 1 + 1 * (y 0).val = b.val; omega
  | ⟨1, _⟩ => show win0_0.index t (1 : Fin 4) * 32 + 1 * (y 1).val = k.val * 32 + (y 1).val; omega
  | ⟨2, _⟩ => show win0_0.index t (2 : Fin 4) * 256 + 1 * (y 2).val = (y 2).val; omega
  | ⟨3, _⟩ => show win0_0.index t (3 : Fin 4) * 256 + 1 * (y 3).val = (y 3).val; omega

/-! ## The running arrays after each point

Point `n` is chunk `n % 4` of batch `n / 4`. The first chunk of a batch resets the two running arrays and adds its
contribution; each later chunk adds its contribution to what the point before left; the last one also writes the
quotient of the finished arrays into the output block. So four steps, one per chunk, each over the step before. -/

/-- After a batch's first chunk. -/
theorem scr0 (c : Dev nD) (n : ℕ) (hn : n < cfg0.N) (b : Fin 8) (hb : b.val = n / 4) (h : n % 4 = 0) :
    (outsAt0 m c n hn).2.1 = sq0 (xarr m c) b ∧ (outsAt0 m c n hn).2.2 = dot0 (xarr m c) b := by
  have h1 : ¬n % 4 = 3 := by omega
  have hx : xblk m c ⟨n, hn⟩ = blkX (xarr m c) b 0 := xblk_eq m c ⟨n, hn⟩ b 0 hb (by show 0 = n % 4; omega)
  rw [outsAt0_A m c ⟨n, hn⟩ h h1]
  dsimp only
  constructor
  · refine (sout0_A_0_eq c (grid0.coords ⟨n, hn⟩) (ms0_0 ⟨n, hn⟩) (hs0_0 ⟨n, hn⟩) (ms0_1 ⟨n, hn⟩) (hs0_1 ⟨n, hn⟩) scM0_0 (Memref.isWhole_whole _) scM0_1 (Memref.isWhole_whole _) ((hcond0_0 ⟨n, hn⟩).mpr h) (fun h' => h1 ((hcond0_1 ⟨n, hn⟩).mp h')) (xblk m c ⟨n, hn⟩)).trans ?_
    rw [hx]; rfl
  · refine (sout0_A_1_eq c (grid0.coords ⟨n, hn⟩) (ms0_0 ⟨n, hn⟩) (hs0_0 ⟨n, hn⟩) (ms0_1 ⟨n, hn⟩) (hs0_1 ⟨n, hn⟩) scM0_0 (Memref.isWhole_whole _) scM0_1 (Memref.isWhole_whole _) ((hcond0_0 ⟨n, hn⟩).mpr h) (fun h' => h1 ((hcond0_1 ⟨n, hn⟩).mp h')) (xblk m c ⟨n, hn⟩)).trans ?_
    rw [hx]; rfl

/-- After a batch's second chunk, over its first. -/
theorem scr1 (c : Dev nD) (n : ℕ) (hn : n < cfg0.N) (b : Fin 8) (hb : b.val = n / 4) (h : n % 4 = 1) :
    (outsAt0 m c n hn).2.1 = sq1 (xarr m c) b ∧ (outsAt0 m c n hn).2.2 = dot1 (xarr m c) b := by
  have h0 : ¬n % 4 = 0 := by omega
  have h1 : ¬n % 4 = 3 := by omega
  have hx : xblk m c ⟨n, hn⟩ = blkX (xarr m c) b 1 := xblk_eq m c ⟨n, hn⟩ b 1 hb (by show 1 = n % 4; omega)
  obtain ⟨p0, p1⟩ := scr0 m c (n - 1) (Nat.lt_of_le_of_lt (Nat.sub_le _ _) hn) b (by omega) (by omega)
  rw [outsAt0_B m c ⟨n, hn⟩ h0 h1]
  dsimp only
  constructor
  · refine (sout0_B_0_eq c (grid0.coords ⟨n, hn⟩) (ms0_0 ⟨n, hn⟩) (hs0_0 ⟨n, hn⟩) (ms0_1 ⟨n, hn⟩) (hs0_1 ⟨n, hn⟩) scM0_0 (Memref.isWhole_whole _) scM0_1 (Memref.isWhole_whole _) (fun h' => h0 ((hcond0_0 ⟨n, hn⟩).mp h')) (fun h' => h1 ((hcond0_1 ⟨n, hn⟩).mp h')) (xblk m c ⟨n, hn⟩) (outsAt0 m c (n - 1) (Nat.lt_of_le_of_lt (Nat.sub_le _ _) hn)).2.1 (outsAt0 m c (n - 1) (Nat.lt_of_le_of_lt (Nat.sub_le _ _) hn)).2.2).trans ?_
    rw [hx, p0]; rfl
  · refine (sout0_B_1_eq c (grid0.coords ⟨n, hn⟩) (ms0_0 ⟨n, hn⟩) (hs0_0 ⟨n, hn⟩) (ms0_1 ⟨n, hn⟩) (hs0_1 ⟨n, hn⟩) scM0_0 (Memref.isWhole_whole _) scM0_1 (Memref.isWhole_whole _) (fun h' => h0 ((hcond0_0 ⟨n, hn⟩).mp h')) (fun h' => h1 ((hcond0_1 ⟨n, hn⟩).mp h')) (xblk m c ⟨n, hn⟩) (outsAt0 m c (n - 1) (Nat.lt_of_le_of_lt (Nat.sub_le _ _) hn)).2.1 (outsAt0 m c (n - 1) (Nat.lt_of_le_of_lt (Nat.sub_le _ _) hn)).2.2).trans ?_
    rw [hx, p1]; rfl

/-- After a batch's third chunk, over its second. -/
theorem scr2 (c : Dev nD) (n : ℕ) (hn : n < cfg0.N) (b : Fin 8) (hb : b.val = n / 4) (h : n % 4 = 2) :
    (outsAt0 m c n hn).2.1 = sq2 (xarr m c) b ∧ (outsAt0 m c n hn).2.2 = dot2 (xarr m c) b := by
  have h0 : ¬n % 4 = 0 := by omega
  have h1 : ¬n % 4 = 3 := by omega
  have hx : xblk m c ⟨n, hn⟩ = blkX (xarr m c) b 2 := xblk_eq m c ⟨n, hn⟩ b 2 hb (by show 2 = n % 4; omega)
  obtain ⟨p0, p1⟩ := scr1 m c (n - 1) (Nat.lt_of_le_of_lt (Nat.sub_le _ _) hn) b (by omega) (by omega)
  rw [outsAt0_B m c ⟨n, hn⟩ h0 h1]
  dsimp only
  constructor
  · refine (sout0_B_0_eq c (grid0.coords ⟨n, hn⟩) (ms0_0 ⟨n, hn⟩) (hs0_0 ⟨n, hn⟩) (ms0_1 ⟨n, hn⟩) (hs0_1 ⟨n, hn⟩) scM0_0 (Memref.isWhole_whole _) scM0_1 (Memref.isWhole_whole _) (fun h' => h0 ((hcond0_0 ⟨n, hn⟩).mp h')) (fun h' => h1 ((hcond0_1 ⟨n, hn⟩).mp h')) (xblk m c ⟨n, hn⟩) (outsAt0 m c (n - 1) (Nat.lt_of_le_of_lt (Nat.sub_le _ _) hn)).2.1 (outsAt0 m c (n - 1) (Nat.lt_of_le_of_lt (Nat.sub_le _ _) hn)).2.2).trans ?_
    rw [hx, p0]; rfl
  · refine (sout0_B_1_eq c (grid0.coords ⟨n, hn⟩) (ms0_0 ⟨n, hn⟩) (hs0_0 ⟨n, hn⟩) (ms0_1 ⟨n, hn⟩) (hs0_1 ⟨n, hn⟩) scM0_0 (Memref.isWhole_whole _) scM0_1 (Memref.isWhole_whole _) (fun h' => h0 ((hcond0_0 ⟨n, hn⟩).mp h')) (fun h' => h1 ((hcond0_1 ⟨n, hn⟩).mp h')) (xblk m c ⟨n, hn⟩) (outsAt0 m c (n - 1) (Nat.lt_of_le_of_lt (Nat.sub_le _ _) hn)).2.1 (outsAt0 m c (n - 1) (Nat.lt_of_le_of_lt (Nat.sub_le _ _) hn)).2.2).trans ?_
    rw [hx, p1]; rfl

/-- After a batch's last chunk, over its third: the finished arrays, and the output block their quotient. -/
theorem scr3 (c : Dev nD) (n : ℕ) (hn : n < cfg0.N) (b : Fin 8) (hb : b.val = n / 4) (h : n % 4 = 3) :
    (outsAt0 m c n hn).1 = fin (sq3 (xarr m c) b) (dot3 (xarr m c) b) := by
  have h0 : ¬n % 4 = 0 := by omega
  have hx : xblk m c ⟨n, hn⟩ = blkX (xarr m c) b 3 := xblk_eq m c ⟨n, hn⟩ b 3 hb (by show 3 = n % 4; omega)
  obtain ⟨p0, p1⟩ := scr2 m c (n - 1) (Nat.lt_of_le_of_lt (Nat.sub_le _ _) hn) b (by omega) (by omega)
  rw [outsAt0_C m c ⟨n, hn⟩ h0 h]
  dsimp only
  refine (out0_C_1_eq c (grid0.coords ⟨n, hn⟩) (ms0_0 ⟨n, hn⟩) (hs0_0 ⟨n, hn⟩) (ms0_1 ⟨n, hn⟩) (hs0_1 ⟨n, hn⟩) scM0_0 (Memref.isWhole_whole _) scM0_1 (Memref.isWhole_whole _) (fun h' => h0 ((hcond0_0 ⟨n, hn⟩).mp h')) ((hcond0_1 ⟨n, hn⟩).mpr h) (xblk m c ⟨n, hn⟩) (outsAt0 m c (n - 1) (Nat.lt_of_le_of_lt (Nat.sub_le _ _) hn)).2.1 (outsAt0 m c (n - 1) (Nat.lt_of_le_of_lt (Nat.sub_le _ _) hn)).2.2).trans ?_
  rw [hx, p0, p1]; rfl

/-! ## From the output blocks to the result array -/

/-- The last chunk's output block, entry by entry, is the specification's K on batch `b`: an entry (0, i, h, w) of the
    block sits at (b, i, h, w) of the result array. -/
theorem fin_eq_K (x : Vec Ideal S8x128x256x256 .f32) (b : Fin 8) (y : S1x8x256x256.Idx) (i : S8x8x256x256.Idx)
    (h0 : (i 0).val = b.val) (h1 : (i 1).val = (y 1).val) (h2 : (i 2).val = (y 2).val) (h3 : (i 3).val = (y 3).val) :
    fin (sq3 x b) (dot3 x b) y = K x i := by
  obtain ⟨y0, n, h, w, rfl⟩ : ∃ (y0 : Fin 1) (n : Fin 8) (h w : Fin 256), y = ix4 y0 n h w :=
    ⟨y 0, y 1, y 2, y 3, eq_ix4 y⟩
  obtain ⟨b', n', h', w', rfl⟩ : ∃ (b' n' : Fin 8) (h' w' : Fin 256), i = ix4 b' n' h' w' :=
    ⟨i 0, i 1, i 2, i 3, eq_ix4 i⟩
  obtain rfl : b' = b := Fin.ext h0
  obtain rfl : n' = n := Fin.ext h1
  obtain rfl : h' = h := Fin.ext h2
  obtain rfl : w' = w := Fin.ext h3
  rw [K_ix]
  exact fin_sq3_dot3 x b' n' h' w'

/-- What a point that writes back (the last chunk of a batch) writes is its block of K of the argument. -/
theorem flushed_eq (c : Dev nD) (t : Fin cfg0.N) (hf : (cfg0.win 1).flush t = true) :
    (dats m 0 c).flushed 1 t = ((cfg0.win 1).blk t).view.read (Elt Ideal) (K (xarr m c)) := by
  have h3 : t.val % 4 = 3 := (flush0_1 t).mp hf
  have hN : t.val < 32 := lt_of_lt_of_eq t.isLt (show cfg0.N = 32 from N_0)
  obtain ⟨-, -, -, -, e0, e1, e2, e3⟩ := idx_facts t
  rw [flushed1 m c t, scr3 m c t.val t.isLt ⟨t.val / 4, by omega⟩ rfl h3]
  funext j
  have hj0 : (j 0).val < 1 := (j 0).isLt
  refine fin_eq_K (xarr m c) ⟨t.val / 4, by omega⟩ ((cfg0.win 1).xinj (grid0.coords t) j) (((cfg0.win 1).blk t).view.emb j) ?_ ?_ ?_ ?_
  · show win0_1.index t (0 : Fin 4) * 1 + 1 * (j 0).val = t.val / 4; omega
  · show win0_1.index t (1 : Fin 4) * 8 + 1 * (j 1).val = (j 1).val; omega
  · show win0_1.index t (2 : Fin 4) * 256 + 1 * (j 2).val = (j 2).val; omega
  · show win0_1.index t (3 : Fin 4) * 256 + 1 * (j 3).val = (j 3).val; omega

/-- An index of the result array is in point `t`'s output block iff each coordinate is in the block's range on its axis. -/
theorem mem_blk (t : Fin cfg0.N) (i : S8x8x256x256.Idx) :
    i ∈ ((cfg0.win 1).blk t).view.set ↔ ∀ a : Fin 4, win0_1.index t a * S1x8x256x256.size a ≤ (i a).val ∧ (i a).val < win0_1.index t a * S1x8x256x256.size a + S1x8x256x256.size a := by
  show i ∈ ((View.whole main_v0).slice (win0_1.rect t)).set ↔ _
  rw [View.set_slice_whole, Rect.mem_set_unit]
  exact Iff.rfl

/-- Every index (b, i, h, w) of the result array is in the block written back at batch `b`'s last chunk, point 4b + 3. -/
theorem cover (i : S8x8x256x256.Idx) :
    ∃ t : Fin cfg0.N, (cfg0.win 1).flush t = true ∧ i ∈ ((cfg0.win 1).blk t).view.set := by
  have hi0 : (i 0).val < 8 := (i 0).isLt
  have hi1 : (i 1).val < 8 := (i 1).isLt
  have hi2 : (i 2).val < 256 := (i 2).isLt
  have hi3 : (i 3).val < 256 := (i 3).isLt
  obtain ⟨t, ht⟩ : ∃ t : Fin cfg0.N, t.val = 4 * (i 0).val + 3 :=
    ⟨⟨4 * (i 0).val + 3, by rw [show cfg0.N = 32 from N_0]; omega⟩, rfl⟩
  obtain ⟨-, -, -, -, e0, e1, e2, e3⟩ := idx_facts t
  refine ⟨t, (flush0_1 t).mpr (by omega), ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 8 ≤ (i 1).val ∧ (i 1).val < win0_1.index t (1 : Fin 4) * 8 + 8; omega
  | ⟨2, _⟩ => show win0_1.index t (2 : Fin 4) * 256 ≤ (i 2).val ∧ (i 2).val < win0_1.index t (2 : Fin 4) * 256 + 256; omega
  | ⟨3, _⟩ => show win0_1.index t (3 : Fin 4) * 256 ≤ (i 3).val ∧ (i 3).val < win0_1.index t (3 : Fin 4) * 256 + 256; omega

/-- So the result array ends holding K of the argument. -/
theorem final (c : Dev nD) : (dats m 0 c).arrAt 1 cfg0.N = K (xarr m c) :=
  (dats m 0 c).arrAt_eq_of_cover 1 (K (xarr m c)) (fun t hf => flushed_eq m c t hf) cover

/-- The idealized kernel's run: the result array ends at the specification's K of the argument, the argument unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = K (m ((c.tc : Thread nD τ).loc main_arg0))
      ∧ r.2.mem ((c.tc : Thread nD τ).loc main_arg0) = m ((c.tc : Thread nD τ).loc main_arg0) :=
  (θ_run defs _ _).mono (fun r h c => ⟨(h c).1.trans (final m c), (h c).2⟩) (run_blocks m ρ)

end NbrCorr

end
-- ==== Proof.RefTerm.lean ====
/-
  The reference's @main as one pure function of its argument: the channel norm (multiply, sum over the channel
  axis, square root), the division by it, the width-one reflect padding of the last two axes (on each axis: the
  row next to the edge, reversed along that unit axis, joined in front; the row next to the other edge joined
  behind), and for each of the eight neighbours the slice of the padded array, the product with the normalised
  array and the sum over channels; the eight results joined along axis 1.
-/
import proofs.«139142_j85993835201175_1_alg».proof.ReferenceIdeal

noncomputable section

namespace NbrCorr.Ref

open Idealize.ShloMosaic Cert.ReferenceIdeal
open Cert.ReferenceIdeal.Facts₀

variable {F : FTy → Type} [FloatOps F] [Cert.ReferenceIdeal.Facts]

/-- The channel-wise norm, keepdims. -/
def normT (x : FVec F S8x128x256x256 .f32) : FVec F S8x1x256x256 .f32 :=
  Host.sqrt (broadcastInDim S8x1x256x256 ![0, 2, 3] bcast_S8x256x256_S8x1x256x256_0_2_3
    (Host.reduceAdd (mulf x x) (constant S_ .f32 0x00000000#32) reducesTo_S8x128x256x256_S8x256x256_d1 h_S_))

/-- The input divided by its channel-wise norm. -/
def normedT (x : FVec F S8x128x256x256 .f32) : FVec F S8x128x256x256 .f32 :=
  Host.divf x (broadcastInDim S8x128x256x256 ![0, 1, 2, 3] bcast_S8x1x256x256_S8x128x256x256_0_1_2_3 (normT x))

/-- Width-one reflect padding of axes 2 and 3. -/
def padT (y : FVec F S8x128x256x256 .f32) : FVec F S8x128x258x258 .f32 :=
  let v3 : FVec F S8x128x257x256 .f32 := concatenate S8x128x257x256 2
    [⟨S8x128x1x256, Host.reverse [2] (extractStridedSlice S8x128x1x256 ![0, 0, 1, 0] y slices_S8x128x256x256_S8x128x1x256_0_0_1_0)⟩,
     ⟨S8x128x256x256, y⟩] concatenates_S8x128x1x256_S8x128x256x256_S8x128x257x256_d2
  let v7 : FVec F S8x128x258x256 .f32 := concatenate S8x128x258x256 2
    [⟨S8x128x257x256, v3⟩,
     ⟨S8x128x1x256, Host.reverse [2] (extractStridedSlice S8x128x1x256 ![0, 0, 255, 0] v3 slices_S8x128x257x256_S8x128x1x256_0_0_255_0)⟩]
    concatenates_S8x128x257x256_S8x128x1x256_S8x128x258x256_d2
  let v11 : FVec F S8x128x258x257 .f32 := concatenate S8x128x258x257 3
    [⟨S8x128x258x1, Host.reverse [3] (extractStridedSlice S8x128x258x1 ![0, 0, 0, 1] v7 slices_S8x128x258x256_S8x128x258x1_0_0_0_1)⟩,
     ⟨S8x128x258x256, v7⟩] concatenates_S8x128x258x1_S8x128x258x256_S8x128x258x257_d3
  concatenate S8x128x258x258 3
    [⟨S8x128x258x257, v11⟩,
     ⟨S8x128x258x1, Host.reverse [3] (extractStridedSlice S8x128x258x1 ![0, 0, 0, 255] v11 slices_S8x128x258x257_S8x128x258x1_0_0_0_255)⟩]
    concatenates_S8x128x258x257_S8x128x258x1_S8x128x258x258_d3

/-- One neighbour's correlation: the slice of the padded array at `off`, times the normalised array, summed over channels. -/
def corrT (y : FVec F S8x128x256x256 .f32) (p : FVec F S8x128x258x258 .f32) (off : Fin 4 → Nat)
    (hs : S8x128x258x258.Slices off S8x128x256x256) : FVec F S8x1x256x256 .f32 :=
  broadcastInDim S8x1x256x256 ![0, 2, 3] bcast_S8x256x256_S8x1x256x256_0_2_3
    (Host.reduceAdd (mulf y (extractStridedSlice S8x128x256x256 off p hs)) (constant S_ .f32 0x00000000#32)
      reducesTo_S8x128x256x256_S8x256x256_d1 h_S_)

/-- The reference's result as one function of its argument. -/
def refTerm (x : FVec F S8x128x256x256 .f32) : FVec F S8x8x256x256 .f32 :=
  concatenate S8x8x256x256 1
    [⟨S8x1x256x256, corrT (normedT x) (padT (normedT x)) ![0, 0, 0, 1] slices_S8x128x258x258_S8x128x256x256_0_0_0_1⟩,
     ⟨S8x1x256x256, corrT (normedT x) (padT (normedT x)) ![0, 0, 0, 0] slices_S8x128x258x258_S8x128x256x256_0_0_0_0⟩,
     ⟨S8x1x256x256, corrT (normedT x) (padT (normedT x)) ![0, 0, 1, 0] slices_S8x128x258x258_S8x128x256x256_0_0_1_0⟩,
     ⟨S8x1x256x256, corrT (normedT x) (padT (normedT x)) ![0, 0, 2, 0] slices_S8x128x258x258_S8x128x256x256_0_0_2_0⟩,
     ⟨S8x1x256x256, corrT (normedT x) (padT (normedT x)) ![0, 0, 2, 1] slices_S8x128x258x258_S8x128x256x256_0_0_2_1⟩,
     ⟨S8x1x256x256, corrT (normedT x) (padT (normedT x)) ![0, 0, 2, 2] slices_S8x128x258x258_S8x128x256x256_0_0_2_2⟩,
     ⟨S8x1x256x256, corrT (normedT x) (padT (normedT x)) ![0, 0, 1, 2] slices_S8x128x258x258_S8x128x256x256_0_0_1_2⟩,
     ⟨S8x1x256x256, corrT (normedT x) (padT (normedT x)) ![0, 0, 0, 2] slices_S8x128x258x258_S8x128x256x256_0_0_0_2⟩]
    concatenates_S8x1x256x256_S8x1x256x256_S8x1x256x256_S8x1x256x256_S8x1x256x256_S8x1x256x256_S8x1x256x256_S8x1x256x256_S8x8x256x256_d1

end NbrCorr.Ref

end
-- ==== Proof.RefRun.lean ====
import proofs.«139142_j85993835201175_1_alg».proof.Proof.Gen.ReferenceIdeal
import proofs.«139142_j85993835201175_1_alg».proof.Proof.RefTerm
import Idealize.ShloMosaic.Lib.StableHlo.Run
import Idealize.ShloMosaic.Lib.ValueIdx

noncomputable section

namespace NbrCorr.Ref

open Idealize.ShloMosaic Idealize.ShloMosaic.ValueIdx Idealize.ShloMosaic.TcCoe Idealize.SL.Sem Idealize.ShloMosaic.StableHlo Cert.ReferenceIdeal Cert.ReferenceIdeal.Gen

variable {F : FTy → Type} [FloatOps F]

/-! ## The reference's operations in order

The reference's @main calls three outlined functions (the channel norm, the reflect padding, and inside the
padding the reversal of a unit-width edge). Each call runs the callee's operations on the call's own buffers, so
@main is one straight line of sixty-five operations; what the result buffer holds after the line is the
composition of their functions, which is `refTerm` of the argument. -/

/-- @main's sixty-five operations in order, the calls unfolded: the channel norm's five (the square, the zero,
    the sum over the channel axis, its keepdims broadcast, the square root), the broadcast of the norm and the
    division by it, the integer zero the padding is handed (and never reads), the padding's sixteen (on each of
    the two axes: the two edge slices, the reverse of the inner one along that unit axis, the join in front; the
    same behind), then for each of the eight neighbours the slice of the padded array, the product with the
    normalised array, the zero, the sum over channels and its keepdims broadcast, and the join along axis 1. -/
abbrev ops : List (HloOp τ sig (Elt F)) :=
  [ TRef.binary (.of main_arg0 : TRef sig ⟨S8x128x256x256, .f32⟩) (.of main_arg0 : TRef sig ⟨S8x128x256x256, .f32⟩) main_call0.v0 mulf,
    TRef.nullary main_call0.cst (constant S_ .f32 0x00000000#32),
    TRef.binary main_call0.v0 main_call0.cst main_call0.v1 (fun x v => Host.reduceAdd x v reducesTo_S8x128x256x256_S8x256x256_d1 h_S_),
    TRef.unary main_call0.v1 main_call0.v2 (broadcastInDim S8x1x256x256 ![0, 2, 3] bcast_S8x256x256_S8x1x256x256_0_2_3),
    TRef.unary main_call0.v2 main_call0.v3 Host.sqrt,
    unary main_v0 main_v1 (broadcastInDim S8x128x256x256 ![0, 1, 2, 3] bcast_S8x1x256x256_S8x128x256x256_0_1_2_3 : (⟨S8x1x256x256, .f32⟩ : BufTy).Contents (Elt F) → (⟨S8x128x256x256, .f32⟩ : BufTy).Contents (Elt F)),
    binary main_arg0 main_v1 main_v2 (Host.divf : (⟨S8x128x256x256, .f32⟩ : BufTy).Contents (Elt F) → (⟨S8x128x256x256, .f32⟩ : BufTy).Contents (Elt F) → (⟨S8x128x256x256, .f32⟩ : BufTy).Contents (Elt F)),
    nullary main_c (constantI S_ 32 0#32),
    TRef.unary (.of main_v2 : TRef sig ⟨S8x128x256x256, .f32⟩) main_call1.v0 (extractStridedSlice S8x128x1x256 ![0, 0, 0, 0] · slices_S8x128x256x256_S8x128x1x256_0_0_0_0),
    TRef.unary (.of main_v2 : TRef sig ⟨S8x128x256x256, .f32⟩) main_call1.v1 (extractStridedSlice S8x128x1x256 ![0, 0, 1, 0] · slices_S8x128x256x256_S8x128x1x256_0_0_1_0),
    TRef.unary main_call1.v1 main_call1.call0.v0 (Host.reverse [2]),
    TRef.binary main_call1.call0.v0 (.of main_v2 : TRef sig ⟨S8x128x256x256, .f32⟩) main_call1.v3 (fun a b => concatenate S8x128x257x256 2 [⟨S8x128x1x256, a⟩, ⟨S8x128x256x256, b⟩] concatenates_S8x128x1x256_S8x128x256x256_S8x128x257x256_d2),
    TRef.unary main_call1.v3 main_call1.v4 (extractStridedSlice S8x128x1x256 ![0, 0, 256, 0] · slices_S8x128x257x256_S8x128x1x256_0_0_256_0),
    TRef.unary main_call1.v3 main_call1.v5 (extractStridedSlice S8x128x1x256 ![0, 0, 255, 0] · slices_S8x128x257x256_S8x128x1x256_0_0_255_0),
    TRef.unary main_call1.v5 main_call1.call1.v0 (Host.reverse [2]),
    TRef.binary main_call1.v3 main_call1.call1.v0 main_call1.v7 (fun a b => concatenate S8x128x258x256 2 [⟨S8x128x257x256, a⟩, ⟨S8x128x1x256, b⟩] concatenates_S8x128x257x256_S8x128x1x256_S8x128x258x256_d2),
    TRef.unary main_call1.v7 main_call1.v8 (extractStridedSlice S8x128x258x1 ![0, 0, 0, 0] · slices_S8x128x258x256_S8x128x258x1_0_0_0_0),
    TRef.unary main_call1.v7 main_call1.v9 (extractStridedSlice S8x128x258x1 ![0, 0, 0, 1] · slices_S8x128x258x256_S8x128x258x1_0_0_0_1),
    TRef.unary main_call1.v9 main_call1.call2.v0 (Host.reverse [3]),
    TRef.binary main_call1.call2.v0 main_call1.v7 main_call1.v11 (fun a b => concatenate S8x128x258x257 3 [⟨S8x128x258x1, a⟩, ⟨S8x128x258x256, b⟩] concatenates_S8x128x258x1_S8x128x258x256_S8x128x258x257_d3),
    TRef.unary main_call1.v11 main_call1.v12 (extractStridedSlice S8x128x258x1 ![0, 0, 0, 256] · slices_S8x128x258x257_S8x128x258x1_0_0_0_256),
    TRef.unary main_call1.v11 main_call1.v13 (extractStridedSlice S8x128x258x1 ![0, 0, 0, 255] · slices_S8x128x258x257_S8x128x258x1_0_0_0_255),
    TRef.unary main_call1.v13 main_call1.call3.v0 (Host.reverse [3]),
    TRef.binary main_call1.v11 main_call1.call3.v0 main_call1.v15 (fun a b => concatenate S8x128x258x258 3 [⟨S8x128x258x257, a⟩, ⟨S8x128x258x1, b⟩] concatenates_S8x128x258x257_S8x128x258x1_S8x128x258x258_d3),
    unary main_v3 main_v4 ((extractStridedSlice S8x128x256x256 ![0, 0, 0, 1] · slices_S8x128x258x258_S8x128x256x256_0_0_0_1) : (⟨S8x128x258x258, .f32⟩ : BufTy).Contents (Elt F) → (⟨S8x128x256x256, .f32⟩ : BufTy).Contents (Elt F)),
    binary main_v2 main_v4 main_v5 (mulf : (⟨S8x128x256x256, .f32⟩ : BufTy).Contents (Elt F) → (⟨S8x128x256x256, .f32⟩ : BufTy).Contents (Elt F) → (⟨S8x128x256x256, .f32⟩ : BufTy).Contents (Elt F)),
    nullary main_cst (constant S_ .f32 0x00000000#32),
    binary main_v5 main_cst main_v6 ((fun x v => Host.reduceAdd x v reducesTo_S8x128x256x256_S8x256x256_d1 h_S_) : (⟨S8x128x256x256, .f32⟩ : BufTy).Contents (Elt F) → (⟨S_, .f32⟩ : BufTy).Contents (Elt F) → (⟨S8x256x256, .f32⟩ : BufTy).Contents (Elt F)),
    unary main_v6 main_v7 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v3 main_v8 ((extractStridedSlice S8x128x256x256 ![0, 0, 0, 0] · slices_S8x128x258x258_S8x128x256x256_0_0_0_0) : (⟨S8x128x258x258, .f32⟩ : BufTy).Contents (Elt F) → (⟨S8x128x256x256, .f32⟩ : BufTy).Contents (Elt F)),
    binary main_v2 main_v8 main_v9 (mulf : (⟨S8x128x256x256, .f32⟩ : BufTy).Contents (Elt F) → (⟨S8x128x256x256, .f32⟩ : BufTy).Contents (Elt F) → (⟨S8x128x256x256, .f32⟩ : BufTy).Contents (Elt F)),
    nullary main_cst_0 (constant S_ .f32 0x00000000#32),
    binary main_v9 main_cst_0 main_v10 ((fun x v => Host.reduceAdd x v reducesTo_S8x128x256x256_S8x256x256_d1 h_S_) : (⟨S8x128x256x256, .f32⟩ : BufTy).Contents (Elt F) → (⟨S_, .f32⟩ : BufTy).Contents (Elt F) → (⟨S8x256x256, .f32⟩ : BufTy).Contents (Elt F)),
    unary main_v10 main_v11 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v3 main_v12 ((extractStridedSlice S8x128x256x256 ![0, 0, 1, 0] · slices_S8x128x258x258_S8x128x256x256_0_0_1_0) : (⟨S8x128x258x258, .f32⟩ : BufTy).Contents (Elt F) → (⟨S8x128x256x256, .f32⟩ : BufTy).Contents (Elt F)),
    binary main_v2 main_v12 main_v13 (mulf : (⟨S8x128x256x256, .f32⟩ : BufTy).Contents (Elt F) → (⟨S8x128x256x256, .f32⟩ : BufTy).Contents (Elt F) → (⟨S8x128x256x256, .f32⟩ : BufTy).Contents (Elt F)),
    nullary main_cst_1 (constant S_ .f32 0x00000000#32),
    binary main_v13 main_cst_1 main_v14 ((fun x v => Host.reduceAdd x v reducesTo_S8x128x256x256_S8x256x256_d1 h_S_) : (⟨S8x128x256x256, .f32⟩ : BufTy).Contents (Elt F) → (⟨S_, .f32⟩ : BufTy).Contents (Elt F) → (⟨S8x256x256, .f32⟩ : BufTy).Contents (Elt F)),
    unary main_v14 main_v15 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v3 main_v16 ((extractStridedSlice S8x128x256x256 ![0, 0, 2, 0] · slices_S8x128x258x258_S8x128x256x256_0_0_2_0) : (⟨S8x128x258x258, .f32⟩ : BufTy).Contents (Elt F) → (⟨S8x128x256x256, .f32⟩ : BufTy).Contents (Elt F)),
    binary main_v2 main_v16 main_v17 (mulf : (⟨S8x128x256x256, .f32⟩ : BufTy).Contents (Elt F) → (⟨S8x128x256x256, .f32⟩ : BufTy).Contents (Elt F) → (⟨S8x128x256x256, .f32⟩ : BufTy).Contents (Elt F)),
    nullary main_cst_2 (constant S_ .f32 0x00000000#32),
    binary main_v17 main_cst_2 main_v18 ((fun x v => Host.reduceAdd x v reducesTo_S8x128x256x256_S8x256x256_d1 h_S_) : (⟨S8x128x256x256, .f32⟩ : BufTy).Contents (Elt F) → (⟨S_, .f32⟩ : BufTy).Contents (Elt F) → (⟨S8x256x256, .f32⟩ : BufTy).Contents (Elt F)),
    unary main_v18 main_v19 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v3 main_v20 ((extractStridedSlice S8x128x256x256 ![0, 0, 2, 1] · slices_S8x128x258x258_S8x128x256x256_0_0_2_1) : (⟨S8x128x258x258, .f32⟩ : BufTy).Contents (Elt F) → (⟨S8x128x256x256, .f32⟩ : BufTy).Contents (Elt F)),
    binary main_v2 main_v20 main_v21 (mulf : (⟨S8x128x256x256, .f32⟩ : BufTy).Contents (Elt F) → (⟨S8x128x256x256, .f32⟩ : BufTy).Contents (Elt F) → (⟨S8x128x256x256, .f32⟩ : BufTy).Contents (Elt F)),
    nullary main_cst_3 (constant S_ .f32 0x00000000#32),
    binary main_v21 main_cst_3 main_v22 ((fun x v => Host.reduceAdd x v reducesTo_S8x128x256x256_S8x256x256_d1 h_S_) : (⟨S8x128x256x256, .f32⟩ : BufTy).Contents (Elt F) → (⟨S_, .f32⟩ : BufTy).Contents (Elt F) → (⟨S8x256x256, .f32⟩ : BufTy).Contents (Elt F)),
    unary main_v22 main_v23 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v3 main_v24 ((extractStridedSlice S8x128x256x256 ![0, 0, 2, 2] · slices_S8x128x258x258_S8x128x256x256_0_0_2_2) : (⟨S8x128x258x258, .f32⟩ : BufTy).Contents (Elt F) → (⟨S8x128x256x256, .f32⟩ : BufTy).Contents (Elt F)),
    binary main_v2 main_v24 main_v25 (mulf : (⟨S8x128x256x256, .f32⟩ : BufTy).Contents (Elt F) → (⟨S8x128x256x256, .f32⟩ : BufTy).Contents (Elt F) → (⟨S8x128x256x256, .f32⟩ : BufTy).Contents (Elt F)),
    nullary main_cst_4 (constant S_ .f32 0x00000000#32),
    binary main_v25 main_cst_4 main_v26 ((fun x v => Host.reduceAdd x v reducesTo_S8x128x256x256_S8x256x256_d1 h_S_) : (⟨S8x128x256x256, .f32⟩ : BufTy).Contents (Elt F) → (⟨S_, .f32⟩ : BufTy).Contents (Elt F) → (⟨S8x256x256, .f32⟩ : BufTy).Contents (Elt F)),
    unary main_v26 main_v27 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v3 main_v28 ((extractStridedSlice S8x128x256x256 ![0, 0, 1, 2] · slices_S8x128x258x258_S8x128x256x256_0_0_1_2) : (⟨S8x128x258x258, .f32⟩ : BufTy).Contents (Elt F) → (⟨S8x128x256x256, .f32⟩ : BufTy).Contents (Elt F)),
    binary main_v2 main_v28 main_v29 (mulf : (⟨S8x128x256x256, .f32⟩ : BufTy).Contents (Elt F) → (⟨S8x128x256x256, .f32⟩ : BufTy).Contents (Elt F) → (⟨S8x128x256x256, .f32⟩ : BufTy).Contents (Elt F)),
    nullary main_cst_5 (constant S_ .f32 0x00000000#32),
    binary main_v29 main_cst_5 main_v30 ((fun x v => Host.reduceAdd x v reducesTo_S8x128x256x256_S8x256x256_d1 h_S_) : (⟨S8x128x256x256, .f32⟩ : BufTy).Contents (Elt F) → (⟨S_, .f32⟩ : BufTy).Contents (Elt F) → (⟨S8x256x256, .f32⟩ : BufTy).Contents (Elt F)),
    unary main_v30 main_v31 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v3 main_v32 ((extractStridedSlice S8x128x256x256 ![0, 0, 0, 2] · slices_S8x128x258x258_S8x128x256x256_0_0_0_2) : (⟨S8x128x258x258, .f32⟩ : BufTy).Contents (Elt F) → (⟨S8x128x256x256, .f32⟩ : BufTy).Contents (Elt F)),
    binary main_v2 main_v32 main_v33 (mulf : (⟨S8x128x256x256, .f32⟩ : BufTy).Contents (Elt F) → (⟨S8x128x256x256, .f32⟩ : BufTy).Contents (Elt F) → (⟨S8x128x256x256, .f32⟩ : BufTy).Contents (Elt F)),
    nullary main_cst_6 (constant S_ .f32 0x00000000#32),
    binary main_v33 main_cst_6 main_v34 ((fun x v => Host.reduceAdd x v reducesTo_S8x128x256x256_S8x256x256_d1 h_S_) : (⟨S8x128x256x256, .f32⟩ : BufTy).Contents (Elt F) → (⟨S_, .f32⟩ : BufTy).Contents (Elt F) → (⟨S8x256x256, .f32⟩ : BufTy).Contents (Elt F)),
    unary main_v34 main_v35 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    nary ![main_v7, main_v11, main_v15, main_v19, main_v23, main_v27, main_v31, main_v35] main_v36 (fun u => concatenate S8x8x256x256 1 [⟨S8x1x256x256, u 0⟩, ⟨S8x1x256x256, u 1⟩, ⟨S8x1x256x256, u 2⟩, ⟨S8x1x256x256, u 3⟩, ⟨S8x1x256x256, u 4⟩, ⟨S8x1x256x256, u 5⟩, ⟨S8x1x256x256, u 6⟩, ⟨S8x1x256x256, u 7⟩] concatenates_S8x1x256x256_S8x1x256x256_S8x1x256x256_S8x1x256x256_S8x1x256x256_S8x1x256x256_S8x1x256x256_S8x1x256x256_S8x8x256x256_d1) ]

-- sixty-five sequenced steps re-associated: one level of nesting per step
set_option maxRecDepth 2048 in
/-- @main is that straight line: the functions' definitions unfolded at their calls and the records at their fields,
    both sides are one chain of operation steps once sequencing is reassociated. -/
theorem main_eq (c : Dev nD) : main (F := F) c = seq ops := by
  simp only [main, fn_norm.body, fn_pad.body, fn_flip.body, fn_flip_0.body, seq, bind_assoc, pure_bind]

/-- No buffer of the signature is scoped: every one is a tensor value of @main. -/
theorem scopedRefs_eq : (Finset.univ.filter fun b : Ref sig .tc => b.isScoped) = ∅ := by decide
/-- The signature has no semaphore. -/
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨binary_bufs_sub .., nullary_bufs_sub .., binary_bufs_sub .., unary_bufs_sub .., unary_bufs_sub ..,
    unary_bufs_sub .., binary_bufs_sub .., nullary_bufs_sub ..,
    unary_bufs_sub .., unary_bufs_sub .., unary_bufs_sub .., binary_bufs_sub ..,
    unary_bufs_sub .., unary_bufs_sub .., unary_bufs_sub .., binary_bufs_sub ..,
    unary_bufs_sub .., unary_bufs_sub .., unary_bufs_sub .., binary_bufs_sub ..,
    unary_bufs_sub .., unary_bufs_sub .., unary_bufs_sub .., binary_bufs_sub ..,
    unary_bufs_sub .., binary_bufs_sub .., nullary_bufs_sub .., binary_bufs_sub .., unary_bufs_sub ..,
    unary_bufs_sub .., binary_bufs_sub .., nullary_bufs_sub .., binary_bufs_sub .., unary_bufs_sub ..,
    unary_bufs_sub .., binary_bufs_sub .., nullary_bufs_sub .., binary_bufs_sub .., unary_bufs_sub ..,
    unary_bufs_sub .., binary_bufs_sub .., nullary_bufs_sub .., binary_bufs_sub .., unary_bufs_sub ..,
    unary_bufs_sub .., binary_bufs_sub .., nullary_bufs_sub .., binary_bufs_sub .., unary_bufs_sub ..,
    unary_bufs_sub .., binary_bufs_sub .., nullary_bufs_sub .., binary_bufs_sub .., unary_bufs_sub ..,
    unary_bufs_sub .., binary_bufs_sub .., nullary_bufs_sub .., binary_bufs_sub .., unary_bufs_sub ..,
    unary_bufs_sub .., binary_bufs_sub .., nullary_bufs_sub .., binary_bufs_sub .., unary_bufs_sub ..,
    nary_bufs_sub ..⟩

/-! ## The composed term

The evidence that a join's operand shapes fit its result depends on the operand list, so an equation between
operands does not carry through the list as it stands; the two joins that occur (of two arrays, in the padding; of
eight, at the end) are therefore read as functions of their operands (`cat2`, `cat8`), the shapes and the evidence
fixed, under which each operand is an ordinary argument. -/

/-- The join of two arrays along an axis, the operands as arguments. -/
def cat2 (t : Shape) (a : Fin t.rank) {s₀ s₁ : Shape} (h : Shape.Concatenates [s₀, s₁] t a)
    (x₀ : FVec F s₀ .f32) (x₁ : FVec F s₁ .f32) : FVec F t .f32 :=
  concatenate t a [⟨s₀, x₀⟩, ⟨s₁, x₁⟩] h

theorem cat2_eq (t : Shape) (a : Fin t.rank) {s₀ s₁ : Shape} (h : Shape.Concatenates [s₀, s₁] t a)
    (x₀ : FVec F s₀ .f32) (x₁ : FVec F s₁ .f32) :
    concatenate t a [⟨s₀, x₀⟩, ⟨s₁, x₁⟩] h = cat2 t a h x₀ x₁ := rfl

/-- The join of eight arrays along an axis, the operands as arguments. -/
def cat8 (t : Shape) (a : Fin t.rank) {s₀ s₁ s₂ s₃ s₄ s₅ s₆ s₇ : Shape}
    (h : Shape.Concatenates [s₀, s₁, s₂, s₃, s₄, s₅, s₆, s₇] t a)
    (x₀ : FVec F s₀ .f32) (x₁ : FVec F s₁ .f32) (x₂ : FVec F s₂ .f32) (x₃ : FVec F s₃ .f32)
    (x₄ : FVec F s₄ .f32) (x₅ : FVec F s₅ .f32) (x₆ : FVec F s₆ .f32) (x₇ : FVec F s₇ .f32) : FVec F t .f32 :=
  concatenate t a [⟨s₀, x₀⟩, ⟨s₁, x₁⟩, ⟨s₂, x₂⟩, ⟨s₃, x₃⟩, ⟨s₄, x₄⟩, ⟨s₅, x₅⟩, ⟨s₆, x₆⟩, ⟨s₇, x₇⟩] h

theorem cat8_eq (t : Shape) (a : Fin t.rank) {s₀ s₁ s₂ s₃ s₄ s₅ s₆ s₇ : Shape}
    (h : Shape.Concatenates [s₀, s₁, s₂, s₃, s₄, s₅, s₆, s₇] t a)
    (x₀ : FVec F s₀ .f32) (x₁ : FVec F s₁ .f32) (x₂ : FVec F s₂ .f32) (x₃ : FVec F s₃ .f32)
    (x₄ : FVec F s₄ .f32) (x₅ : FVec F s₅ .f32) (x₆ : FVec F s₆ .f32) (x₇ : FVec F s₇ .f32) :
    concatenate t a [⟨s₀, x₀⟩, ⟨s₁, x₁⟩, ⟨s₂, x₂⟩, ⟨s₃, x₃⟩, ⟨s₄, x₄⟩, ⟨s₅, x₅⟩, ⟨s₆, x₆⟩, ⟨s₇, x₇⟩] h
      = cat8 t a h x₀ x₁ x₂ x₃ x₄ x₅ x₆ x₇ := rfl

attribute [local irreducible] Host.reduceAdd Host.reverse concatenate extractStridedSlice broadcastInDim in
set_option maxHeartbeats 2000000 in
set_option maxRecDepth 8192 in
/-- After the line the result buffer holds `refTerm` of the argument: each operation leaves its function's value at
    its own result buffer and every other buffer as it was, so reading the result back through the line composes
    the functions — the eight sums joined, each over the product of the normalised array with a slice of its
    padding — and that composition is `refTerm` by unfolding (the moves between a buffer's type and its value's
    type are the identity at these references; the sums, reversals, slices, broadcasts and joins stay folded, the
    equation never looks inside them). -/
theorem out_eq (V : Valuation τ sig (Elt F)) :
    after ops V (main_v36 : DevRef τ sig) = refTerm (V (main_arg0 : DevRef τ sig)) := by
  simp (disch := decide) only [after_cons, after_nil, nullary_result', unary_result', binary_result', nary_result',
      nullary_result_ne', unary_result_ne', binary_result_ne', nary_result_ne', Matrix.cons_val, cat2_eq, cat8_eq]
  rfl

set_option maxHeartbeats 2000000 in
set_option maxRecDepth 8192 in
/-- No operation of the line writes the argument. -/
theorem arg0_eq (V : Valuation τ sig (Elt F)) :
    after ops V (main_arg0 : DevRef τ sig) = V (main_arg0 : DevRef τ sig) := by
  after_results_simp

/-- The reference's run: every weakly fair execution of @main terminates with the result at `refTerm` of the
    argument's launch contents, the argument unchanged. -/
theorem ref_run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v36) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v36).trans (out_eq (launchContents m c)),
      (h c main_arg0).trans (arg0_eq (launchContents m c))⟩)
    (run_seq scopedRefs_eq scopedSems_eq defs main (fun _ => ops) main_eq (fun _ => ops_sub) m ρ)

end NbrCorr.Ref

end
-- ==== Proof.RefPad.lean ====
import proofs.«139142_j85993835201175_1_alg».proof.Proof.Gen.ReferenceIdeal
import proofs.«139142_j85993835201175_1_alg».proof.Proof.RefTerm
import proofs.«139142_j85993835201175_1_alg».proof.Proof.Spec
import Idealize.ShloMosaic.Lib.Pipeline.Value
import Idealize.ShloMosaic.Lib.ValueLayout

noncomputable section

namespace NbrCorr.Ref

open Idealize.ShloMosaic Idealize.ShloMosaic.ValueIdx Idealize.ShloMosaic.TcCoe Idealize.SL.Sem Idealize.ShloMosaic.StableHlo Cert.ReferenceIdeal Cert.ReferenceIdeal.Gen

/-! ## The layout operations of a rank-4 array at explicit coordinates -/

section Layout
variable {α : Type}

/-- Reversal along axis 2 when its extent is one: the single position is its own mirror image, so nothing moves. -/
theorem reverse4_axis2_unit {n0 n1 n3 : Nat} (X : (⟨4, ![n0, n1, 1, n3]⟩ : Shape).Idx → α)
    (j : (⟨4, ![n0, n1, 1, n3]⟩ : Shape).Idx) : Host.reverse [2] X j = X j := by
  unfold Host.reverse
  congr 1
  funext ax
  split_ifs with hax
  · obtain rfl : ax = 2 := by simpa using hax
    apply Fin.ext
    have h1 : (j 2).val < 1 := (j 2).isLt
    rw [Fin.val_rev]
    show 1 - ((j 2).val + 1) = (j 2).val
    omega
  · rfl

/-- Reversal along axis 3 when its extent is one: likewise the identity. -/
theorem reverse4_axis3_unit {n0 n1 n2 : Nat} (X : (⟨4, ![n0, n1, n2, 1]⟩ : Shape).Idx → α)
    (j : (⟨4, ![n0, n1, n2, 1]⟩ : Shape).Idx) : Host.reverse [3] X j = X j := by
  unfold Host.reverse
  congr 1
  funext ax
  split_ifs with hax
  · obtain rfl : ax = 3 := by simpa using hax
    apply Fin.ext
    have h1 : (j 3).val < 1 := (j 3).isLt
    rw [Fin.val_rev]
    show 1 - ((j 3).val + 1) = (j 3).val
    omega
  · rfl

/-- A rank-4 array cut along axis 3 from `o` reads, at `(a, b, e, j)`, the source at `(a, b, e, k)` with `k = o + j`. -/
theorem slice4_axis3_apply {n0 n1 n2 n3 m : Nat} (o : Nat) (X : (⟨4, ![n0, n1, n2, n3]⟩ : Shape).Idx → α)
    (h : (⟨4, ![n0, n1, n2, n3]⟩ : Shape).Slices ![0, 0, 0, o] ⟨4, ![n0, n1, n2, m]⟩)
    (a : Fin n0) (b : Fin n1) (e : Fin n2) (j : Fin m) (k : Fin n3) (hk : k.val = o + j.val) :
    extractStridedSlice ⟨4, ![n0, n1, n2, m]⟩ ![0, 0, 0, o] X h (ix4 a b e j) = X (ix4 a b e k) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => exact hk)

/-- Two arrays joined along axis 2, read at a position inside the first: the first array at that position. -/
theorem cat4_axis2_left {n0 n1 n3 m1 m2 m : Nat}
    (x₁ : (⟨4, ![n0, n1, m1, n3]⟩ : Shape).Idx → α) (x₂ : (⟨4, ![n0, n1, m2, n3]⟩ : Shape).Idx → α)
    (h : Shape.Concatenates [⟨4, ![n0, n1, m1, n3]⟩, ⟨4, ![n0, n1, m2, n3]⟩] ⟨4, ![n0, n1, m, n3]⟩ 2)
    (a : Fin n0) (b : Fin n1) (j : Fin m) (e : Fin n3) (k : Fin m1) (hk : k.val = j.val) :
    concatenate ⟨4, ![n0, n1, m, n3]⟩ 2 [⟨⟨4, ![n0, n1, m1, n3]⟩, x₁⟩, ⟨⟨4, ![n0, n1, m2, n3]⟩, x₂⟩] h (ix4 a b j e)
      = x₁ (ix4 a b k e) :=
  concatenate_pair_apply_left 2 x₁ x₂ h _ rfl _ (fun ax => by
    match ax with
    | ⟨0, _⟩ => rfl
    | ⟨1, _⟩ => rfl
    | ⟨2, _⟩ => exact hk
    | ⟨3, _⟩ => rfl)

/-- Two arrays joined along axis 2, read at a position past the first: the second array, the first's extent less. -/
theorem cat4_axis2_right {n0 n1 n3 m1 m2 m : Nat}
    (x₁ : (⟨4, ![n0, n1, m1, n3]⟩ : Shape).Idx → α) (x₂ : (⟨4, ![n0, n1, m2, n3]⟩ : Shape).Idx → α)
    (h : Shape.Concatenates [⟨4, ![n0, n1, m1, n3]⟩, ⟨4, ![n0, n1, m2, n3]⟩] ⟨4, ![n0, n1, m, n3]⟩ 2)
    (a : Fin n0) (b : Fin n1) (j : Fin m) (e : Fin n3) (k : Fin m2) (hk : k.val + m1 = j.val) :
    concatenate ⟨4, ![n0, n1, m, n3]⟩ 2 [⟨⟨4, ![n0, n1, m1, n3]⟩, x₁⟩, ⟨⟨4, ![n0, n1, m2, n3]⟩, x₂⟩] h (ix4 a b j e)
      = x₂ (ix4 a b k e) :=
  concatenate_pair_apply_right 2 x₁ x₂ h _ rfl rfl _ (fun ax hax => by
    match ax, hax with
    | ⟨0, _⟩, _ => rfl
    | ⟨1, _⟩, _ => rfl
    | ⟨2, _⟩, hax => exact absurd rfl hax
    | ⟨3, _⟩, _ => rfl) hk

/-- Two arrays joined along axis 3, read at a position inside the first. -/
theorem cat4_axis3_left {n0 n1 n2 m1 m2 m : Nat}
    (x₁ : (⟨4, ![n0, n1, n2, m1]⟩ : Shape).Idx → α) (x₂ : (⟨4, ![n0, n1, n2, m2]⟩ : Shape).Idx → α)
    (h : Shape.Concatenates [⟨4, ![n0, n1, n2, m1]⟩, ⟨4, ![n0, n1, n2, m2]⟩] ⟨4, ![n0, n1, n2, m]⟩ 3)
    (a : Fin n0) (b : Fin n1) (e : Fin n2) (j : Fin m) (k : Fin m1) (hk : k.val = j.val) :
    concatenate ⟨4, ![n0, n1, n2, m]⟩ 3 [⟨⟨4, ![n0, n1, n2, m1]⟩, x₁⟩, ⟨⟨4, ![n0, n1, n2, m2]⟩, x₂⟩] h (ix4 a b e j)
      = x₁ (ix4 a b e k) :=
  concatenate_pair_apply_left 3 x₁ x₂ h _ rfl _ (fun ax => by
    match ax with
    | ⟨0, _⟩ => rfl
    | ⟨1, _⟩ => rfl
    | ⟨2, _⟩ => rfl
    | ⟨3, _⟩ => exact hk)

/-- Two arrays joined along axis 3, read at a position past the first. -/
theorem cat4_axis3_right {n0 n1 n2 m1 m2 m : Nat}
    (x₁ : (⟨4, ![n0, n1, n2, m1]⟩ : Shape).Idx → α) (x₂ : (⟨4, ![n0, n1, n2, m2]⟩ : Shape).Idx → α)
    (h : Shape.Concatenates [⟨4, ![n0, n1, n2, m1]⟩, ⟨4, ![n0, n1, n2, m2]⟩] ⟨4, ![n0, n1, n2, m]⟩ 3)
    (a : Fin n0) (b : Fin n1) (e : Fin n2) (j : Fin m) (k : Fin m2) (hk : k.val + m1 = j.val) :
    concatenate ⟨4, ![n0, n1, n2, m]⟩ 3 [⟨⟨4, ![n0, n1, n2, m1]⟩, x₁⟩, ⟨⟨4, ![n0, n1, n2, m2]⟩, x₂⟩] h (ix4 a b e j)
      = x₂ (ix4 a b e k) :=
  concatenate_pair_apply_right 3 x₁ x₂ h _ rfl rfl _ (fun ax hax => by
    match ax, hax with
    | ⟨0, _⟩, _ => rfl
    | ⟨1, _⟩, _ => rfl
    | ⟨2, _⟩, _ => rfl
    | ⟨3, _⟩, hax => exact absurd rfl hax) hk

end Layout

/-! ## Width-one reflect padding of one axis, in two joins

Joining the row next to the front edge (position 1) in front moves every position one up and puts row 1 at
position 0; joining row `o` of that result behind puts it at the last position. Each is read at explicit coordinates. -/

section Reflect
variable {α : Type}

/-- Row 1 joined in front along axis 2: position 0 reads row 1, position `j > 0` reads row `j - 1`. -/
theorem reflFront2 {n0 n1 n2 n3 m : Nat} (X : (⟨4, ![n0, n1, n2, n3]⟩ : Shape).Idx → α)
    (hs : (⟨4, ![n0, n1, n2, n3]⟩ : Shape).Slices ![0, 0, 1, 0] ⟨4, ![n0, n1, 1, n3]⟩)
    (hc : Shape.Concatenates [⟨4, ![n0, n1, 1, n3]⟩, ⟨4, ![n0, n1, n2, n3]⟩] ⟨4, ![n0, n1, m, n3]⟩ 2)
    (a : Fin n0) (b : Fin n1) (j : Fin m) (e : Fin n3) (k : Fin n2)
    (hk : k.val = if j.val = 0 then 1 else j.val - 1) :
    concatenate ⟨4, ![n0, n1, m, n3]⟩ 2
      [⟨⟨4, ![n0, n1, 1, n3]⟩, Host.reverse [2] (extractStridedSlice ⟨4, ![n0, n1, 1, n3]⟩ ![0, 0, 1, 0] X hs)⟩,
       ⟨⟨4, ![n0, n1, n2, n3]⟩, X⟩] hc (ix4 a b j e) = X (ix4 a b k e) := by
  by_cases hj : j.val = 0
  · rw [if_pos hj] at hk
    rw [cat4_axis2_left _ _ hc a b j e ⟨0, Nat.one_pos⟩ hj.symm, reverse4_axis2_unit,
      slice4_axis2_apply 1 X hs a b ⟨0, Nat.one_pos⟩ e k (by simpa using hk)]
  · rw [if_neg hj] at hk
    exact cat4_axis2_right _ _ hc a b j e k (by omega)

/-- Row `o` joined behind along axis 2: a position inside reads itself, the last position reads row `o`. -/
theorem reflBack2 {n0 n1 n2 n3 m : Nat} (o : Nat) (X : (⟨4, ![n0, n1, n2, n3]⟩ : Shape).Idx → α)
    (hs : (⟨4, ![n0, n1, n2, n3]⟩ : Shape).Slices ![0, 0, o, 0] ⟨4, ![n0, n1, 1, n3]⟩)
    (hc : Shape.Concatenates [⟨4, ![n0, n1, n2, n3]⟩, ⟨4, ![n0, n1, 1, n3]⟩] ⟨4, ![n0, n1, m, n3]⟩ 2)
    (hm : m = n2 + 1) (a : Fin n0) (b : Fin n1) (j : Fin m) (e : Fin n3) (k : Fin n2)
    (hk : k.val = if j.val < n2 then j.val else o) :
    concatenate ⟨4, ![n0, n1, m, n3]⟩ 2
      [⟨⟨4, ![n0, n1, n2, n3]⟩, X⟩,
       ⟨⟨4, ![n0, n1, 1, n3]⟩, Host.reverse [2] (extractStridedSlice ⟨4, ![n0, n1, 1, n3]⟩ ![0, 0, o, 0] X hs)⟩]
      hc (ix4 a b j e) = X (ix4 a b k e) := by
  by_cases hj : j.val < n2
  · rw [if_pos hj] at hk
    exact cat4_axis2_left _ _ hc a b j e k hk
  · rw [if_neg hj] at hk
    have hjl := j.isLt
    rw [cat4_axis2_right _ _ hc a b j e ⟨0, Nat.one_pos⟩ (by simp; omega), reverse4_axis2_unit,
      slice4_axis2_apply o X hs a b ⟨0, Nat.one_pos⟩ e k (by simpa using hk)]

/-- Column 1 joined in front along axis 3: position 0 reads column 1, position `j > 0` reads column `j - 1`. -/
theorem reflFront3 {n0 n1 n2 n3 m : Nat} (X : (⟨4, ![n0, n1, n2, n3]⟩ : Shape).Idx → α)
    (hs : (⟨4, ![n0, n1, n2, n3]⟩ : Shape).Slices ![0, 0, 0, 1] ⟨4, ![n0, n1, n2, 1]⟩)
    (hc : Shape.Concatenates [⟨4, ![n0, n1, n2, 1]⟩, ⟨4, ![n0, n1, n2, n3]⟩] ⟨4, ![n0, n1, n2, m]⟩ 3)
    (a : Fin n0) (b : Fin n1) (e : Fin n2) (j : Fin m) (k : Fin n3)
    (hk : k.val = if j.val = 0 then 1 else j.val - 1) :
    concatenate ⟨4, ![n0, n1, n2, m]⟩ 3
      [⟨⟨4, ![n0, n1, n2, 1]⟩, Host.reverse [3] (extractStridedSlice ⟨4, ![n0, n1, n2, 1]⟩ ![0, 0, 0, 1] X hs)⟩,
       ⟨⟨4, ![n0, n1, n2, n3]⟩, X⟩] hc (ix4 a b e j) = X (ix4 a b e k) := by
  by_cases hj : j.val = 0
  · rw [if_pos hj] at hk
    rw [cat4_axis3_left _ _ hc a b e j ⟨0, Nat.one_pos⟩ hj.symm, reverse4_axis3_unit,
      slice4_axis3_apply 1 X hs a b e ⟨0, Nat.one_pos⟩ k (by simpa using hk)]
  · rw [if_neg hj] at hk
    exact cat4_axis3_right _ _ hc a b e j k (by omega)

/-- Column `o` joined behind along axis 3: a position inside reads itself, the last position reads column `o`. -/
theorem reflBack3 {n0 n1 n2 n3 m : Nat} (o : Nat) (X : (⟨4, ![n0, n1, n2, n3]⟩ : Shape).Idx → α)
    (hs : (⟨4, ![n0, n1, n2, n3]⟩ : Shape).Slices ![0, 0, 0, o] ⟨4, ![n0, n1, n2, 1]⟩)
    (hc : Shape.Concatenates [⟨4, ![n0, n1, n2, n3]⟩, ⟨4, ![n0, n1, n2, 1]⟩] ⟨4, ![n0, n1, n2, m]⟩ 3)
    (hm : m = n3 + 1) (a : Fin n0) (b : Fin n1) (e : Fin n2) (j : Fin m) (k : Fin n3)
    (hk : k.val = if j.val < n3 then j.val else o) :
    concatenate ⟨4, ![n0, n1, n2, m]⟩ 3
      [⟨⟨4, ![n0, n1, n2, n3]⟩, X⟩,
       ⟨⟨4, ![n0, n1, n2, 1]⟩, Host.reverse [3] (extractStridedSlice ⟨4, ![n0, n1, n2, 1]⟩ ![0, 0, 0, o] X hs)⟩]
      hc (ix4 a b e j) = X (ix4 a b e k) := by
  by_cases hj : j.val < n3
  · rw [if_pos hj] at hk
    exact cat4_axis3_left _ _ hc a b e j k hk
  · rw [if_neg hj] at hk
    have hjl := j.isLt
    rw [cat4_axis3_right _ _ hc a b e j ⟨0, Nat.one_pos⟩ (by simp; omega), reverse4_axis3_unit,
      slice4_axis3_apply o X hs a b e ⟨0, Nat.one_pos⟩ k (by simpa using hk)]

end Reflect

/-- The two joins together are the reflection: in front, then row 255 of the result (original row 254) behind. -/
theorem refl_two_step {k : ℕ} (hk : k < 258) :
    refl k = if (if k < 257 then k else 255) = 0 then 1 else (if k < 257 then k else 255) - 1 := by
  unfold refl
  by_cases h0 : k = 0
  · subst h0; simp
  · by_cases h1 : k = 257
    · subst h1; simp
    · have h2 : k < 257 := by omega
      rw [if_neg h0, if_neg h1, if_pos h2, if_neg h0]

/-! ## The reference's padding, stage by stage -/

section Stages
variable (y : FVec Ideal S8x128x256x256 .f32)

/-- Rows: row 1 joined in front (extent 257 on axis 2). -/
def padV3 : FVec Ideal S8x128x257x256 .f32 := concatenate S8x128x257x256 2
    [⟨S8x128x1x256, Host.reverse [2] (extractStridedSlice S8x128x1x256 ![0, 0, 1, 0] y Facts₀.slices_S8x128x256x256_S8x128x1x256_0_0_1_0)⟩,
     ⟨S8x128x256x256, y⟩] Facts₀.concatenates_S8x128x1x256_S8x128x256x256_S8x128x257x256_d2

/-- Rows: row 255 of that joined behind (extent 258 on axis 2). -/
def padV7 : FVec Ideal S8x128x258x256 .f32 := concatenate S8x128x258x256 2
    [⟨S8x128x257x256, padV3 y⟩,
     ⟨S8x128x1x256, Host.reverse [2] (extractStridedSlice S8x128x1x256 ![0, 0, 255, 0] (padV3 y) Facts₀.slices_S8x128x257x256_S8x128x1x256_0_0_255_0)⟩]
    Facts₀.concatenates_S8x128x257x256_S8x128x1x256_S8x128x258x256_d2

/-- Columns: column 1 joined in front (extent 257 on axis 3). -/
def padV11 : FVec Ideal S8x128x258x257 .f32 := concatenate S8x128x258x257 3
    [⟨S8x128x258x1, Host.reverse [3] (extractStridedSlice S8x128x258x1 ![0, 0, 0, 1] (padV7 y) Facts₀.slices_S8x128x258x256_S8x128x258x1_0_0_0_1)⟩,
     ⟨S8x128x258x256, padV7 y⟩] Facts₀.concatenates_S8x128x258x1_S8x128x258x256_S8x128x258x257_d3

/-- The padded array is the last join: column 255 of the third stage behind it. -/
theorem padT_eq : padT (F := Ideal) y = concatenate S8x128x258x258 3
    [⟨S8x128x258x257, padV11 y⟩,
     ⟨S8x128x258x1, Host.reverse [3] (extractStridedSlice S8x128x258x1 ![0, 0, 0, 255] (padV11 y) Facts₀.slices_S8x128x258x257_S8x128x258x1_0_0_0_255)⟩]
    Facts₀.concatenates_S8x128x258x257_S8x128x258x1_S8x128x258x258_d3 := rfl

/-- Stage one at an index: padded row `h` of 257 reads row 1 at `h = 0`, else row `h - 1`. -/
theorem padV3_apply (b : Fin 8) (c : Fin 128) (h : Fin 257) (w : Fin 256) (k : Fin 256)
    (hk : k.val = if h.val = 0 then 1 else h.val - 1) : padV3 y (ix4 b c h w) = y (ix4 b c k w) :=
  reflFront2 y _ _ b c h w k hk

/-- Stage two at an index: padded row `h` of 258 reads row `refl h`. -/
theorem padV7_apply (b : Fin 8) (c : Fin 128) (h : Fin 258) (w : Fin 256) (k : Fin 256)
    (hk : k.val = refl h.val) : padV7 y (ix4 b c h w) = y (ix4 b c k w) := by
  have hlt : (if h.val < 257 then h.val else 255) < 257 := by split_ifs <;> omega
  refine (reflBack2 255 (padV3 y) _ _ rfl b c h w ⟨_, hlt⟩ rfl).trans ?_
  exact padV3_apply y b c _ w k (hk.trans (refl_two_step h.isLt))

/-- Stage three at an index: padded column `w` of 257 reads column 1 at `w = 0`, else column `w - 1`, of stage two. -/
theorem padV11_apply (b : Fin 8) (c : Fin 128) (h : Fin 258) (w : Fin 257) (k : Fin 256)
    (hk : k.val = if w.val = 0 then 1 else w.val - 1) : padV11 y (ix4 b c h w) = padV7 y (ix4 b c h k) :=
  reflFront3 (padV7 y) _ _ b c h w k hk

end Stages

/-- The reference's width-one reflect padding of axes 2 and 3, read at an index: padded position (h, w) reads
    (refl h, refl w) of the array it pads. -/
theorem padT_apply (y : FVec Ideal S8x128x256x256 .f32) (b : Fin 8) (c : Fin 128) (h w : Fin 258) :
    padT (F := Ideal) y (ix4 b c h w) = y (ix4 b c ⟨refl h.val, refl_lt h.isLt⟩ ⟨refl w.val, refl_lt w.isLt⟩) := by
  have hlt : (if w.val < 257 then w.val else 255) < 257 := by split_ifs <;> omega
  rw [padT_eq]
  refine (reflBack3 255 (padV11 y) _ _ rfl b c h w ⟨_, hlt⟩ rfl).trans ?_
  refine (padV11_apply y b c h _ ⟨refl w.val, refl_lt w.isLt⟩ (refl_two_step w.isLt)).trans ?_
  exact padV7_apply y b c h _ _ rfl

end NbrCorr.Ref

end
-- ==== Proof.RefValue.lean ====
import proofs.«139142_j85993835201175_1_alg».proof.Proof.Gen.ReferenceIdeal
import proofs.«139142_j85993835201175_1_alg».proof.Proof.RefTerm
import proofs.«139142_j85993835201175_1_alg».proof.Proof.Spec
import proofs.«139142_j85993835201175_1_alg».proof.Proof.RefPad
import Idealize.ShloMosaic.Lib.Pipeline.Value
import Idealize.ShloMosaic.Lib.ValueLayout
import Idealize.ShloMosaic.Lib.IdealHost
import Idealize.ShloMosaic.PureOps.Ideal.Laws

noncomputable section

namespace NbrCorr.Ref

open Idealize.ShloMosaic Idealize.ShloMosaic.ValueIdx Idealize.ShloMosaic.TcCoe Idealize.SL.Sem Idealize.ShloMosaic.StableHlo Cert.ReferenceIdeal Cert.ReferenceIdeal.Gen

/-- The channel axis (axis 1) dropped from [8,128,256,256] leaves [8,256,256]. -/
theorem red_d1 : S8x128x256x256.Reduces [1] S8x256x256 := by decide

/-- The index over (b, h, w) with channel c inserted on the dropped axis is (b, c, h, w). -/
theorem lift_d1 (b : Fin 8) (h w : Fin 256) (c : Fin 128) :
    red_d1.lift (ix3 b h w) c = ix4 b c h w := by
  funext a
  apply Fin.ext
  match a with
  | ⟨0, _⟩ => rfl
  | ⟨1, _⟩ => rfl
  | ⟨2, _⟩ => rfl
  | ⟨3, _⟩ => rfl

/-- The channel-wise norm at a pixel is the specification's norm. -/
theorem normT_apply (x : FVec Ideal S8x128x256x256 .f32) (b : Fin 8) (u : Fin 1) (h w : Fin 256) :
    normT (F := Ideal) x (ix4 b u h w) = nrm x b h w := by
  unfold normT nrm
  show Ideal.sqrt _ = Ideal.sqrt _
  congr 1
  rw [broadcastInDim_apply _ _ _ (ix4 b u h w) (ix3 b h w) (by
    intro a
    match a with
    | ⟨0, _⟩ => rfl
    | ⟨1, _⟩ => rfl
    | ⟨2, _⟩ => rfl)]
  rw [hostReduceAdd_apply, Ideal.hostReduceAdd_single _ red_d1, constant_apply, Ideal.ofBits_zero_f32, zero_add]
  unfold sumsq
  refine Finset.sum_congr rfl fun c _ => ?_
  rw [mulf_apply, lift_d1 b h w c]

/-- The normalised array at (b, c, h, w): the input there divided by the norm of the pixel (b, h, w). -/
theorem normedT_apply (x : FVec Ideal S8x128x256x256 .f32) (b : Fin 8) (c : Fin 128) (h w : Fin 256) :
    normedT (F := Ideal) x (ix4 b c h w) = Ideal.div (x (ix4 b c h w)) (nrm x b h w) := by
  unfold normedT
  rw [hostDivf_apply]
  rw [broadcastInDim_apply _ _ _ (ix4 b c h w) (ix4 b (0 : Fin 1) h w) (by
    intro a
    match a with
    | ⟨0, _⟩ => rfl
    | ⟨1, _⟩ => rfl
    | ⟨2, _⟩ => rfl
    | ⟨3, _⟩ => rfl)]
  rw [normT_apply]

/-- One neighbour's correlation at a pixel, for any slice start (oh, ow) on the last two axes: the sum over the
    channels of the first array at the pixel times the padded array at the pixel shifted by the start. -/
theorem corrT_apply (y : FVec Ideal S8x128x256x256 .f32) (p : FVec Ideal S8x128x258x258 .f32) (off : Fin 4 → Nat)
    (hs : S8x128x258x258.Slices off S8x128x256x256) (oh ow : Nat)
    (h0 : off 0 = 0) (h1 : off 1 = 0) (h2 : off 2 = oh) (h3 : off 3 = ow)
    (b : Fin 8) (u : Fin 1) (h w : Fin 256) (hh : oh + h.val < 258) (hw : ow + w.val < 258) :
    corrT (F := Ideal) y p off hs (ix4 b u h w)
      = ∑ c : Fin 128, y (ix4 b c h w) * p (ix4 b c ⟨oh + h.val, hh⟩ ⟨ow + w.val, hw⟩) := by
  unfold corrT
  rw [broadcastInDim_apply _ _ _ (ix4 b u h w) (ix3 b h w) (by
    intro a
    match a with
    | ⟨0, _⟩ => rfl
    | ⟨1, _⟩ => rfl
    | ⟨2, _⟩ => rfl)]
  rw [hostReduceAdd_apply, Ideal.hostReduceAdd_single _ red_d1, constant_apply, Ideal.ofBits_zero_f32, zero_add]
  refine Finset.sum_congr rfl fun c _ => ?_
  rw [mulf_apply, lift_d1 b h w c]
  congr 1
  refine extractStridedSlice_apply off p hs (ix4 b c h w) _ ?_
  intro a
  match a with
  | ⟨0, _⟩ => show b.val = off 0 + b.val; omega
  | ⟨1, _⟩ => show c.val = off 1 + c.val; omega
  | ⟨2, _⟩ => show oh + h.val = off 2 + h.val; omega
  | ⟨3, _⟩ => show ow + w.val = off 3 + w.val; omega

/-- Neighbour i's piece at a pixel is the specification's normalise-first sum: the slice starts at
    (offH i, offW i), the padded position k reads original position refl k, and the normalised array is the
    input divided by the pixel's norm. -/
theorem piece_apply (x : FVec Ideal S8x128x256x256 .f32) (i : Fin 8) (off : Fin 4 → Nat)
    (hs : S8x128x258x258.Slices off S8x128x256x256)
    (h0 : off 0 = 0) (h1 : off 1 = 0) (h2 : off 2 = offH i) (h3 : off 3 = offW i)
    (b : Fin 8) (u : Fin 1) (h w : Fin 256) :
    corrT (F := Ideal) (normedT x) (padT (normedT x)) off hs (ix4 b u h w) = Rat x b i h w := by
  have hh : offH i + h.val < 258 := by have := offH_le i; have := h.isLt; omega
  have hw : offW i + w.val < 258 := by have := offW_le i; have := w.isLt; omega
  rw [corrT_apply _ _ off hs (offH i) (offW i) h0 h1 h2 h3 b u h w hh hw]
  unfold Rat
  refine Finset.sum_congr rfl fun c _ => ?_
  rw [padT_apply, normedT_apply, normedT_apply]
  rfl

/-- The reference's term, read index by index at the ideal instance, is the specification's R (normalise first). -/
theorem refTerm_eq_R (x : FVec Ideal S8x128x256x256 .f32) : refTerm (F := Ideal) x = R x := by
  funext j
  obtain ⟨b, i, h, w, rfl⟩ : ∃ (b i : Fin 8) (h w : Fin 256), j = ix4 b i h w := ⟨j 0, j 1, j 2, j 3, eq_ix4 j⟩
  rw [R_ix]
  unfold refTerm
  -- off axis 1 the piece is read at the index's own coordinates
  have hi : ∀ (i' : Fin 8) (a : Fin 4), a.cast rfl ≠ (1 : Fin 4) →
      ((ix4 b (0 : Fin 1) h w : S8x1x256x256.Idx) a).val = ((ix4 b i' h w : S8x8x256x256.Idx) (a.cast rfl)).val := by
    intro i' a ha
    match a with
    | ⟨0, _⟩ => rfl
    | ⟨1, _⟩ => exact absurd rfl ha
    | ⟨2, _⟩ => rfl
    | ⟨3, _⟩ => rfl
  fin_cases i
  · refine Eq.trans (concatenate_apply_piece (t := S8x8x256x256) 1 _ _ _ 0 (by simp) S8x1x256x256 _ rfl rfl 0 rfl
      (ix4 b (0 : Fin 1) h w) (hi _) rfl) ?_
    exact piece_apply x _ _ _ (by rfl) (by rfl) (by rfl) (by rfl) b 0 h w
  · refine Eq.trans (concatenate_apply_piece (t := S8x8x256x256) 1 _ _ _ 1 (by simp) S8x1x256x256 _ rfl rfl 1 rfl
      (ix4 b (0 : Fin 1) h w) (hi _) rfl) ?_
    exact piece_apply x _ _ _ (by rfl) (by rfl) (by rfl) (by rfl) b 0 h w
  · refine Eq.trans (concatenate_apply_piece (t := S8x8x256x256) 1 _ _ _ 2 (by simp) S8x1x256x256 _ rfl rfl 2 rfl
      (ix4 b (0 : Fin 1) h w) (hi _) rfl) ?_
    exact piece_apply x _ _ _ (by rfl) (by rfl) (by rfl) (by rfl) b 0 h w
  · refine Eq.trans (concatenate_apply_piece (t := S8x8x256x256) 1 _ _ _ 3 (by simp) S8x1x256x256 _ rfl rfl 3 rfl
      (ix4 b (0 : Fin 1) h w) (hi _) rfl) ?_
    exact piece_apply x _ _ _ (by rfl) (by rfl) (by rfl) (by rfl) b 0 h w
  · refine Eq.trans (concatenate_apply_piece (t := S8x8x256x256) 1 _ _ _ 4 (by simp) S8x1x256x256 _ rfl rfl 4 rfl
      (ix4 b (0 : Fin 1) h w) (hi _) rfl) ?_
    exact piece_apply x _ _ _ (by rfl) (by rfl) (by rfl) (by rfl) b 0 h w
  · refine Eq.trans (concatenate_apply_piece (t := S8x8x256x256) 1 _ _ _ 5 (by simp) S8x1x256x256 _ rfl rfl 5 rfl
      (ix4 b (0 : Fin 1) h w) (hi _) rfl) ?_
    exact piece_apply x _ _ _ (by rfl) (by rfl) (by rfl) (by rfl) b 0 h w
  · refine Eq.trans (concatenate_apply_piece (t := S8x8x256x256) 1 _ _ _ 6 (by simp) S8x1x256x256 _ rfl rfl 6 rfl
      (ix4 b (0 : Fin 1) h w) (hi _) rfl) ?_
    exact piece_apply x _ _ _ (by rfl) (by rfl) (by rfl) (by rfl) b 0 h w
  · refine Eq.trans (concatenate_apply_piece (t := S8x8x256x256) 1 _ _ _ 7 (by simp) S8x1x256x256 _ rfl rfl 7 rfl
      (ix4 b (0 : Fin 1) h w) (hi _) rfl) ?_
    exact piece_apply x _ _ _ (by rfl) (by rfl) (by rfl) (by rfl) b 0 h w

end NbrCorr.Ref

end
-- ==== Proof.PreFacts.lean ====
import proofs.«139142_j85993835201175_1_alg».proof.Pre_finite_inputs
import proofs.«139142_j85993835201175_1_alg».proof.Proof.Spec
import Idealize.ShloMosaic.Lib.ReduceAll
import Idealize.ShloMosaic.Lib.IdealHost
import Idealize.ShloMosaic.PureOps.Ideal.Laws

noncomputable section

namespace NbrCorr

open Idealize.ShloMosaic Idealize.ShloMosaic.ValueIdx

/-- The f32 pattern with exponent all ones, fraction zero and sign clear denotes +∞. -/
private theorem ofBits_inf_f32 : Ideal.ofBits .f32 0x7F800000#32 = (⊤ : EReal) := by
  simp [Ideal.ofBits, Ideal.ieee]

/-- An extended real whose absolute value max a (-a) compares below +∞ is a real number: at ⊥ and at ⊤ the absolute
    value is ⊤ itself. -/
private theorem real_of_abs_lt_top (a : EReal) (h : Ideal.cmp .olt (max a (-a)) ⊤ = 1#1) : ∃ r : ℝ, a = (r : EReal) := by
  induction a using EReal.rec with
  | bot => simp [Ideal.cmp] at h
  | top => simp [Ideal.cmp] at h
  | coe r => exact ⟨r, rfl⟩

/-- A "greater than" comparison that came out 1 is the strict order of the extended reals. -/
private theorem lt_of_cmp_ogt (a b : EReal) (h : Ideal.cmp .ogt a b = 1#1) : b < a := by
  by_contra hn
  have h0 : Ideal.cmp .ogt a b = 0#1 := by simp [Ideal.cmp, hn]
  rw [h0] at h
  exact absurd h (by decide)

/-- The pixel index (b, h, w) with channel c put back on axis 1 is (b, c, h, w). -/
private theorem lift_ix3 (hr : SX.Reduces [1] (⟨3, ![8, 256, 256]⟩ : Shape)) (b : Fin 8) (h w : Fin 256) (c : Fin (SX.size 1)) :
    hr.lift (ix3 b h w) c = ix4 b (⟨c.val, c.isLt⟩ : Fin 128) h w := by
  funext d; apply Fin.ext
  fin_cases d <;> rfl

/-- What the precondition says of the input at the ideal instance: every entry is a real number, and at every
    pixel the channel sum of squares is positive. -/
theorem facts_of_pre [Cert.Pre_finite_inputs.Facts] (x : FVec Ideal Cert.Pre_finite_inputs.S8x128x256x256 .f32)
    (h : Cert.Pre_finite_inputs.fn (F := Ideal) x = fun _ => 1#1) :
    (∀ i, ∃ r : ℝ, x i = (r : EReal)) ∧ (∀ (b : Fin 8) (h w : Fin 256), 0 < sumsq x b h w) := by
  -- the predicate at its one index is the conjunction of two "for all" reductions, each of which is 1
  have e := congrFun h ValueIdx.ix0
  dsimp only [Cert.Pre_finite_inputs.fn] at e
  obtain ⟨ea, eb⟩ := IntOp.andi_eq_one.1 e
  haveI : Subsingleton Cert.Pre_finite_inputs.S_.Idx := ⟨fun a b => funext fun d => d.elim0⟩
  refine ⟨fun i => ?_, fun b hh w => ?_⟩
  · -- first conjunct at entry i: |x i| < +∞, so x i is neither ⊥ nor ⊤
    have hi := Host.reduce_andi_all _ _ _ _ _ ea i
    rw [cmpf_apply, broadcastInDim_scalar_apply, constant_apply, ofBits_inf_f32] at hi
    exact real_of_abs_lt_top (x i) hi
  · -- second conjunct at pixel (b, h, w): 0 + ∑ over the 128 channels c of x(b,c,h,w) * x(b,c,h,w) is above 0
    have hi := Host.reduce_andi_all _ _ _ _ _ eb (ix3 b hh w)
    rw [cmpf_apply, broadcastInDim_scalar_apply, constant_apply, Ideal.ofBits_zero_f32, hostReduceAdd_apply,
      Ideal.hostReduceAdd_single _ (by decide), constant_apply, Ideal.ofBits_zero_f32, zero_add] at hi
    have hlt := lt_of_cmp_ogt _ _ hi
    simp only [lift_ix3, mulf_apply] at hlt
    exact hlt

end NbrCorr

end
-- ==== Proof.lean ====
/-
  The certificate of the neighbour-correlation kernel against its jnp reference.

  Both programs take feats : f32[8, 128, 256, 256] and return, for each of eight fixed neighbour offsets in the
  width-one reflect-padded image, the correlation over the 128 channels of the channel-normalised feature vector
  of a pixel with that of its neighbour. The reference normalises first (feats / norm, pad, shift, multiply, sum
  over channels); the kernel accumulates, over four chunks of 32 channels, the raw sum of squares and the eight raw
  dot products, and at the last chunk divides each raw dot product by the product of the two pixels' norms.

  Over the extended reals the two agree wherever every entry is finite and no pixel's channel norm is zero: then
  every quantity is a real number, the norms are positive, and (x/n)·(y/n') summed over channels is (Σ x·y)/(n·n')
  (Proof/SpecLaws.lean). At a zero norm the reference's own quotient is 0/0; the precondition carries the
  reference's evident domain, norm ≠ 0 at every pixel, beside finiteness (Proof/PreFacts.lean reads both off it).

  The three frames: the kernel's and the idealized kernel's are the generated frame certificates; the
  reference's is its run (Proof/RefRun.lean) with the result dropped. The ideal pass rewrote nothing, so
  `preserves` is trivial. `algebraic`: the idealized kernel's run ends at K of the argument
  (Proof/KernelRun.lean), the reference's at its composed term (Proof/RefRun.lean), which read index by index is
  R of the argument (Proof/RefValue.lean); R = K under the precondition.
-/
import proofs.«139142_j85993835201175_1_alg».proof.Defs
import proofs.«139142_j85993835201175_1_alg».proof.Proof.Gen.Kernel
import proofs.«139142_j85993835201175_1_alg».proof.Proof.Gen.Kernel.Frame
import proofs.«139142_j85993835201175_1_alg».proof.Proof.Gen.KernelIdeal
import proofs.«139142_j85993835201175_1_alg».proof.Proof.Gen.KernelIdeal.Frame
import proofs.«139142_j85993835201175_1_alg».proof.Proof.Gen.ReferenceIdeal
import proofs.«139142_j85993835201175_1_alg».proof.Proof.Gen.Pre_finite_inputs
import proofs.«139142_j85993835201175_1_alg».proof.Proof.KernelRun
import proofs.«139142_j85993835201175_1_alg».proof.Proof.RefRun
import proofs.«139142_j85993835201175_1_alg».proof.Proof.RefValue
import proofs.«139142_j85993835201175_1_alg».proof.Proof.SpecLaws
import proofs.«139142_j85993835201175_1_alg».proof.Proof.PreFacts
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (NbrCorr.Ref.ref_run (F := Ideal) m ρ)

/-- Both runs end at one array: the kernel's at K of its argument, the reference's at R of the same argument,
    and R = K where the precondition holds. -/
theorem algebraic : Cert.algebraic_KernelIdeal_ReferenceIdeal := by
  intro m ρ m' ρ' hpre hagree
  refine ⟨fun c => NbrCorr.K (m ((c.tc : Thread Cert.KernelIdeal.nD Cert.KernelIdeal.τ).loc Cert.KernelIdeal.main_arg0)),
    NbrCorr.kernel_run m ρ, ?_⟩
  refine (θ_run Cert.ReferenceIdeal.defs _ _).mono (fun _ h c => ⟨(h c).1.trans ?_, (h c).2⟩)
    (NbrCorr.Ref.ref_run (F := Ideal) m' ρ')
  obtain ⟨hfin, hpos⟩ := NbrCorr.facts_of_pre _ (hpre c)
  rw [hagree c, NbrCorr.Ref.refTerm_eq_R]
  exact NbrCorr.R_eq_K _ hfin hpos

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
